-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S8192x256 : Shape := ⟨2, ![8192, 256]⟩
abbrev S1x1 : Shape := ⟨2, ![1, 1]⟩
abbrev S1024x256 : Shape := ⟨2, ![1024, 256]⟩
abbrev S1024 : Shape := ⟨1, ![1024]⟩
abbrev S1024x1 : Shape := ⟨2, ![1024, 1]⟩
abbrev S1024x1024 : Shape := ⟨2, ![1024, 1024]⟩
abbrev S1x1024 : Shape := ⟨2, ![1, 1024]⟩
abbrev S1 : Shape := ⟨1, ![1]⟩
abbrev S_ : Shape := ⟨0, ![]⟩

abbrev nBuf : Space → Nat
  | .hbm => 18
  | .vmem => 18
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S1x1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1x1, .f32⟩
  | .local _ .vmem, ⟨5, _⟩ => ⟨S1x1, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1x1, .f32⟩
  | .local _ .vmem, ⟨11, _⟩ => ⟨S1x1, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S1x1, .f32⟩
  | .local _ .vmem, ⟨17, _⟩ => ⟨S1x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg0 : BitVec 32 := BitVec.ofNat 32 (i 0).val
  let c7_i32 : BitVec 32 := 7#32
  let v37 : BitVec 1 := Scalar.cmpi .eq arg0 c7_i32
  let arg1 : BitVec 32 := BitVec.ofNat 32 (i 1).val
  let c7_i32_16 : BitVec 32 := 7#32
  let v38 : BitVec 1 := Scalar.cmpi .eq arg1 c7_i32_16
  let v39 : BitVec 1 := Scalar.andi v37 v38
  let v40 : BitVec 32 := Scalar.extui v39
  let c0_i32_17 : BitVec 32 := 0#32
  let v41 : BitVec 1 := Scalar.cmpi .ne v40 c0_i32_17
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev grid1 : Pipeline.Grid := ⟨2, ![8, 8], ![false, false]⟩

def k1_cond2 (i : grid1.Coords) : BitVec 1 :=
  let arg0 : BitVec 32 := BitVec.ofNat 32 (i 0).val
  let c7_i32 : BitVec 32 := 7#32
  let v37 : BitVec 1 := Scalar.cmpi .eq arg0 c7_i32
  let arg1 : BitVec 32 := BitVec.ofNat 32 (i 1).val
  let c7_i32_16 : BitVec 32 := 7#32
  let v38 : BitVec 1 := Scalar.cmpi .eq arg1 c7_i32_16
  let v39 : BitVec 1 := Scalar.andi v37 v38
  let v40 : BitVec 32 := Scalar.extui v39
  let c0_i32_17 : BitVec 32 := 0#32
  let v41 : BitVec 1 := Scalar.cmpi .ne v40 c0_i32_17
  v41

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev grid2 : Pipeline.Grid := ⟨2, ![8, 8], ![false, false]⟩

def k2_cond2 (i : grid2.Coords) : BitVec 1 :=
  let arg0 : BitVec 32 := BitVec.ofNat 32 (i 0).val
  let c7_i32 : BitVec 32 := 7#32
  let v37 : BitVec 1 := Scalar.cmpi .eq arg0 c7_i32
  let arg1 : BitVec 32 := BitVec.ofNat 32 (i 1).val
  let c7_i32_16 : BitVec 32 := 7#32
  let v38 : BitVec 1 := Scalar.cmpi .eq arg1 c7_i32_16
  let v39 : BitVec 1 := Scalar.andi v37 v38
  let v40 : BitVec 32 := Scalar.extui v39
  let c0_i32_17 : BitVec 32 := 0#32
  let v41 : BitVec 1 := Scalar.cmpi .ne v40 c0_i32_17
  v41

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1024x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  bitsLt_bf16_f32 : FTy.bits .bf16 < FTy.bits .f32
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  reduces_S1024x1024_S1024 : S1024x1024.Reduces [1] S1024
  reduces_S1024x1_S1 : S1024x1.Reduces [0] S1
  shapeCasts_S1_S1x1 : S1.ShapeCasts S1x1
  shapeCasts_S1x1_S_ : S1x1.ShapeCasts S_
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .f32 = 32 ∨ (Rect.block (s := S8192x256) S1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S8192x256.size a
  hwx1_1 : ∀ i : grid1.Coords, EltTy.bits .f32 = 32 ∨ (Rect.block (s := S8192x256) S1024x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x256.size a ≤ S8192x256.size a
  hwx2_0 : ∀ i : grid2.Coords, EltTy.bits .f32 = 32 ∨ (Rect.block (s := S8192x256) S1024x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x256.size a ≤ S8192x256.size a
  hwx2_1 : ∀ i : grid2.Coords, EltTy.bits .f32 = 32 ∨ (Rect.block (s := S8192x256) S1024x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_arg0) S1024x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S1024x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6) S1x1.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩

abbrev nBuf : Space → Nat
  | .hbm => 87
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x256, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S8192x256, .f32⟩
  | .hbm, ⟨30, _⟩ => ⟨S_, .f32⟩
  | .hbm, ⟨31, _⟩ => ⟨S8192, .f32⟩
  | .hbm, ⟨32, _⟩ => ⟨S8192x256, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S1x8192, .f32⟩
  | .hbm, ⟨37, _⟩ => ⟨S8192x8192, .f32⟩
  | .hbm, ⟨38, _⟩ => ⟨S8192x8192, .f32⟩
  | .hbm, ⟨39, _⟩ => ⟨S8192x8192, .f32⟩
  | .hbm, ⟨40, _⟩ => ⟨S8192x8192, .f32⟩
  | .hbm, ⟨41, _⟩ => ⟨S_, .f32⟩
  | .hbm, ⟨42, _⟩ => ⟨S8192x8192, .f32⟩
  | .hbm, ⟨43, _⟩ => ⟨S8192x8192, .f32⟩
  | .hbm, ⟨44, _⟩ => ⟨S8192x8192, .f32⟩
  | .hbm, ⟨45, _⟩ => ⟨S_, .f32⟩
  | .hbm, ⟨46, _⟩ => ⟨S8192x8192, .f32⟩
  | .hbm, ⟨47, _⟩ => ⟨S8192x8192, .f32⟩
  | .hbm, ⟨48, _⟩ => ⟨S_, .f32⟩
  | .hbm, ⟨49, _⟩ => ⟨S8192x8192, .f32⟩
  | .hbm, ⟨50, _⟩ => ⟨S8192x8192, .f32⟩
  | .hbm, ⟨51, _⟩ => ⟨S8192x8192, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S8192x256, .f32⟩
  | .hbm, ⟨57, _⟩ => ⟨S_, .f32⟩
  | .hbm, ⟨58, _⟩ => ⟨S8192, .f32⟩
  | .hbm, ⟨59, _⟩ => ⟨S8192x256, .f32⟩
  | .hbm, ⟨60, _⟩ => ⟨S_, .f32⟩
  | .hbm, ⟨61, _⟩ => ⟨S8192, .f32⟩
  | .hbm, ⟨62, _⟩ => ⟨S8192x1, .f32⟩
  | .hbm, ⟨63, _⟩ => ⟨S1x8192, .f32⟩
  | .hbm, ⟨64, _⟩ => ⟨S8192x8192, .f32⟩
  | .hbm, ⟨65, _⟩ => ⟨S8192x8192, .f32⟩
  | .hbm, ⟨66, _⟩ => ⟨S8192x8192, .f32⟩
  | .hbm, ⟨67, _⟩ => ⟨S8192x8192, .f32⟩
  | .hbm, ⟨68, _⟩ => ⟨S_, .f32⟩
  | .hbm, ⟨69, _⟩ => ⟨S8192x8192, .f32⟩
  | .hbm, ⟨70, _⟩ => ⟨S8192x8192, .f32⟩
  | .hbm, ⟨71, _⟩ => ⟨S8192x8192, .f32⟩
  | .hbm, ⟨72, _⟩ => ⟨S_, .f32⟩
  | .hbm, ⟨73, _⟩ => ⟨S8192x8192, .f32⟩
  | .hbm, ⟨74, _⟩ => ⟨S8192x8192, .f32⟩
  | .hbm, ⟨75, _⟩ => ⟨S_, .f32⟩
  | .hbm, ⟨76, _⟩ => ⟨S8192x8192, .f32⟩
  | .hbm, ⟨77, _⟩ => ⟨S8192x8192, .f32⟩
  | .hbm, ⟨78, _⟩ => ⟨S8192x8192, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_v20 : Ref sig .tc := ⟨.hbm, 29, rfl⟩
abbrev main_cst_6 : Ref sig .tc := ⟨.hbm, 30, rfl⟩
abbrev main_v21 : Ref sig .tc := ⟨.hbm, 31, rfl⟩
abbrev main_v22 : Ref sig .tc := ⟨.hbm, 32, rfl⟩
abbrev main_cst_7 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_8 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_9 : Ref sig .tc := ⟨.hbm, 45, rfl⟩
abbrev main_v33 : Ref sig .tc := ⟨.hbm, 46, rfl⟩
abbrev main_v34 : Ref sig .tc := ⟨.hbm, 47, rfl⟩
abbrev main_cst_10 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_11 : Ref sig .tc := ⟨.hbm, 52, rfl⟩
abbrev main_v38 : Ref sig .tc := ⟨.hbm, 53, rfl⟩
abbrev main_cst_12 : Ref sig .tc := ⟨.hbm, 54, rfl⟩
abbrev main_v39 : Ref sig .tc := ⟨.hbm, 55, rfl⟩
abbrev main_v40 : Ref sig .tc := ⟨.hbm, 56, rfl⟩
abbrev main_cst_13 : Ref sig .tc := ⟨.hbm, 57, rfl⟩
abbrev main_v41 : Ref sig .tc := ⟨.hbm, 58, rfl⟩
abbrev main_v42 : Ref sig .tc := ⟨.hbm, 59, rfl⟩
abbrev main_cst_14 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_15 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_16 : Ref sig .tc := ⟨.hbm, 72, rfl⟩
abbrev main_v53 : Ref sig .tc := ⟨.hbm, 73, rfl⟩
abbrev main_v54 : Ref sig .tc := ⟨.hbm, 74, rfl⟩
abbrev main_cst_17 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_18 : Ref sig .tc := ⟨.hbm, 79, rfl⟩
abbrev main_v58 : Ref sig .tc := ⟨.hbm, 80, rfl⟩
abbrev main_cst_19 : Ref sig .tc := ⟨.hbm, 81, rfl⟩
abbrev main_v59 : Ref sig .tc := ⟨.hbm, 82, rfl⟩
abbrev main_v60 : Ref sig .tc := ⟨.hbm, 83, rfl⟩
abbrev main_cst_20 : Ref sig .tc := ⟨.hbm, 84, rfl⟩
abbrev main_v61 : Ref sig .tc := ⟨.hbm, 85, rfl⟩
abbrev main_v62 : Ref sig .tc := ⟨.hbm, 86, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  dot_S8192x256_S8192x256_S8192x8192_1_1_0_0_n_n_wf : DotDims.WF S8192x256 S8192x256 S8192x8192 [1] [1] [0] [0] [] []

variable [Facts₀]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf

class Facts : Prop extends Facts₀ where

variable [Facts]
-- ==== Proof.K.Body0.lean ====
import proofs.«155040_j17282948399227_1_alg».proof.Proof.Gen.Kernel.Launch
import proofs.«155040_j17282948399227_1_alg».proof.Proof.Gen.Kernel.Skeleton
import proofs.«155040_j17282948399227_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.Pipeline.Value

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The kernel body of pallas_call 0 on whole staging memrefs

At one grid point the body (optionally) resets its 1×1 scratch accumulator to zero, loads the two 1024×256 input
blocks, adds the point's Gaussian pair sum to the accumulator and, at the grid's last point, copies the
accumulator into the 1×1 output buffer. Three control cases meet the 8×8 grid: the first point (reset, no copy),
the middle points (neither) and the last point (copy, no reset). Each triple below states what every buffer holds
afterwards as a named payload of the skeleton: the accumulator ends at `k0_pay2 x y a`, where `a` is what it held
before (`k0_pay1`, the zero splat, after a reset). -/

/-- The reset branch's condition as the body computes it: both grid coordinates are zero. -/
abbrev first0 (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
/-- The copy-out branch's condition: the grid's last point. -/
abbrev last0 (i : grid0.Coords) : Prop := k0_cond2 i = 1#1

/-- The offset of a whole-buffer rectangle. -/
theorem off2_zero : (![0, 0] : Fin 2 → ℕ) = fun _ => 0 := by funext a; fin_cases a <;> rfl

/-- One whole-buffer store covers the 1×1 buffer. -/
theorem cover0_one (p : Vec F S1x1 .f32) (L : List (View.Piece (Elt F) S1x1 .f32)) (y : S1x1.Idx) :
    ∃ pc ∈ ((⟨Rect.unit (s := S1x1) ![0, 0] S1x1.size inb_S1x1_S1x1_0_0, p⟩ : View.Piece (Elt F) S1x1 .f32) :: L), y ∈ pc.1.set :=
  by
  obtain ⟨pc, hpc, hy⟩ := View.cover_of_tiled [(⟨Rect.unit (s := S1x1) ![0, 0] S1x1.size inb_S1x1_S1x1_0_0, p⟩ : View.Piece (Elt F) S1x1 .f32)] S1x1.size (by rfl) y
  rw [List.mem_singleton] at hpc; subst hpc
  exact ⟨_, List.mem_cons_self, hy⟩

set_option maxHeartbeats 1000000 in
/-- MIDDLE POINTS: no reset, no copy. The accumulator goes from `a` to `k0_pay2 x y a`; the output buffer is handed back
    as it was found. -/
theorem body0_mid (c : Dev nD) (E : Set ℕ) (i : grid0.Coords)
    (arg2 : Memref sig .tc .vmem S1024x256 .f32) (harg2 : arg2.IsWhole) (arg3 : Memref sig .tc .vmem S1024x256 .f32) (harg3 : arg3.IsWhole)
    (arg4 : Memref sig .tc .vmem S1x1 .f32) (harg4 : arg4.IsWhole) (arg5 : Memref sig .tc .vmem S1x1 .f32) (harg5 : arg5.IsWhole)
    (hc1 : ¬first0 i) (hc2 : ¬last0 i)
    (x y : Vec F S1024x256 .f32) (o a : Vec F S1x1 .f32) (K : PUnit → sProp 𝕄) :
    iprop(owns (c : Thread nD τ) arg2 fullShare x ∗ owns (c : Thread nD τ) arg3 fullShare y ∗ owns (c : Thread nD τ) arg4 fullShare o
        ∗ owns (c : Thread nD τ) arg5 fullShare a
        ∗ (iprop(owns (c : Thread nD τ) arg2 fullShare x ∗ owns (c : Thread nD τ) arg3 fullShare y ∗ owns (c : Thread nD τ) arg4 fullShare o
            ∗ owns (c : Thread nD τ) arg5 fullShare (k0_pay2 x y a)) -∗ K ⟨⟩))
      ⊢ wp frame (wpE (defs₀ (F := F)) Variants.none c none) E (cc0__rbf_sum_kernel i arg2 harg2 arg3 harg3 arg4 harg4 arg5 harg5) K := by
  simp only [cc0__rbf_sum_kernel_eq_skeleton]; unfold cc0__rbf_sum_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H5
  ipureintro
  rw [View.read_writes_eq_canon _ _ _ (cover0_one _ _), View.canon_unit_zero off2_zero]
  simp only [View.readAt_eq_ld, hf2, hf3, hf5, View.ld_unit_zero (S := S1024x256) off2_zero, View.ld_unit_zero (S := S1x1) off2_zero]

set_option maxHeartbeats 1000000 in
/-- THE FIRST POINT: the accumulator is reset to the zero splat `k0_pay1` whatever it held, then the point's sum is added:
    it ends at `k0_pay2 x y k0_pay1`; the output buffer is handed back as it was found. -/
theorem body0_first (c : Dev nD) (E : Set ℕ) (i : grid0.Coords)
    (arg2 : Memref sig .tc .vmem S1024x256 .f32) (harg2 : arg2.IsWhole) (arg3 : Memref sig .tc .vmem S1024x256 .f32) (harg3 : arg3.IsWhole)
    (arg4 : Memref sig .tc .vmem S1x1 .f32) (harg4 : arg4.IsWhole) (arg5 : Memref sig .tc .vmem S1x1 .f32) (harg5 : arg5.IsWhole)
    (hc1 : first0 i) (hc2 : ¬last0 i)
    (x y : Vec F S1024x256 .f32) (o a : Vec F S1x1 .f32) (K : PUnit → sProp 𝕄) :
    iprop(owns (c : Thread nD τ) arg2 fullShare x ∗ owns (c : Thread nD τ) arg3 fullShare y ∗ owns (c : Thread nD τ) arg4 fullShare o
        ∗ owns (c : Thread nD τ) arg5 fullShare a
        ∗ (iprop(owns (c : Thread nD τ) arg2 fullShare x ∗ owns (c : Thread nD τ) arg3 fullShare y ∗ owns (c : Thread nD τ) arg4 fullShare o
            ∗ owns (c : Thread nD τ) arg5 fullShare (k0_pay2 x y (k0_pay1 (F := F)))) -∗ K ⟨⟩))
      ⊢ wp frame (wpE (defs₀ (F := F)) Variants.none c none) E (cc0__rbf_sum_kernel i arg2 harg2 arg3 harg3 arg4 harg4 arg5 harg5) K := by
  simp only [cc0__rbf_sum_kernel_eq_skeleton]; unfold cc0__rbf_sum_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H5
  ipureintro
  sl_unfold_words
  rw [View.read_writes_eq_canon _ _ _ (cover0_one _ _)]
  rw [View.canon_cons_unit_zero (S := S1x1) off2_zero]
  simp only [View.readAt_eq_ld, hf2, hf3, View.ld_unit_zero (S := S1024x256) off2_zero, View.readCov_unit_zero (S := S1x1) _ off2_zero]

set_option maxHeartbeats 1000000 in
/-- THE LAST POINT: the point's sum is added to the accumulator, which is then copied whole into the output buffer: both end
    at `k0_pay2 x y a`, whatever the output buffer held. -/
theorem body0_last (c : Dev nD) (E : Set ℕ) (i : grid0.Coords)
    (arg2 : Memref sig .tc .vmem S1024x256 .f32) (harg2 : arg2.IsWhole) (arg3 : Memref sig .tc .vmem S1024x256 .f32) (harg3 : arg3.IsWhole)
    (arg4 : Memref sig .tc .vmem S1x1 .f32) (harg4 : arg4.IsWhole) (arg5 : Memref sig .tc .vmem S1x1 .f32) (harg5 : arg5.IsWhole)
    (hc1 : ¬first0 i) (hc2 : last0 i)
    (x y : Vec F S1024x256 .f32) (o a : Vec F S1x1 .f32) (K : PUnit → sProp 𝕄) :
    iprop(owns (c : Thread nD τ) arg2 fullShare x ∗ owns (c : Thread nD τ) arg3 fullShare y ∗ owns (c : Thread nD τ) arg4 fullShare o
        ∗ owns (c : Thread nD τ) arg5 fullShare a
        ∗ (iprop(owns (c : Thread nD τ) arg2 fullShare x ∗ owns (c : Thread nD τ) arg3 fullShare y ∗ owns (c : Thread nD τ) arg4 fullShare (k0_pay2 x y a)
            ∗ owns (c : Thread nD τ) arg5 fullShare (k0_pay2 x y a)) -∗ K ⟨⟩))
      ⊢ wp frame (wpE (defs₀ (F := F)) Variants.none c none) E (cc0__rbf_sum_kernel i arg2 harg2 arg3 harg3 arg4 harg4 arg5 harg5) K := by
  simp only [cc0__rbf_sum_kernel_eq_skeleton]; unfold cc0__rbf_sum_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    sl_unfold_words
    rw [View.read_writes_eq_canon _ _ _ (cover0_one _ _)]
    rw [View.canon_unit_zero (S := S1x1) off2_zero]
    simp only [View.readAt_eq_ld, hf2, hf3, hf5, View.ld_unit_zero (S := S1024x256) off2_zero, View.ld_unit_zero (S := S1x1) off2_zero, View.readCov_unit_zero (S := S1x1) _ off2_zero]
  iexists _; isplitr
  swap; · iexact H5
  ipureintro
  sl_unfold_words
  rw [View.read_writes_eq_canon _ _ _ (cover0_one _ _), View.canon_unit_zero off2_zero]
  simp only [View.readAt_eq_ld, hf2, hf3, hf5, View.ld_unit_zero (S := S1024x256) off2_zero, View.ld_unit_zero (S := S1x1) off2_zero]

end Cert.Kernel.Frame

end
-- ==== Proof.K.Blocks0.lean ====
import proofs.«155040_j17282948399227_1_alg».proof.Proof.K.Body0

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pallas_call 0: the windows' blocks and the accumulator, point by point

At the parameter `V`: the TensorCore's buffer contents when the region is entered. -/

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the scratch accumulator holds after the body at point `n`: reset and the first point's sum added at point 0,
    the point's sum added to what the point before left afterwards. -/
def acc0 (c : Dev nD) : (n : ℕ) → n < cfg0.N → Vec F S1x1 .f32
  | 0, h => k0_pay2 (iblk0 V c 0 ⟨0, h⟩) (iblk0 V c 1 ⟨0, h⟩) (k0_pay1 (F := F))
  | n + 1, h => k0_pay2 (iblk0 V c 0 ⟨n + 1, h⟩) (iblk0 V c 1 ⟨n + 1, h⟩) (acc0 c n (Nat.lt_of_succ_lt h))

theorem acc0_zero (c : Dev nD) (t : Fin cfg0.N) (h0 : t.val = 0) :
    acc0 V c t.val t.isLt = k0_pay2 (iblk0 V c 0 t) (iblk0 V c 1 t) (k0_pay1 (F := F)) := by
  obtain ⟨n, hn⟩ := t
  cases n with
  | zero => rfl
  | succ n => exact absurd h0 (Nat.succ_ne_zero n)

theorem acc0_pos (c : Dev nD) (t : Fin cfg0.N) (h0 : t.val ≠ 0) :
    acc0 V c t.val t.isLt
      = k0_pay2 (iblk0 V c 0 t) (iblk0 V c 1 t) (acc0 V c (t.val - 1) (Nat.lt_of_le_of_lt (Nat.sub_le _ _) t.isLt)) := by
  obtain ⟨n, hn⟩ := t
  cases n with
  | zero => exact absurd rfl h0
  | succ n => rfl

end

end Cert.Kernel.Frame

end
-- ==== Proof.K.Region0.lean ====
import proofs.«155040_j17282948399227_1_alg».proof.Proof.K.Blocks0

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pallas_call 0: the proof data, the invariant and the body obligation

The region's invariant carries the scratch accumulator: before the first point the kernel's scoped buffers are at
anything; before point `n + 1` the accumulator holds what point `n` left (`acc0`), the other scoped buffers are at
anything. The output window is idle at every point but the last, where the body stores the accumulator into it and
the pipeline writes it back. -/

section
variable (V : (c : Dev nD) → (b : Ref sig .tc) → Buf (Elt F) ((c : Thread nD τ).loc b))
-- the share each input window holds its array at: the run deals them (two windows on one array hold half each)
variable (q : Fin cfg0.W → PosShare TreeShare)

/-! ## Where the branches are taken, and where the output window is idle: decided over the grid -/

theorem hfirst0 : ∀ t : Fin cfg0.N, first0 (grid0.coords t) ↔ t.val = 0 :=
  (by decide +kernel : ∀ t : Fin grid0.N, first0 (grid0.coords t) ↔ t.val = 0)
theorem hlast0 : ∀ t : Fin cfg0.N, last0 (grid0.coords t) ↔ t.val = 63 :=
  (by decide +kernel : ∀ t : Fin grid0.N, last0 (grid0.coords t) ↔ t.val = 63)
theorem live0_0 : ∀ t : Fin cfg0.N, cfg0.idle 0 (grid0.coords t) = false := by decide +kernel
theorem live0_1 : ∀ t : Fin cfg0.N, cfg0.idle 1 (grid0.coords t) = false := by decide +kernel
theorem idle0_2 : ∀ t : Fin cfg0.N, ¬last0 (grid0.coords t) → cfg0.idle 2 (grid0.coords t) = true := by decide +kernel
theorem noFlush0_2 : ∀ t : Fin cfg0.N, ¬last0 (grid0.coords t) → (cfg0.win 2).flush t = false := by decide +kernel
theorem live0_2 : ∀ t : Fin cfg0.N, last0 (grid0.coords t) → cfg0.idle 2 (grid0.coords t) = false := by decide +kernel

/-! ## The scratch accumulator among the kernel's scoped buffers -/

/-- The scratch accumulator as a memref. -/
abbrev scM0 : Memref sig .tc .vmem S1x1 .f32 := Memref.whole cc0_scratch0

/-- The core's scoped buffers that are neither a staging buffer of this call nor its accumulator, each at anything. -/
def Rest0 (c : Dev nD) : sProp 𝕄 :=
  bigSep (((Finset.univ.filter fun b : Ref sig .tc => b.isScoped) \ Finset.univ.image (Pipeline.stageRef spec0)).erase cc0_scratch0)
    fun b => iprop(∃ f : Buf (Elt F) ((c.tc : Thread nD τ).loc b), ((c.tc : Thread nD τ).loc b) ↦{fullShare} f)

/-- The class invariant with the accumulator singled out. -/
theorem PhiA0_eq (c : Dev nD) :
    (Pipeline.ΦA spec0 c : sProp 𝕄)
      = iprop(((∃ d, owns (c : Thread nD τ) scM0 fullShare d) ∗ Rest0 c) ∗ (∃ r, prngReg c r)) := by
  unfold Pipeline.ΦA Pipeline.scopedRest Rest0
  rw [bigSep_erase (i := cc0_scratch0) (by decide)]
  simp only [scM0, owns_whole]
  rfl

/-- The region's invariant before position `n`. -/
def Phi0 (c : Dev nD) : (n : ℕ) → n ≤ cfg0.N → sProp 𝕄
  | 0, _ => Pipeline.ΦA spec0 c
  | n + 1, hn => iprop((owns (c : Thread nD τ) scM0 fullShare (acc0 V c n hn) ∗ Rest0 c) ∗ (∃ r, prngReg c r))

theorem Phi0_zero (c : Dev nD) (n : ℕ) (h : n ≤ cfg0.N) (hz : n = 0) : Phi0 V c n h = Pipeline.ΦA spec0 c := by
  subst hz; rfl
theorem Phi0_succ (c : Dev nD) (n : ℕ) (hn : n < cfg0.N) :
    Phi0 V c (n + 1) hn = iprop((owns (c : Thread nD τ) scM0 fullShare (acc0 V c n hn) ∗ Rest0 c) ∗ (∃ r, prngReg c r)) := rfl
theorem Phi0_pos (c : Dev nD) (n : ℕ) (h : n ≤ cfg0.N) (hz : n ≠ 0) :
    Phi0 V c n h = iprop((owns (c : Thread nD τ) scM0 fullShare (acc0 V c (n - 1) (by omega)) ∗ Rest0 c) ∗ (∃ r, prngReg c r)) := by
  cases n with
  | zero => exact absurd rfl hz
  | succ n => rfl

/-! ## The proof data -/

/-- The proof data of pallas_call 0 on core `c`: the arrays as the region finds them; after the body each input's buffer at
    its block and the output's at the accumulator's contents (read only at the last point, the one point that stores it);
    the invariant `Phi0`; nothing owed; the input arrays at the shares `q` the run deals. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := Phi0 V c t.val (Nat.le_of_lt_succ t.isLt)
  q := q
  owed _ := 0

theorem A_eq0 (c : Dev nD) (w : Fin cfg0.W) : (dat0 V q c).A w = V c (Pipeline.arrRef spec0 w) := by
  dsimp only [dat0]
theorem Phi0_castSucc (c : Dev nD) (t : Fin cfg0.N) :
    (dat0 V q c).Φ t.castSucc = Phi0 V c t.val (Nat.le_of_lt t.isLt) := by
  dsimp only [dat0]; simp only [Fin.coe_castSucc]
theorem after0_0 (c : Dev nD) (t : Fin cfg0.N) : (dat0 V q c).after 0 t = iblk0 V c 0 t := by dsimp only [dat0]
theorem after0_1 (c : Dev nD) (t : Fin cfg0.N) : (dat0 V q c).after 1 t = iblk0 V c 1 t := by dsimp only [dat0]
theorem after0_2 (c : Dev nD) (t : Fin cfg0.N) : (dat0 V q c).after 2 t = acc0 V c t.val t.isLt := by dsimp only [dat0]

/-- Each input's current staging buffer holds its block at every point, fetched there or not: unfetched, the block index
    has not moved since the fetch. -/
theorem before0_0 (c : Dev nD) (t : Fin cfg0.N) (d) : (dat0 V q c).before 0 t d = iblk0 V c 0 t :=
  ((dat0 V q c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V q c).before 1 t d = iblk0 V c 1 t :=
  ((dat0 V q c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-! ## The body obligation -/

/-- What the body is called with at point `t`, the windows one by one, -/
def bodyPre0 (c : Dev nD) (t : Fin cfg0.N) : sProp 𝕄 :=
  iprop((dat0 V q c).Φ t.castSucc ∗ (dat0 V q c).owesAt () t.castSucc
    ∗ (∃ d, owns (c : Thread nD τ) (st0_0 t) fullShare ((dat0 V q c).before 0 t d))
    ∗ (∃ d, owns (c : Thread nD τ) (st0_1 t) fullShare ((dat0 V q c).before 1 t d))
    ∗ (∃ d, owns (c : Thread nD τ) (st0_2 t) fullShare ((dat0 V q c).before 2 t d)))

/-- and what it returns. -/
def bodyPost0 (c : Dev nD) (t : Fin cfg0.N) : sProp 𝕄 :=
  iprop((dat0 V q c).Φ t.succ ∗ (dat0 V q c).owesAt () t.succ
    ∗ (dat0 V q c).leavesExact 0 t
    ∗ (dat0 V q c).leavesExact 1 t
    ∗ (dat0 V q c).leavesExact 2 t)

set_option maxHeartbeats 4000000 in
/-- The body at any point: the inputs' buffers hold their blocks; the point is the first, a middle one or the last, and that
    case's triple applies; the invariant hands the body the accumulator at what the point before left (at anything at the
    first point) and takes it back at this point's contents; the core owes nothing throughout. -/
theorem sound_body0 (c : Dev nD) (t : Fin cfg0.N) :
    bodyPre0 V q c t ⊢ wp frame (wpE (defs₀ (F := F)) Variants.none c none) Set.univ (bodyAt0 t) (fun _ => bodyPost0 V q c t) := by
  unfold bodyPre0 bodyPost0 bodyAt0
  simp only [before0_0, before0_1]
  rw [show (dat0 V q c).owesAt () t.succ = (dat0 V q c).owesAt () t.castSucc from rfl]
  rw [show (dat0 V q c).Φ t.succ = Phi0 V c (t.val + 1) t.isLt from rfl, Phi0_succ]
  rw [show (dat0 V q c).leavesExact 0 t = owns (c : Thread nD τ) (st0_0 t) fullShare ((dat0 V q c).after 0 t) from by
    unfold Dat.leavesExact; rw [live0_0 t], after0_0]
  rw [show (dat0 V q c).leavesExact 1 t = owns (c : Thread nD τ) (st0_1 t) fullShare ((dat0 V q c).after 1 t) from by
    unfold Dat.leavesExact; rw [live0_1 t], after0_1]
  have hN : t.val < 64 := lt_of_lt_of_eq t.isLt (show cfg0.N = 64 from N_0)
  by_cases hl : t.val = 63
  · -- the last point
    have hc2 : last0 (grid0.coords t) := (hlast0 t).mpr hl
    have hc1 : ¬first0 (grid0.coords t) := fun h => by have := (hfirst0 t).mp h; omega
    have hz : t.val ≠ 0 := by omega
    rw [show (dat0 V q c).leavesExact 2 t = owns (c : Thread nD τ) (st0_2 t) fullShare ((dat0 V q c).after 2 t) from by
      unfold Dat.leavesExact; rw [live0_2 t hc2], after0_2]
    rw [acc0_pos V c t hz, Phi0_castSucc V q c t, Phi0_pos V c _ _ hz]
    iintro ⟨⟨⟨HS, HR⟩, Hg⟩, Ho, ⟨%d0, H0⟩, ⟨%d1, H1⟩, ⟨%d2, H2⟩⟩
    iapply (body0_last c Set.univ (grid0.coords t) _ _ _ _ _ _ _ _ hc1 hc2 (iblk0 V c 0 t) (iblk0 V c 1 t) _ _ _)
    isplitl [H0]; · iexact H0
    isplitl [H1]; · iexact H1
    isplitl [H2]; · iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexact H2
  · have hc2 : ¬last0 (grid0.coords t) := fun h => hl ((hlast0 t).mp h)
    rw [Dat.leavesExact_idle (dat0 V q c) 2 t (idle0_2 t hc2) (noFlush0_2 t hc2)]
    by_cases hz : t.val = 0
    · -- the first point
      have hc1 : first0 (grid0.coords t) := (hfirst0 t).mpr hz
      rw [acc0_zero V c t hz, Phi0_castSucc V q c t, Phi0_zero V c _ _ hz, PhiA0_eq]
      iintro ⟨⟨⟨⟨%a, HS⟩, HR⟩, Hg⟩, Ho, ⟨%d0, H0⟩, ⟨%d1, H1⟩, ⟨%d2, H2⟩⟩
      iapply (body0_first c Set.univ (grid0.coords t) _ _ _ _ _ _ _ _ hc1 hc2 (iblk0 V c 0 t) (iblk0 V c 1 t) _ a _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2
    · -- a middle point
      have hc1 : ¬first0 (grid0.coords t) := fun h => hz ((hfirst0 t).mp h)
      rw [acc0_pos V c t hz, Phi0_castSucc V q c t, Phi0_pos V c _ _ hz]
      iintro ⟨⟨⟨HS, HR⟩, Hg⟩, Ho, ⟨%d0, H0⟩, ⟨%d1, H1⟩, ⟨%d2, H2⟩⟩
      iapply (body0_mid c Set.univ (grid0.coords t) _ _ _ _ _ _ _ _ hc1 hc2 (iblk0 V c 0 t) (iblk0 V c 1 t) _ _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V q c) (defs₀ (F := F)) Variants.none () Set.univ := fun t => by
  rw [bigSep_W0, bigSep_W0]
  exact sound_body0 V q c t

/-- What the launch hands the region is the invariant before the first point. -/
theorem hin0 (c : Dev nD) : Pipeline.ΦA spec0 c ⊢ (dat0 V q c).Φ 0 := by
  rw [show (dat0 V q c).Φ 0 = Phi0 V c 0 (Nat.zero_le _) from rfl, Phi0_zero V c 0 _ rfl]
  try exact Idealize.SL.BI.Entails.refl _

/-- After the last point the invariant gives it back: the accumulator's named contents are forgotten. -/
theorem hout0 (c : Dev nD) : (dat0 V q c).Φ (Fin.last cfg0.N) ⊢ Pipeline.ΦA spec0 c := by
  rw [show (dat0 V q c).Φ (Fin.last cfg0.N) = Phi0 V c (Fin.last cfg0.N).val (Nat.le_of_lt_succ (Fin.last cfg0.N).isLt) from rfl,
    Phi0_pos V c _ _ (by rw [Fin.val_last]; have : cfg0.N = 64 := N_0; omega), PhiA0_eq]
  iintro ⟨⟨HS, HR⟩, Hg⟩
  isplitl [HS HR]
  · isplitl [HS]; · iexists _; iexact HS
    iexact HR
  iexact Hg

end

end Cert.Kernel.Frame

end
-- ==== Proof.K.Body1.lean ====
import proofs.«155040_j17282948399227_1_alg».proof.Proof.Gen.Kernel.Launch
import proofs.«155040_j17282948399227_1_alg».proof.Proof.Gen.Kernel.Skeleton
import proofs.«155040_j17282948399227_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.Pipeline.Value

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The kernel body of pallas_call 1 on whole staging memrefs

At one grid point the body (optionally) resets its 1×1 scratch accumulator to zero, loads the two 1024×256 input
blocks, adds the point's Gaussian pair sum to the accumulator and, at the grid's last point, copies the
accumulator into the 1×1 output buffer. Three control cases meet the 8×8 grid: the first point (reset, no copy),
the middle points (neither) and the last point (copy, no reset). Each triple below states what every buffer holds
afterwards as a named payload of the skeleton: the accumulator ends at `k1_pay2 x y a`, where `a` is what it held
before (`k1_pay1`, the zero splat, after a reset). -/

/-- The reset branch's condition as the body computes it: both grid coordinates are zero. -/
abbrev first1 (i : grid1.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
/-- The copy-out branch's condition: the grid's last point. -/
abbrev last1 (i : grid1.Coords) : Prop := k1_cond2 i = 1#1

/-- The offset of a whole-buffer rectangle. -/
theorem off2_zero : (![0, 0] : Fin 2 → ℕ) = fun _ => 0 := by funext a; fin_cases a <;> rfl

/-- One whole-buffer store covers the 1×1 buffer. -/
theorem cover1_one (p : Vec F S1x1 .f32) (L : List (View.Piece (Elt F) S1x1 .f32)) (y : S1x1.Idx) :
    ∃ pc ∈ ((⟨Rect.unit (s := S1x1) ![0, 0] S1x1.size inb_S1x1_S1x1_0_0, p⟩ : View.Piece (Elt F) S1x1 .f32) :: L), y ∈ pc.1.set :=
  by
  obtain ⟨pc, hpc, hy⟩ := View.cover_of_tiled [(⟨Rect.unit (s := S1x1) ![0, 0] S1x1.size inb_S1x1_S1x1_0_0, p⟩ : View.Piece (Elt F) S1x1 .f32)] S1x1.size (by rfl) y
  rw [List.mem_singleton] at hpc; subst hpc
  exact ⟨_, List.mem_cons_self, hy⟩

set_option maxHeartbeats 1000000 in
/-- MIDDLE POINTS: no reset, no copy. The accumulator goes from `a` to `k1_pay2 x y a`; the output buffer is handed back
    as it was found. -/
theorem body1_mid (c : Dev nD) (E : Set ℕ) (i : grid1.Coords)
    (arg2 : Memref sig .tc .vmem S1024x256 .f32) (harg2 : arg2.IsWhole) (arg3 : Memref sig .tc .vmem S1024x256 .f32) (harg3 : arg3.IsWhole)
    (arg4 : Memref sig .tc .vmem S1x1 .f32) (harg4 : arg4.IsWhole) (arg5 : Memref sig .tc .vmem S1x1 .f32) (harg5 : arg5.IsWhole)
    (hc1 : ¬first1 i) (hc2 : ¬last1 i)
    (x y : Vec F S1024x256 .f32) (o a : Vec F S1x1 .f32) (K : PUnit → sProp 𝕄) :
    iprop(owns (c : Thread nD τ) arg2 fullShare x ∗ owns (c : Thread nD τ) arg3 fullShare y ∗ owns (c : Thread nD τ) arg4 fullShare o
        ∗ owns (c : Thread nD τ) arg5 fullShare a
        ∗ (iprop(owns (c : Thread nD τ) arg2 fullShare x ∗ owns (c : Thread nD τ) arg3 fullShare y ∗ owns (c : Thread nD τ) arg4 fullShare o
            ∗ owns (c : Thread nD τ) arg5 fullShare (k1_pay2 x y a)) -∗ K ⟨⟩))
      ⊢ wp frame (wpE (defs₀ (F := F)) Variants.none c none) E (cc1__rbf_sum_kernel i arg2 harg2 arg3 harg3 arg4 harg4 arg5 harg5) K := by
  simp only [cc1__rbf_sum_kernel_eq_skeleton]; unfold cc1__rbf_sum_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H5
  ipureintro
  rw [View.read_writes_eq_canon _ _ _ (cover1_one _ _), View.canon_unit_zero off2_zero]
  simp only [View.readAt_eq_ld, hf2, hf3, hf5, View.ld_unit_zero (S := S1024x256) off2_zero, View.ld_unit_zero (S := S1x1) off2_zero]

set_option maxHeartbeats 1000000 in
/-- THE FIRST POINT: the accumulator is reset to the zero splat `k1_pay1` whatever it held, then the point's sum is added:
    it ends at `k1_pay2 x y k1_pay1`; the output buffer is handed back as it was found. -/
theorem body1_first (c : Dev nD) (E : Set ℕ) (i : grid1.Coords)
    (arg2 : Memref sig .tc .vmem S1024x256 .f32) (harg2 : arg2.IsWhole) (arg3 : Memref sig .tc .vmem S1024x256 .f32) (harg3 : arg3.IsWhole)
    (arg4 : Memref sig .tc .vmem S1x1 .f32) (harg4 : arg4.IsWhole) (arg5 : Memref sig .tc .vmem S1x1 .f32) (harg5 : arg5.IsWhole)
    (hc1 : first1 i) (hc2 : ¬last1 i)
    (x y : Vec F S1024x256 .f32) (o a : Vec F S1x1 .f32) (K : PUnit → sProp 𝕄) :
    iprop(owns (c : Thread nD τ) arg2 fullShare x ∗ owns (c : Thread nD τ) arg3 fullShare y ∗ owns (c : Thread nD τ) arg4 fullShare o
        ∗ owns (c : Thread nD τ) arg5 fullShare a
        ∗ (iprop(owns (c : Thread nD τ) arg2 fullShare x ∗ owns (c : Thread nD τ) arg3 fullShare y ∗ owns (c : Thread nD τ) arg4 fullShare o
            ∗ owns (c : Thread nD τ) arg5 fullShare (k1_pay2 x y (k1_pay1 (F := F)))) -∗ K ⟨⟩))
      ⊢ wp frame (wpE (defs₀ (F := F)) Variants.none c none) E (cc1__rbf_sum_kernel i arg2 harg2 arg3 harg3 arg4 harg4 arg5 harg5) K := by
  simp only [cc1__rbf_sum_kernel_eq_skeleton]; unfold cc1__rbf_sum_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H5
  ipureintro
  sl_unfold_words
  rw [View.read_writes_eq_canon _ _ _ (cover1_one _ _)]
  rw [View.canon_cons_unit_zero (S := S1x1) off2_zero]
  simp only [View.readAt_eq_ld, hf2, hf3, View.ld_unit_zero (S := S1024x256) off2_zero, View.readCov_unit_zero (S := S1x1) _ off2_zero]

set_option maxHeartbeats 1000000 in
/-- THE LAST POINT: the point's sum is added to the accumulator, which is then copied whole into the output buffer: both end
    at `k1_pay2 x y a`, whatever the output buffer held. -/
theorem body1_last (c : Dev nD) (E : Set ℕ) (i : grid1.Coords)
    (arg2 : Memref sig .tc .vmem S1024x256 .f32) (harg2 : arg2.IsWhole) (arg3 : Memref sig .tc .vmem S1024x256 .f32) (harg3 : arg3.IsWhole)
    (arg4 : Memref sig .tc .vmem S1x1 .f32) (harg4 : arg4.IsWhole) (arg5 : Memref sig .tc .vmem S1x1 .f32) (harg5 : arg5.IsWhole)
    (hc1 : ¬first1 i) (hc2 : last1 i)
    (x y : Vec F S1024x256 .f32) (o a : Vec F S1x1 .f32) (K : PUnit → sProp 𝕄) :
    iprop(owns (c : Thread nD τ) arg2 fullShare x ∗ owns (c : Thread nD τ) arg3 fullShare y ∗ owns (c : Thread nD τ) arg4 fullShare o
        ∗ owns (c : Thread nD τ) arg5 fullShare a
        ∗ (iprop(owns (c : Thread nD τ) arg2 fullShare x ∗ owns (c : Thread nD τ) arg3 fullShare y ∗ owns (c : Thread nD τ) arg4 fullShare (k1_pay2 x y a)
            ∗ owns (c : Thread nD τ) arg5 fullShare (k1_pay2 x y a)) -∗ K ⟨⟩))
      ⊢ wp frame (wpE (defs₀ (F := F)) Variants.none c none) E (cc1__rbf_sum_kernel i arg2 harg2 arg3 harg3 arg4 harg4 arg5 harg5) K := by
  simp only [cc1__rbf_sum_kernel_eq_skeleton]; unfold cc1__rbf_sum_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    sl_unfold_words
    rw [View.read_writes_eq_canon _ _ _ (cover1_one _ _)]
    rw [View.canon_unit_zero (S := S1x1) off2_zero]
    simp only [View.readAt_eq_ld, hf2, hf3, hf5, View.ld_unit_zero (S := S1024x256) off2_zero, View.ld_unit_zero (S := S1x1) off2_zero, View.readCov_unit_zero (S := S1x1) _ off2_zero]
  iexists _; isplitr
  swap; · iexact H5
  ipureintro
  sl_unfold_words
  rw [View.read_writes_eq_canon _ _ _ (cover1_one _ _), View.canon_unit_zero off2_zero]
  simp only [View.readAt_eq_ld, hf2, hf3, hf5, View.ld_unit_zero (S := S1024x256) off2_zero, View.ld_unit_zero (S := S1x1) off2_zero]

end Cert.Kernel.Frame

end
-- ==== Proof.K.Blocks1.lean ====
import proofs.«155040_j17282948399227_1_alg».proof.Proof.K.Body1

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pallas_call 1: the windows' blocks and the accumulator, point by point

At the parameter `V`: the TensorCore's buffer contents when the region is entered. -/

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the scratch accumulator holds after the body at point `n`: reset and the first point's sum added at point 0,
    the point's sum added to what the point before left afterwards. -/
def acc1 (c : Dev nD) : (n : ℕ) → n < cfg1.N → Vec F S1x1 .f32
  | 0, h => k1_pay2 (iblk1 V c 0 ⟨0, h⟩) (iblk1 V c 1 ⟨0, h⟩) (k1_pay1 (F := F))
  | n + 1, h => k1_pay2 (iblk1 V c 0 ⟨n + 1, h⟩) (iblk1 V c 1 ⟨n + 1, h⟩) (acc1 c n (Nat.lt_of_succ_lt h))

theorem acc1_zero (c : Dev nD) (t : Fin cfg1.N) (h0 : t.val = 0) :
    acc1 V c t.val t.isLt = k1_pay2 (iblk1 V c 0 t) (iblk1 V c 1 t) (k1_pay1 (F := F)) := by
  obtain ⟨n, hn⟩ := t
  cases n with
  | zero => rfl
  | succ n => exact absurd h0 (Nat.succ_ne_zero n)

theorem acc1_pos (c : Dev nD) (t : Fin cfg1.N) (h0 : t.val ≠ 0) :
    acc1 V c t.val t.isLt
      = k1_pay2 (iblk1 V c 0 t) (iblk1 V c 1 t) (acc1 V c (t.val - 1) (Nat.lt_of_le_of_lt (Nat.sub_le _ _) t.isLt)) := by
  obtain ⟨n, hn⟩ := t
  cases n with
  | zero => exact absurd rfl h0
  | succ n => rfl

end

end Cert.Kernel.Frame

end
-- ==== Proof.K.Region1.lean ====
import proofs.«155040_j17282948399227_1_alg».proof.Proof.K.Blocks1

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pallas_call 1: the proof data, the invariant and the body obligation

The region's invariant carries the scratch accumulator: before the first point the kernel's scoped buffers are at
anything; before point `n + 1` the accumulator holds what point `n` left (`acc1`), the other scoped buffers are at
anything. The output window is idle at every point but the last, where the body stores the accumulator into it and
the pipeline writes it back. -/

section
variable (V : (c : Dev nD) → (b : Ref sig .tc) → Buf (Elt F) ((c : Thread nD τ).loc b))
-- the share each input window holds its array at: the run deals them (two windows on one array hold half each)
variable (q : Fin cfg1.W → PosShare TreeShare)

/-! ## Where the branches are taken, and where the output window is idle: decided over the grid -/

theorem hfirst1 : ∀ t : Fin cfg1.N, first1 (grid1.coords t) ↔ t.val = 0 :=
  (by decide +kernel : ∀ t : Fin grid1.N, first1 (grid1.coords t) ↔ t.val = 0)
theorem hlast1 : ∀ t : Fin cfg1.N, last1 (grid1.coords t) ↔ t.val = 63 :=
  (by decide +kernel : ∀ t : Fin grid1.N, last1 (grid1.coords t) ↔ t.val = 63)
theorem live1_0 : ∀ t : Fin cfg1.N, cfg1.idle 0 (grid1.coords t) = false := by decide +kernel
theorem live1_1 : ∀ t : Fin cfg1.N, cfg1.idle 1 (grid1.coords t) = false := by decide +kernel
theorem idle1_2 : ∀ t : Fin cfg1.N, ¬last1 (grid1.coords t) → cfg1.idle 2 (grid1.coords t) = true := by decide +kernel
theorem noFlush1_2 : ∀ t : Fin cfg1.N, ¬last1 (grid1.coords t) → (cfg1.win 2).flush t = false := by decide +kernel
theorem live1_2 : ∀ t : Fin cfg1.N, last1 (grid1.coords t) → cfg1.idle 2 (grid1.coords t) = false := by decide +kernel

/-! ## The scratch accumulator among the kernel's scoped buffers -/

/-- The scratch accumulator as a memref. -/
abbrev scM1 : Memref sig .tc .vmem S1x1 .f32 := Memref.whole cc1_scratch0

/-- The core's scoped buffers that are neither a staging buffer of this call nor its accumulator, each at anything. -/
def Rest1 (c : Dev nD) : sProp 𝕄 :=
  bigSep (((Finset.univ.filter fun b : Ref sig .tc => b.isScoped) \ Finset.univ.image (Pipeline.stageRef spec1)).erase cc1_scratch0)
    fun b => iprop(∃ f : Buf (Elt F) ((c.tc : Thread nD τ).loc b), ((c.tc : Thread nD τ).loc b) ↦{fullShare} f)

/-- The class invariant with the accumulator singled out. -/
theorem PhiA1_eq (c : Dev nD) :
    (Pipeline.ΦA spec1 c : sProp 𝕄)
      = iprop(((∃ d, owns (c : Thread nD τ) scM1 fullShare d) ∗ Rest1 c) ∗ (∃ r, prngReg c r)) := by
  unfold Pipeline.ΦA Pipeline.scopedRest Rest1
  rw [bigSep_erase (i := cc1_scratch0) (by decide)]
  simp only [scM1, owns_whole]
  rfl

/-- The region's invariant before position `n`. -/
def Phi1 (c : Dev nD) : (n : ℕ) → n ≤ cfg1.N → sProp 𝕄
  | 0, _ => Pipeline.ΦA spec1 c
  | n + 1, hn => iprop((owns (c : Thread nD τ) scM1 fullShare (acc1 V c n hn) ∗ Rest1 c) ∗ (∃ r, prngReg c r))

theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop((owns (c : Thread nD τ) scM1 fullShare (acc1 V c n hn) ∗ Rest1 c) ∗ (∃ r, prngReg c r)) := rfl
theorem Phi1_pos (c : Dev nD) (n : ℕ) (h : n ≤ cfg1.N) (hz : n ≠ 0) :
    Phi1 V c n h = iprop((owns (c : Thread nD τ) scM1 fullShare (acc1 V c (n - 1) (by omega)) ∗ Rest1 c) ∗ (∃ r, prngReg c r)) := by
  cases n with
  | zero => exact absurd rfl hz
  | succ n => rfl

/-! ## The proof data -/

/-- The proof data of pallas_call 1 on core `c`: the arrays as the region finds them; after the body each input's buffer at
    its block and the output's at the accumulator's contents (read only at the last point, the one point that stores it);
    the invariant `Phi1`; nothing owed; the input arrays at the shares `q` the run deals. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := Phi1 V c t.val (Nat.le_of_lt_succ t.isLt)
  q := q
  owed _ := 0

theorem A_eq1 (c : Dev nD) (w : Fin cfg1.W) : (dat1 V q c).A w = V c (Pipeline.arrRef spec1 w) := by
  dsimp only [dat1]
theorem Phi1_castSucc (c : Dev nD) (t : Fin cfg1.N) :
    (dat1 V q c).Φ t.castSucc = Phi1 V c t.val (Nat.le_of_lt t.isLt) := by
  dsimp only [dat1]; simp only [Fin.coe_castSucc]
theorem after1_0 (c : Dev nD) (t : Fin cfg1.N) : (dat1 V q c).after 0 t = iblk1 V c 0 t := by dsimp only [dat1]
theorem after1_1 (c : Dev nD) (t : Fin cfg1.N) : (dat1 V q c).after 1 t = iblk1 V c 1 t := by dsimp only [dat1]
theorem after1_2 (c : Dev nD) (t : Fin cfg1.N) : (dat1 V q c).after 2 t = acc1 V c t.val t.isLt := by dsimp only [dat1]

/-- Each input's current staging buffer holds its block at every point, fetched there or not: unfetched, the block index
    has not moved since the fetch. -/
theorem before1_0 (c : Dev nD) (t : Fin cfg1.N) (d) : (dat1 V q c).before 0 t d = iblk1 V c 0 t :=
  ((dat1 V q c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V q c).before 1 t d = iblk1 V c 1 t :=
  ((dat1 V q c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-! ## The body obligation -/

/-- What the body is called with at point `t`, the windows one by one, -/
def bodyPre1 (c : Dev nD) (t : Fin cfg1.N) : sProp 𝕄 :=
  iprop((dat1 V q c).Φ t.castSucc ∗ (dat1 V q c).owesAt () t.castSucc
    ∗ (∃ d, owns (c : Thread nD τ) (st1_0 t) fullShare ((dat1 V q c).before 0 t d))
    ∗ (∃ d, owns (c : Thread nD τ) (st1_1 t) fullShare ((dat1 V q c).before 1 t d))
    ∗ (∃ d, owns (c : Thread nD τ) (st1_2 t) fullShare ((dat1 V q c).before 2 t d)))

/-- and what it returns. -/
def bodyPost1 (c : Dev nD) (t : Fin cfg1.N) : sProp 𝕄 :=
  iprop((dat1 V q c).Φ t.succ ∗ (dat1 V q c).owesAt () t.succ
    ∗ (dat1 V q c).leavesExact 0 t
    ∗ (dat1 V q c).leavesExact 1 t
    ∗ (dat1 V q c).leavesExact 2 t)

set_option maxHeartbeats 4000000 in
/-- The body at any point: the inputs' buffers hold their blocks; the point is the first, a middle one or the last, and that
    case's triple applies; the invariant hands the body the accumulator at what the point before left (at anything at the
    first point) and takes it back at this point's contents; the core owes nothing throughout. -/
theorem sound_body1 (c : Dev nD) (t : Fin cfg1.N) :
    bodyPre1 V q c t ⊢ wp frame (wpE (defs₀ (F := F)) Variants.none c none) Set.univ (bodyAt1 t) (fun _ => bodyPost1 V q c t) := by
  unfold bodyPre1 bodyPost1 bodyAt1
  simp only [before1_0, before1_1]
  rw [show (dat1 V q c).owesAt () t.succ = (dat1 V q c).owesAt () t.castSucc from rfl]
  rw [show (dat1 V q c).Φ t.succ = Phi1 V c (t.val + 1) t.isLt from rfl, Phi1_succ]
  rw [show (dat1 V q c).leavesExact 0 t = owns (c : Thread nD τ) (st1_0 t) fullShare ((dat1 V q c).after 0 t) from by
    unfold Dat.leavesExact; rw [live1_0 t], after1_0]
  rw [show (dat1 V q c).leavesExact 1 t = owns (c : Thread nD τ) (st1_1 t) fullShare ((dat1 V q c).after 1 t) from by
    unfold Dat.leavesExact; rw [live1_1 t], after1_1]
  have hN : t.val < 64 := lt_of_lt_of_eq t.isLt (show cfg1.N = 64 from N_1)
  by_cases hl : t.val = 63
  · -- the last point
    have hc2 : last1 (grid1.coords t) := (hlast1 t).mpr hl
    have hc1 : ¬first1 (grid1.coords t) := fun h => by have := (hfirst1 t).mp h; omega
    have hz : t.val ≠ 0 := by omega
    rw [show (dat1 V q c).leavesExact 2 t = owns (c : Thread nD τ) (st1_2 t) fullShare ((dat1 V q c).after 2 t) from by
      unfold Dat.leavesExact; rw [live1_2 t hc2], after1_2]
    rw [acc1_pos V c t hz, Phi1_castSucc V q c t, Phi1_pos V c _ _ hz]
    iintro ⟨⟨⟨HS, HR⟩, Hg⟩, Ho, ⟨%d0, H0⟩, ⟨%d1, H1⟩, ⟨%d2, H2⟩⟩
    iapply (body1_last c Set.univ (grid1.coords t) _ _ _ _ _ _ _ _ hc1 hc2 (iblk1 V c 0 t) (iblk1 V c 1 t) _ _ _)
    isplitl [H0]; · iexact H0
    isplitl [H1]; · iexact H1
    isplitl [H2]; · iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexact H2
  · have hc2 : ¬last1 (grid1.coords t) := fun h => hl ((hlast1 t).mp h)
    rw [Dat.leavesExact_idle (dat1 V q c) 2 t (idle1_2 t hc2) (noFlush1_2 t hc2)]
    by_cases hz : t.val = 0
    · -- the first point
      have hc1 : first1 (grid1.coords t) := (hfirst1 t).mpr hz
      rw [acc1_zero V c t hz, Phi1_castSucc V q c t, Phi1_zero V c _ _ hz, PhiA1_eq]
      iintro ⟨⟨⟨⟨%a, HS⟩, HR⟩, Hg⟩, Ho, ⟨%d0, H0⟩, ⟨%d1, H1⟩, ⟨%d2, H2⟩⟩
      iapply (body1_first c Set.univ (grid1.coords t) _ _ _ _ _ _ _ _ hc1 hc2 (iblk1 V c 0 t) (iblk1 V c 1 t) _ a _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2
    · -- a middle point
      have hc1 : ¬first1 (grid1.coords t) := fun h => hz ((hfirst1 t).mp h)
      rw [acc1_pos V c t hz, Phi1_castSucc V q c t, Phi1_pos V c _ _ hz]
      iintro ⟨⟨⟨HS, HR⟩, Hg⟩, Ho, ⟨%d0, H0⟩, ⟨%d1, H1⟩, ⟨%d2, H2⟩⟩
      iapply (body1_mid c Set.univ (grid1.coords t) _ _ _ _ _ _ _ _ hc1 hc2 (iblk1 V c 0 t) (iblk1 V c 1 t) _ _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V q c) (defs₀ (F := F)) Variants.none () Set.univ := fun t => by
  rw [bigSep_W1, bigSep_W1]
  exact sound_body1 V q c t

/-- What the launch hands the region is the invariant before the first point. -/
theorem hin1 (c : Dev nD) : Pipeline.ΦA spec1 c ⊢ (dat1 V q c).Φ 0 := by
  rw [show (dat1 V q c).Φ 0 = Phi1 V c 0 (Nat.zero_le _) from rfl, Phi1_zero V c 0 _ rfl]
  try exact Idealize.SL.BI.Entails.refl _

/-- After the last point the invariant gives it back: the accumulator's named contents are forgotten. -/
theorem hout1 (c : Dev nD) : (dat1 V q c).Φ (Fin.last cfg1.N) ⊢ Pipeline.ΦA spec1 c := by
  rw [show (dat1 V q c).Φ (Fin.last cfg1.N) = Phi1 V c (Fin.last cfg1.N).val (Nat.le_of_lt_succ (Fin.last cfg1.N).isLt) from rfl,
    Phi1_pos V c _ _ (by rw [Fin.val_last]; have : cfg1.N = 64 := N_1; omega), PhiA1_eq]
  iintro ⟨⟨HS, HR⟩, Hg⟩
  isplitl [HS HR]
  · isplitl [HS]; · iexists _; iexact HS
    iexact HR
  iexact Hg

end

end Cert.Kernel.Frame

end
-- ==== Proof.K.Body2.lean ====
import proofs.«155040_j17282948399227_1_alg».proof.Proof.Gen.Kernel.Launch
import proofs.«155040_j17282948399227_1_alg».proof.Proof.Gen.Kernel.Skeleton
import proofs.«155040_j17282948399227_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.Pipeline.Value

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The kernel body of pallas_call 2 on whole staging memrefs

At one grid point the body (optionally) resets its 1×1 scratch accumulator to zero, loads the two 1024×256 input
blocks, adds the point's Gaussian pair sum to the accumulator and, at the grid's last point, copies the
accumulator into the 1×1 output buffer. Three control cases meet the 8×8 grid: the first point (reset, no copy),
the middle points (neither) and the last point (copy, no reset). Each triple below states what every buffer holds
afterwards as a named payload of the skeleton: the accumulator ends at `k2_pay2 x y a`, where `a` is what it held
before (`k2_pay1`, the zero splat, after a reset). -/

/-- The reset branch's condition as the body computes it: both grid coordinates are zero. -/
abbrev first2 (i : grid2.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
/-- The copy-out branch's condition: the grid's last point. -/
abbrev last2 (i : grid2.Coords) : Prop := k2_cond2 i = 1#1

/-- The offset of a whole-buffer rectangle. -/
theorem off2_zero : (![0, 0] : Fin 2 → ℕ) = fun _ => 0 := by funext a; fin_cases a <;> rfl

/-- One whole-buffer store covers the 1×1 buffer. -/
theorem cover2_one (p : Vec F S1x1 .f32) (L : List (View.Piece (Elt F) S1x1 .f32)) (y : S1x1.Idx) :
    ∃ pc ∈ ((⟨Rect.unit (s := S1x1) ![0, 0] S1x1.size inb_S1x1_S1x1_0_0, p⟩ : View.Piece (Elt F) S1x1 .f32) :: L), y ∈ pc.1.set :=
  by
  obtain ⟨pc, hpc, hy⟩ := View.cover_of_tiled [(⟨Rect.unit (s := S1x1) ![0, 0] S1x1.size inb_S1x1_S1x1_0_0, p⟩ : View.Piece (Elt F) S1x1 .f32)] S1x1.size (by rfl) y
  rw [List.mem_singleton] at hpc; subst hpc
  exact ⟨_, List.mem_cons_self, hy⟩

set_option maxHeartbeats 1000000 in
/-- MIDDLE POINTS: no reset, no copy. The accumulator goes from `a` to `k2_pay2 x y a`; the output buffer is handed back
    as it was found. -/
theorem body2_mid (c : Dev nD) (E : Set ℕ) (i : grid2.Coords)
    (arg2 : Memref sig .tc .vmem S1024x256 .f32) (harg2 : arg2.IsWhole) (arg3 : Memref sig .tc .vmem S1024x256 .f32) (harg3 : arg3.IsWhole)
    (arg4 : Memref sig .tc .vmem S1x1 .f32) (harg4 : arg4.IsWhole) (arg5 : Memref sig .tc .vmem S1x1 .f32) (harg5 : arg5.IsWhole)
    (hc1 : ¬first2 i) (hc2 : ¬last2 i)
    (x y : Vec F S1024x256 .f32) (o a : Vec F S1x1 .f32) (K : PUnit → sProp 𝕄) :
    iprop(owns (c : Thread nD τ) arg2 fullShare x ∗ owns (c : Thread nD τ) arg3 fullShare y ∗ owns (c : Thread nD τ) arg4 fullShare o
        ∗ owns (c : Thread nD τ) arg5 fullShare a
        ∗ (iprop(owns (c : Thread nD τ) arg2 fullShare x ∗ owns (c : Thread nD τ) arg3 fullShare y ∗ owns (c : Thread nD τ) arg4 fullShare o
            ∗ owns (c : Thread nD τ) arg5 fullShare (k2_pay2 x y a)) -∗ K ⟨⟩))
      ⊢ wp frame (wpE (defs₀ (F := F)) Variants.none c none) E (cc2__rbf_sum_kernel i arg2 harg2 arg3 harg3 arg4 harg4 arg5 harg5) K := by
  simp only [cc2__rbf_sum_kernel_eq_skeleton]; unfold cc2__rbf_sum_kernel_skel
  simp only [k2_part1_eq_skeleton]; unfold k2_part1_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H5
  ipureintro
  rw [View.read_writes_eq_canon _ _ _ (cover2_one _ _), View.canon_unit_zero off2_zero]
  simp only [View.readAt_eq_ld, hf2, hf3, hf5, View.ld_unit_zero (S := S1024x256) off2_zero, View.ld_unit_zero (S := S1x1) off2_zero]

set_option maxHeartbeats 1000000 in
/-- THE FIRST POINT: the accumulator is reset to the zero splat `k2_pay1` whatever it held, then the point's sum is added:
    it ends at `k2_pay2 x y k2_pay1`; the output buffer is handed back as it was found. -/
theorem body2_first (c : Dev nD) (E : Set ℕ) (i : grid2.Coords)
    (arg2 : Memref sig .tc .vmem S1024x256 .f32) (harg2 : arg2.IsWhole) (arg3 : Memref sig .tc .vmem S1024x256 .f32) (harg3 : arg3.IsWhole)
    (arg4 : Memref sig .tc .vmem S1x1 .f32) (harg4 : arg4.IsWhole) (arg5 : Memref sig .tc .vmem S1x1 .f32) (harg5 : arg5.IsWhole)
    (hc1 : first2 i) (hc2 : ¬last2 i)
    (x y : Vec F S1024x256 .f32) (o a : Vec F S1x1 .f32) (K : PUnit → sProp 𝕄) :
    iprop(owns (c : Thread nD τ) arg2 fullShare x ∗ owns (c : Thread nD τ) arg3 fullShare y ∗ owns (c : Thread nD τ) arg4 fullShare o
        ∗ owns (c : Thread nD τ) arg5 fullShare a
        ∗ (iprop(owns (c : Thread nD τ) arg2 fullShare x ∗ owns (c : Thread nD τ) arg3 fullShare y ∗ owns (c : Thread nD τ) arg4 fullShare o
            ∗ owns (c : Thread nD τ) arg5 fullShare (k2_pay2 x y (k2_pay1 (F := F)))) -∗ K ⟨⟩))
      ⊢ wp frame (wpE (defs₀ (F := F)) Variants.none c none) E (cc2__rbf_sum_kernel i arg2 harg2 arg3 harg3 arg4 harg4 arg5 harg5) K := by
  simp only [cc2__rbf_sum_kernel_eq_skeleton]; unfold cc2__rbf_sum_kernel_skel
  simp only [k2_part1_eq_skeleton]; unfold k2_part1_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H5
  ipureintro
  sl_unfold_words
  rw [View.read_writes_eq_canon _ _ _ (cover2_one _ _)]
  rw [View.canon_cons_unit_zero (S := S1x1) off2_zero]
  simp only [View.readAt_eq_ld, hf2, hf3, View.ld_unit_zero (S := S1024x256) off2_zero, View.readCov_unit_zero (S := S1x1) _ off2_zero]

set_option maxHeartbeats 1000000 in
/-- THE LAST POINT: the point's sum is added to the accumulator, which is then copied whole into the output buffer: both end
    at `k2_pay2 x y a`, whatever the output buffer held. -/
theorem body2_last (c : Dev nD) (E : Set ℕ) (i : grid2.Coords)
    (arg2 : Memref sig .tc .vmem S1024x256 .f32) (harg2 : arg2.IsWhole) (arg3 : Memref sig .tc .vmem S1024x256 .f32) (harg3 : arg3.IsWhole)
    (arg4 : Memref sig .tc .vmem S1x1 .f32) (harg4 : arg4.IsWhole) (arg5 : Memref sig .tc .vmem S1x1 .f32) (harg5 : arg5.IsWhole)
    (hc1 : ¬first2 i) (hc2 : last2 i)
    (x y : Vec F S1024x256 .f32) (o a : Vec F S1x1 .f32) (K : PUnit → sProp 𝕄) :
    iprop(owns (c : Thread nD τ) arg2 fullShare x ∗ owns (c : Thread nD τ) arg3 fullShare y ∗ owns (c : Thread nD τ) arg4 fullShare o
        ∗ owns (c : Thread nD τ) arg5 fullShare a
        ∗ (iprop(owns (c : Thread nD τ) arg2 fullShare x ∗ owns (c : Thread nD τ) arg3 fullShare y ∗ owns (c : Thread nD τ) arg4 fullShare (k2_pay2 x y a)
            ∗ owns (c : Thread nD τ) arg5 fullShare (k2_pay2 x y a)) -∗ K ⟨⟩))
      ⊢ wp frame (wpE (defs₀ (F := F)) Variants.none c none) E (cc2__rbf_sum_kernel i arg2 harg2 arg3 harg3 arg4 harg4 arg5 harg5) K := by
  simp only [cc2__rbf_sum_kernel_eq_skeleton]; unfold cc2__rbf_sum_kernel_skel
  simp only [k2_part1_eq_skeleton]; unfold k2_part1_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    sl_unfold_words
    rw [View.read_writes_eq_canon _ _ _ (cover2_one _ _)]
    rw [View.canon_unit_zero (S := S1x1) off2_zero]
    simp only [View.readAt_eq_ld, hf2, hf3, hf5, View.ld_unit_zero (S := S1024x256) off2_zero, View.ld_unit_zero (S := S1x1) off2_zero, View.readCov_unit_zero (S := S1x1) _ off2_zero]
  iexists _; isplitr
  swap; · iexact H5
  ipureintro
  sl_unfold_words
  rw [View.read_writes_eq_canon _ _ _ (cover2_one _ _), View.canon_unit_zero off2_zero]
  simp only [View.readAt_eq_ld, hf2, hf3, hf5, View.ld_unit_zero (S := S1024x256) off2_zero, View.ld_unit_zero (S := S1x1) off2_zero]

end Cert.Kernel.Frame

end
-- ==== Proof.K.Blocks2.lean ====
import proofs.«155040_j17282948399227_1_alg».proof.Proof.K.Body2

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pallas_call 2: the windows' blocks and the accumulator, point by point

At the parameter `V`: the TensorCore's buffer contents when the region is entered. -/

section
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the scratch accumulator holds after the body at point `n`: reset and the first point's sum added at point 0,
    the point's sum added to what the point before left afterwards. -/
def acc2 (c : Dev nD) : (n : ℕ) → n < cfg2.N → Vec F S1x1 .f32
  | 0, h => k2_pay2 (iblk2 V c 0 ⟨0, h⟩) (iblk2 V c 1 ⟨0, h⟩) (k2_pay1 (F := F))
  | n + 1, h => k2_pay2 (iblk2 V c 0 ⟨n + 1, h⟩) (iblk2 V c 1 ⟨n + 1, h⟩) (acc2 c n (Nat.lt_of_succ_lt h))

theorem acc2_zero (c : Dev nD) (t : Fin cfg2.N) (h0 : t.val = 0) :
    acc2 V c t.val t.isLt = k2_pay2 (iblk2 V c 0 t) (iblk2 V c 1 t) (k2_pay1 (F := F)) := by
  obtain ⟨n, hn⟩ := t
  cases n with
  | zero => rfl
  | succ n => exact absurd h0 (Nat.succ_ne_zero n)

theorem acc2_pos (c : Dev nD) (t : Fin cfg2.N) (h0 : t.val ≠ 0) :
    acc2 V c t.val t.isLt
      = k2_pay2 (iblk2 V c 0 t) (iblk2 V c 1 t) (acc2 V c (t.val - 1) (Nat.lt_of_le_of_lt (Nat.sub_le _ _) t.isLt)) := by
  obtain ⟨n, hn⟩ := t
  cases n with
  | zero => exact absurd rfl h0
  | succ n => rfl

end

end Cert.Kernel.Frame

end
-- ==== Proof.K.Region2.lean ====
import proofs.«155040_j17282948399227_1_alg».proof.Proof.K.Blocks2

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pallas_call 2: the proof data, the invariant and the body obligation

The region's invariant carries the scratch accumulator: before the first point the kernel's scoped buffers are at
anything; before point `n + 1` the accumulator holds what point `n` left (`acc2`), the other scoped buffers are at
anything. The output window is idle at every point but the last, where the body stores the accumulator into it and
the pipeline writes it back. -/

section
variable (V : (c : Dev nD) → (b : Ref sig .tc) → Buf (Elt F) ((c : Thread nD τ).loc b))
-- the share each input window holds its array at: the run deals them (two windows on one array hold half each)
variable (q : Fin cfg2.W → PosShare TreeShare)

/-! ## Where the branches are taken, and where the output window is idle: decided over the grid -/

theorem hfirst2 : ∀ t : Fin cfg2.N, first2 (grid2.coords t) ↔ t.val = 0 :=
  (by decide +kernel : ∀ t : Fin grid2.N, first2 (grid2.coords t) ↔ t.val = 0)
theorem hlast2 : ∀ t : Fin cfg2.N, last2 (grid2.coords t) ↔ t.val = 63 :=
  (by decide +kernel : ∀ t : Fin grid2.N, last2 (grid2.coords t) ↔ t.val = 63)
theorem live2_0 : ∀ t : Fin cfg2.N, cfg2.idle 0 (grid2.coords t) = false := by decide +kernel
theorem live2_1 : ∀ t : Fin cfg2.N, cfg2.idle 1 (grid2.coords t) = false := by decide +kernel
theorem idle2_2 : ∀ t : Fin cfg2.N, ¬last2 (grid2.coords t) → cfg2.idle 2 (grid2.coords t) = true := by decide +kernel
theorem noFlush2_2 : ∀ t : Fin cfg2.N, ¬last2 (grid2.coords t) → (cfg2.win 2).flush t = false := by decide +kernel
theorem live2_2 : ∀ t : Fin cfg2.N, last2 (grid2.coords t) → cfg2.idle 2 (grid2.coords t) = false := by decide +kernel

/-! ## The scratch accumulator among the kernel's scoped buffers -/

/-- The scratch accumulator as a memref. -/
abbrev scM2 : Memref sig .tc .vmem S1x1 .f32 := Memref.whole cc2_scratch0

/-- The core's scoped buffers that are neither a staging buffer of this call nor its accumulator, each at anything. -/
def Rest2 (c : Dev nD) : sProp 𝕄 :=
  bigSep (((Finset.univ.filter fun b : Ref sig .tc => b.isScoped) \ Finset.univ.image (Pipeline.stageRef spec2)).erase cc2_scratch0)
    fun b => iprop(∃ f : Buf (Elt F) ((c.tc : Thread nD τ).loc b), ((c.tc : Thread nD τ).loc b) ↦{fullShare} f)

/-- The class invariant with the accumulator singled out. -/
theorem PhiA2_eq (c : Dev nD) :
    (Pipeline.ΦA spec2 c : sProp 𝕄)
      = iprop(((∃ d, owns (c : Thread nD τ) scM2 fullShare d) ∗ Rest2 c) ∗ (∃ r, prngReg c r)) := by
  unfold Pipeline.ΦA Pipeline.scopedRest Rest2
  rw [bigSep_erase (i := cc2_scratch0) (by decide)]
  simp only [scM2, owns_whole]
  rfl

/-- The region's invariant before position `n`. -/
def Phi2 (c : Dev nD) : (n : ℕ) → n ≤ cfg2.N → sProp 𝕄
  | 0, _ => Pipeline.ΦA spec2 c
  | n + 1, hn => iprop((owns (c : Thread nD τ) scM2 fullShare (acc2 V c n hn) ∗ Rest2 c) ∗ (∃ r, prngReg c r))

theorem Phi2_zero (c : Dev nD) (n : ℕ) (h : n ≤ cfg2.N) (hz : n = 0) : Phi2 V c n h = Pipeline.ΦA spec2 c := by
  subst hz; rfl
theorem Phi2_succ (c : Dev nD) (n : ℕ) (hn : n < cfg2.N) :
    Phi2 V c (n + 1) hn = iprop((owns (c : Thread nD τ) scM2 fullShare (acc2 V c n hn) ∗ Rest2 c) ∗ (∃ r, prngReg c r)) := rfl
theorem Phi2_pos (c : Dev nD) (n : ℕ) (h : n ≤ cfg2.N) (hz : n ≠ 0) :
    Phi2 V c n h = iprop((owns (c : Thread nD τ) scM2 fullShare (acc2 V c (n - 1) (by omega)) ∗ Rest2 c) ∗ (∃ r, prngReg c r)) := by
  cases n with
  | zero => exact absurd rfl hz
  | succ n => rfl

/-! ## The proof data -/

/-- The proof data of pallas_call 2 on core `c`: the arrays as the region finds them; after the body each input's buffer at
    its block and the output's at the accumulator's contents (read only at the last point, the one point that stores it);
    the invariant `Phi2`; nothing owed; the input arrays at the shares `q` the run deals. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.val t.isLt
  Φ t := Phi2 V c t.val (Nat.le_of_lt_succ t.isLt)
  q := q
  owed _ := 0

theorem A_eq2 (c : Dev nD) (w : Fin cfg2.W) : (dat2 V q c).A w = V c (Pipeline.arrRef spec2 w) := by
  dsimp only [dat2]
theorem Phi2_castSucc (c : Dev nD) (t : Fin cfg2.N) :
    (dat2 V q c).Φ t.castSucc = Phi2 V c t.val (Nat.le_of_lt t.isLt) := by
  dsimp only [dat2]; simp only [Fin.coe_castSucc]
theorem after2_0 (c : Dev nD) (t : Fin cfg2.N) : (dat2 V q c).after 0 t = iblk2 V c 0 t := by dsimp only [dat2]
theorem after2_1 (c : Dev nD) (t : Fin cfg2.N) : (dat2 V q c).after 1 t = iblk2 V c 1 t := by dsimp only [dat2]
theorem after2_2 (c : Dev nD) (t : Fin cfg2.N) : (dat2 V q c).after 2 t = acc2 V c t.val t.isLt := by dsimp only [dat2]

/-- Each input's current staging buffer holds its block at every point, fetched there or not: unfetched, the block index
    has not moved since the fetch. -/
theorem before2_0 (c : Dev nD) (t : Fin cfg2.N) (d) : (dat2 V q c).before 0 t d = iblk2 V c 0 t :=
  ((dat2 V q c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V q c).before 1 t d = iblk2 V c 1 t :=
  ((dat2 V q c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

/-! ## The body obligation -/

/-- What the body is called with at point `t`, the windows one by one, -/
def bodyPre2 (c : Dev nD) (t : Fin cfg2.N) : sProp 𝕄 :=
  iprop((dat2 V q c).Φ t.castSucc ∗ (dat2 V q c).owesAt () t.castSucc
    ∗ (∃ d, owns (c : Thread nD τ) (st2_0 t) fullShare ((dat2 V q c).before 0 t d))
    ∗ (∃ d, owns (c : Thread nD τ) (st2_1 t) fullShare ((dat2 V q c).before 1 t d))
    ∗ (∃ d, owns (c : Thread nD τ) (st2_2 t) fullShare ((dat2 V q c).before 2 t d)))

/-- and what it returns. -/
def bodyPost2 (c : Dev nD) (t : Fin cfg2.N) : sProp 𝕄 :=
  iprop((dat2 V q c).Φ t.succ ∗ (dat2 V q c).owesAt () t.succ
    ∗ (dat2 V q c).leavesExact 0 t
    ∗ (dat2 V q c).leavesExact 1 t
    ∗ (dat2 V q c).leavesExact 2 t)

set_option maxHeartbeats 4000000 in
/-- The body at any point: the inputs' buffers hold their blocks; the point is the first, a middle one or the last, and that
    case's triple applies; the invariant hands the body the accumulator at what the point before left (at anything at the
    first point) and takes it back at this point's contents; the core owes nothing throughout. -/
theorem sound_body2 (c : Dev nD) (t : Fin cfg2.N) :
    bodyPre2 V q c t ⊢ wp frame (wpE (defs₀ (F := F)) Variants.none c none) Set.univ (bodyAt2 t) (fun _ => bodyPost2 V q c t) := by
  unfold bodyPre2 bodyPost2 bodyAt2
  simp only [before2_0, before2_1]
  rw [show (dat2 V q c).owesAt () t.succ = (dat2 V q c).owesAt () t.castSucc from rfl]
  rw [show (dat2 V q c).Φ t.succ = Phi2 V c (t.val + 1) t.isLt from rfl, Phi2_succ]
  rw [show (dat2 V q c).leavesExact 0 t = owns (c : Thread nD τ) (st2_0 t) fullShare ((dat2 V q c).after 0 t) from by
    unfold Dat.leavesExact; rw [live2_0 t], after2_0]
  rw [show (dat2 V q c).leavesExact 1 t = owns (c : Thread nD τ) (st2_1 t) fullShare ((dat2 V q c).after 1 t) from by
    unfold Dat.leavesExact; rw [live2_1 t], after2_1]
  have hN : t.val < 64 := lt_of_lt_of_eq t.isLt (show cfg2.N = 64 from N_2)
  by_cases hl : t.val = 63
  · -- the last point
    have hc2 : last2 (grid2.coords t) := (hlast2 t).mpr hl
    have hc1 : ¬first2 (grid2.coords t) := fun h => by have := (hfirst2 t).mp h; omega
    have hz : t.val ≠ 0 := by omega
    rw [show (dat2 V q c).leavesExact 2 t = owns (c : Thread nD τ) (st2_2 t) fullShare ((dat2 V q c).after 2 t) from by
      unfold Dat.leavesExact; rw [live2_2 t hc2], after2_2]
    rw [acc2_pos V c t hz, Phi2_castSucc V q c t, Phi2_pos V c _ _ hz]
    iintro ⟨⟨⟨HS, HR⟩, Hg⟩, Ho, ⟨%d0, H0⟩, ⟨%d1, H1⟩, ⟨%d2, H2⟩⟩
    iapply (body2_last c Set.univ (grid2.coords t) _ _ _ _ _ _ _ _ hc1 hc2 (iblk2 V c 0 t) (iblk2 V c 1 t) _ _ _)
    isplitl [H0]; · iexact H0
    isplitl [H1]; · iexact H1
    isplitl [H2]; · iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexact H2
  · have hc2 : ¬last2 (grid2.coords t) := fun h => hl ((hlast2 t).mp h)
    rw [Dat.leavesExact_idle (dat2 V q c) 2 t (idle2_2 t hc2) (noFlush2_2 t hc2)]
    by_cases hz : t.val = 0
    · -- the first point
      have hc1 : first2 (grid2.coords t) := (hfirst2 t).mpr hz
      rw [acc2_zero V c t hz, Phi2_castSucc V q c t, Phi2_zero V c _ _ hz, PhiA2_eq]
      iintro ⟨⟨⟨⟨%a, HS⟩, HR⟩, Hg⟩, Ho, ⟨%d0, H0⟩, ⟨%d1, H1⟩, ⟨%d2, H2⟩⟩
      iapply (body2_first c Set.univ (grid2.coords t) _ _ _ _ _ _ _ _ hc1 hc2 (iblk2 V c 0 t) (iblk2 V c 1 t) _ a _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2
    · -- a middle point
      have hc1 : ¬first2 (grid2.coords t) := fun h => hz ((hfirst2 t).mp h)
      rw [acc2_pos V c t hz, Phi2_castSucc V q c t, Phi2_pos V c _ _ hz]
      iintro ⟨⟨⟨HS, HR⟩, Hg⟩, Ho, ⟨%d0, H0⟩, ⟨%d1, H1⟩, ⟨%d2, H2⟩⟩
      iapply (body2_mid c Set.univ (grid2.coords t) _ _ _ _ _ _ _ _ hc1 hc2 (iblk2 V c 0 t) (iblk2 V c 1 t) _ _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V q c) (defs₀ (F := F)) Variants.none () Set.univ := fun t => by
  rw [bigSep_W2, bigSep_W2]
  exact sound_body2 V q c t

/-- What the launch hands the region is the invariant before the first point. -/
theorem hin2 (c : Dev nD) : Pipeline.ΦA spec2 c ⊢ (dat2 V q c).Φ 0 := by
  rw [show (dat2 V q c).Φ 0 = Phi2 V c 0 (Nat.zero_le _) from rfl, Phi2_zero V c 0 _ rfl]
  try exact Idealize.SL.BI.Entails.refl _

/-- After the last point the invariant gives it back: the accumulator's named contents are forgotten. -/
theorem hout2 (c : Dev nD) : (dat2 V q c).Φ (Fin.last cfg2.N) ⊢ Pipeline.ΦA spec2 c := by
  rw [show (dat2 V q c).Φ (Fin.last cfg2.N) = Phi2 V c (Fin.last cfg2.N).val (Nat.le_of_lt_succ (Fin.last cfg2.N).isLt) from rfl,
    Phi2_pos V c _ _ (by rw [Fin.val_last]; have : cfg2.N = 64 := N_2; omega), PhiA2_eq]
  iintro ⟨⟨HS, HR⟩, Hg⟩
  isplitl [HS HR]
  · isplitl [HS]; · iexists _; iexact HS
    iexact HR
  iexact Hg

end

end Cert.Kernel.Frame

end
-- ==== Proof.K.Shares.lean ====
import proofs.«155040_j17282948399227_1_alg».proof.Proof.K.Region0
import proofs.«155040_j17282948399227_1_alg».proof.Proof.K.Region1
import proofs.«155040_j17282948399227_1_alg».proof.Proof.K.Region2

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # How the pallas_calls hold their input arrays

Pallas_calls 0 and 1 read ONE array through both input windows: each window holds half of the array's share. Pallas_call 2
reads two arrays, each held whole. -/

/-- Two input windows on one array hold half of it each; the output's array is held whole. -/
abbrev qHalves : Fin 3 → PosShare TreeShare := fun | ⟨0, _⟩ => fullShare.left | ⟨1, _⟩ => fullShare.right | ⟨_ + 2, _⟩ => fullShare
/-- Distinct arrays are each held whole. -/
abbrev qFull : Fin 3 → PosShare TreeShare := fun _ => fullShare

/-- A buffer held whole is its two half shares. -/
theorem halves {c : Dev nD} {b : Ref sig .tc} (X : Buf (Elt F) ((c.tc : Thread nD τ).loc b)) :
    ((((c : Thread nD τ).loc b) ↦{fullShare} X) : sProp 𝕄)
      = iprop((((c : Thread nD τ).loc b) ↦{fullShare.left} X) ∗ (((c : Thread nD τ).loc b) ↦{fullShare.right} X)) :=
  BI.Entails.antisymm (pointsTo_share (PosShare.mem_left_op_right fullShare)).1 (pointsTo_share (PosShare.mem_left_op_right fullShare)).2

end Cert.Kernel.Frame

end
-- ==== Proof.K.Enter0.lean ====
import proofs.«155040_j17282948399227_1_alg».proof.Proof.K.Shares

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Entering and leaving pallas_call 0: its arrays out of the core's unscoped buffers and back

Both input windows read the array `main_arg0`: its full share is split into its two halves, one per window, at entry, and the
halves are joined again at exit. The output window's array `main_v0` (a 1×1 result) ends holding what the pipeline's one
write-back left; every other unscoped buffer bypasses the call. -/

section
variable (V : (c : Dev nD) → (b : Ref sig .tc) → Buf (Elt F) ((c : Thread nD τ).loc b)) (c : Dev nD)

/-- The pipeline's arrays, window by window. -/
theorem arrays0_eq (q : Fin cfg0.W → PosShare TreeShare)
    (Fn : (w : Fin cfg0.W) → Buf (Elt F) ((cfg0.win w).arr.view.loc (c.tc : Thread nD τ))) :
    ((dat0 V q c).arrays Fn : sProp 𝕄)
      = iprop((((c : Thread nD τ).loc main_arg0) ↦{q 0} Fn 0) ∗ (((c : Thread nD τ).loc main_arg0) ↦{q 1} Fn 1)
          ∗ (((c : Thread nD τ).loc main_v0) ↦{fullShare} Fn 2)) := by
  unfold Dat.arrays
  rw [bigSep_W0, (arr_whole0 0).set_eq_univ]
  try rw [(arr_whole0 1).set_eq_univ]
  rw [(arr_whole0 2).set_eq_univ]
  rfl

/-- The distinct buffers behind the call's arrays. -/
theorem arrBufs0_eq (X : (b : Ref sig .tc) → Buf (Elt F) ((c.tc : Thread nD τ).loc b)) :
    (Pipeline.arrBufs (Ix := Unit) (Name := ℕ) (U := UR sig nD τ) (Lvl := ℕ) spec0 c X : sProp 𝕄)
      = iprop((((c : Thread nD τ).loc main_arg0) ↦{fullShare} X main_arg0) ∗ (((c : Thread nD τ).loc main_v0) ↦{fullShare} X main_v0)) := by
  unfold Pipeline.arrBufs
  rw [show Finset.univ.image (Pipeline.arrRef spec0) = {main_arg0, main_v0} from by decide, bigSep_insert (by decide), bigSep_singleton]
  rfl

/-- The core's unscoped buffers are the buffers behind the call's arrays and the rest. -/
theorem split0 (X : (b : Ref sig .tc) → Buf (Elt F) ((c.tc : Thread nD τ).loc b)) :
    (unscopedBufs (Ix := Unit) (Name := ℕ) (U := UR sig nD τ) (Lvl := ℕ) c X : sProp 𝕄)
      = iprop(Pipeline.arrBufs spec0 c X ∗ Pipeline.unscopedRest spec0 c X) :=
  Pipeline.unscopedBufs_split₀ (Ix := Unit) (Name := ℕ) (U := UR sig nD τ) (Lvl := ℕ) cfgs (0 : Fin 3) winFacts₀0.arr_unscoped c X

/-- ENTRY: the core's unscoped buffers at `V c` are the call's arrays at their entry contents — the shared input array
    split into its two halves — and the unscoped rest. -/
theorem entry0 :
    (unscopedBufs (Ix := Unit) (Name := ℕ) (U := UR sig nD τ) (Lvl := ℕ) c (V c) : sProp 𝕄)
      ⊢ iprop((dat0 V qHalves c).arrays ((dat0 V qHalves c).arrAt · 0) ∗ Pipeline.unscopedRest spec0 c (V c)) := by
  rw [split0, arrBufs0_eq, arrays0_eq, halves (c := c) (b := main_arg0)]
  iintro ⟨⟨⟨Hl, Hrr⟩, Ho⟩, Hr⟩
  isplitr [Hr]
  · isplitl [Hl]; · iexact Hl
    isplitl [Hrr]; · iexact Hrr
    iexact Ho
  iexact Hr

/-- EXIT: the arrays at their final contents — the input array's halves joined again, the result at what the write-back
    left — and the unscoped rest are the core's unscoped buffers at any contents `V'` that hold the result there and agree
    with `V c` elsewhere. -/
theorem exit0 (V' : (b : Ref sig .tc) → Buf (Elt F) ((c.tc : Thread nD τ).loc b))
    (hv : V' main_v0 = (dat0 V qHalves c).arrAt 2 cfg0.N) (hrest : ∀ b : Ref sig .tc, b ≠ main_v0 → V' b = V c b) :
    iprop((dat0 V qHalves c).arrays ((dat0 V qHalves c).arrAt · cfg0.N) ∗ Pipeline.unscopedRest spec0 c (V c))
      ⊢ (unscopedBufs (Ix := Unit) (Name := ℕ) (U := UR sig nD τ) (Lvl := ℕ) c V' : sProp 𝕄) := by
  have hr : (Pipeline.unscopedRest (Ix := Unit) (Name := ℕ) (U := UR sig nD τ) (Lvl := ℕ) spec0 c V' : sProp 𝕄)
      = Pipeline.unscopedRest spec0 c (V c) := by
    unfold Pipeline.unscopedRest
    exact bigSep_congr fun b hb => by
      rw [hrest b (fun e => (Finset.mem_sdiff.mp hb).2 (by rw [e]; decide))]
  have h0 : (dat0 V qHalves c).arrAt 0 cfg0.N = V c main_arg0 := ((dat0 V qHalves c).arrAt_in 0 rfl _).trans (A_eq0 V qHalves c 0)
  have h1 : (dat0 V qHalves c).arrAt 1 cfg0.N = V c main_arg0 := ((dat0 V qHalves c).arrAt_in 1 rfl _).trans (A_eq0 V qHalves c 1)
  rw [split0, arrBufs0_eq, arrays0_eq, hr, hv, hrest main_arg0 (by decide), halves (c := c) (b := main_arg0), h0, h1]
  iintro ⟨⟨Hl, Hrr, Ho⟩, Hr⟩
  isplitr [Hr]
  · isplitr [Ho]
    · isplitl [Hl]; · iexact Hl
      iexact Hrr
    iexact Ho
  iexact Hr

end

end Cert.Kernel.Frame

end
-- ==== Proof.K.Enter1.lean ====
import proofs.«155040_j17282948399227_1_alg».proof.Proof.K.Shares

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Entering and leaving pallas_call 1: its arrays out of the core's unscoped buffers and back

Both input windows read the array `main_arg1`: its full share is split into its two halves, one per window, at entry, and the
halves are joined again at exit. The output window's array `main_v3` (a 1×1 result) ends holding what the pipeline's one
write-back left; every other unscoped buffer bypasses the call. -/

section
variable (V : (c : Dev nD) → (b : Ref sig .tc) → Buf (Elt F) ((c : Thread nD τ).loc b)) (c : Dev nD)

/-- The pipeline's arrays, window by window. -/
theorem arrays1_eq (q : Fin cfg1.W → PosShare TreeShare)
    (Fn : (w : Fin cfg1.W) → Buf (Elt F) ((cfg1.win w).arr.view.loc (c.tc : Thread nD τ))) :
    ((dat1 V q c).arrays Fn : sProp 𝕄)
      = iprop((((c : Thread nD τ).loc main_arg1) ↦{q 0} Fn 0) ∗ (((c : Thread nD τ).loc main_arg1) ↦{q 1} Fn 1)
          ∗ (((c : Thread nD τ).loc main_v3) ↦{fullShare} Fn 2)) := by
  unfold Dat.arrays
  rw [bigSep_W1, (arr_whole1 0).set_eq_univ]
  try rw [(arr_whole1 1).set_eq_univ]
  rw [(arr_whole1 2).set_eq_univ]
  rfl

/-- The distinct buffers behind the call's arrays. -/
theorem arrBufs1_eq (X : (b : Ref sig .tc) → Buf (Elt F) ((c.tc : Thread nD τ).loc b)) :
    (Pipeline.arrBufs (Ix := Unit) (Name := ℕ) (U := UR sig nD τ) (Lvl := ℕ) spec1 c X : sProp 𝕄)
      = iprop((((c : Thread nD τ).loc main_arg1) ↦{fullShare} X main_arg1) ∗ (((c : Thread nD τ).loc main_v3) ↦{fullShare} X main_v3)) := by
  unfold Pipeline.arrBufs
  rw [show Finset.univ.image (Pipeline.arrRef spec1) = {main_arg1, main_v3} from by decide, bigSep_insert (by decide), bigSep_singleton]
  rfl

/-- The core's unscoped buffers are the buffers behind the call's arrays and the rest. -/
theorem split1 (X : (b : Ref sig .tc) → Buf (Elt F) ((c.tc : Thread nD τ).loc b)) :
    (unscopedBufs (Ix := Unit) (Name := ℕ) (U := UR sig nD τ) (Lvl := ℕ) c X : sProp 𝕄)
      = iprop(Pipeline.arrBufs spec1 c X ∗ Pipeline.unscopedRest spec1 c X) :=
  Pipeline.unscopedBufs_split₀ (Ix := Unit) (Name := ℕ) (U := UR sig nD τ) (Lvl := ℕ) cfgs (1 : Fin 3) winFacts₀1.arr_unscoped c X

/-- ENTRY: the core's unscoped buffers at `V c` are the call's arrays at their entry contents — the shared input array
    split into its two halves — and the unscoped rest. -/
theorem entry1 :
    (unscopedBufs (Ix := Unit) (Name := ℕ) (U := UR sig nD τ) (Lvl := ℕ) c (V c) : sProp 𝕄)
      ⊢ iprop((dat1 V qHalves c).arrays ((dat1 V qHalves c).arrAt · 0) ∗ Pipeline.unscopedRest spec1 c (V c)) := by
  rw [split1, arrBufs1_eq, arrays1_eq, halves (c := c) (b := main_arg1)]
  iintro ⟨⟨⟨Hl, Hrr⟩, Ho⟩, Hr⟩
  isplitr [Hr]
  · isplitl [Hl]; · iexact Hl
    isplitl [Hrr]; · iexact Hrr
    iexact Ho
  iexact Hr

/-- EXIT: the arrays at their final contents — the input array's halves joined again, the result at what the write-back
    left — and the unscoped rest are the core's unscoped buffers at any contents `V'` that hold the result there and agree
    with `V c` elsewhere. -/
theorem exit1 (V' : (b : Ref sig .tc) → Buf (Elt F) ((c.tc : Thread nD τ).loc b))
    (hv : V' main_v3 = (dat1 V qHalves c).arrAt 2 cfg1.N) (hrest : ∀ b : Ref sig .tc, b ≠ main_v3 → V' b = V c b) :
    iprop((dat1 V qHalves c).arrays ((dat1 V qHalves c).arrAt · cfg1.N) ∗ Pipeline.unscopedRest spec1 c (V c))
      ⊢ (unscopedBufs (Ix := Unit) (Name := ℕ) (U := UR sig nD τ) (Lvl := ℕ) c V' : sProp 𝕄) := by
  have hr : (Pipeline.unscopedRest (Ix := Unit) (Name := ℕ) (U := UR sig nD τ) (Lvl := ℕ) spec1 c V' : sProp 𝕄)
      = Pipeline.unscopedRest spec1 c (V c) := by
    unfold Pipeline.unscopedRest
    exact bigSep_congr fun b hb => by
      rw [hrest b (fun e => (Finset.mem_sdiff.mp hb).2 (by rw [e]; decide))]
  have h0 : (dat1 V qHalves c).arrAt 0 cfg1.N = V c main_arg1 := ((dat1 V qHalves c).arrAt_in 0 rfl _).trans (A_eq1 V qHalves c 0)
  have h1 : (dat1 V qHalves c).arrAt 1 cfg1.N = V c main_arg1 := ((dat1 V qHalves c).arrAt_in 1 rfl _).trans (A_eq1 V qHalves c 1)
  rw [split1, arrBufs1_eq, arrays1_eq, hr, hv, hrest main_arg1 (by decide), halves (c := c) (b := main_arg1), h0, h1]
  iintro ⟨⟨Hl, Hrr, Ho⟩, Hr⟩
  isplitr [Hr]
  · isplitr [Ho]
    · isplitl [Hl]; · iexact Hl
      iexact Hrr
    iexact Ho
  iexact Hr

end

end Cert.Kernel.Frame

end
-- ==== Proof.K.Enter2.lean ====
import proofs.«155040_j17282948399227_1_alg».proof.Proof.K.Shares

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Entering and leaving pallas_call 2: its arrays out of the core's unscoped buffers and back

The two input windows read two arrays, `main_arg0` and `main_arg1`, each held whole. The output window's array `main_v6`
(a 1×1 result) ends holding what the pipeline's one write-back left; every other unscoped buffer bypasses the call. -/

section
variable (V : (c : Dev nD) → (b : Ref sig .tc) → Buf (Elt F) ((c : Thread nD τ).loc b)) (c : Dev nD)

/-- The pipeline's arrays, window by window. -/
theorem arrays2_eq (q : Fin cfg2.W → PosShare TreeShare)
    (Fn : (w : Fin cfg2.W) → Buf (Elt F) ((cfg2.win w).arr.view.loc (c.tc : Thread nD τ))) :
    ((dat2 V q c).arrays Fn : sProp 𝕄)
      = iprop((((c : Thread nD τ).loc main_arg0) ↦{q 0} Fn 0) ∗ (((c : Thread nD τ).loc main_arg1) ↦{q 1} Fn 1)
          ∗ (((c : Thread nD τ).loc main_v6) ↦{fullShare} Fn 2)) := by
  unfold Dat.arrays
  rw [bigSep_W2, (arr_whole2 0).set_eq_univ, (arr_whole2 1).set_eq_univ, (arr_whole2 2).set_eq_univ]
  rfl

/-- The distinct buffers behind the call's arrays. -/
theorem arrBufs2_eq (X : (b : Ref sig .tc) → Buf (Elt F) ((c.tc : Thread nD τ).loc b)) :
    (Pipeline.arrBufs (Ix := Unit) (Name := ℕ) (U := UR sig nD τ) (Lvl := ℕ) spec2 c X : sProp 𝕄)
      = iprop((((c : Thread nD τ).loc main_arg0) ↦{fullShare} X main_arg0) ∗ (((c : Thread nD τ).loc main_arg1) ↦{fullShare} X main_arg1)
          ∗ (((c : Thread nD τ).loc main_v6) ↦{fullShare} X main_v6)) := by
  unfold Pipeline.arrBufs
  rw [show Finset.univ.image (Pipeline.arrRef spec2) = {main_arg0, main_arg1, main_v6} from by decide,
    bigSep_insert (by decide), bigSep_insert (by decide), bigSep_singleton]
  rfl

/-- The core's unscoped buffers are the buffers behind the call's arrays and the rest. -/
theorem split2 (X : (b : Ref sig .tc) → Buf (Elt F) ((c.tc : Thread nD τ).loc b)) :
    (unscopedBufs (Ix := Unit) (Name := ℕ) (U := UR sig nD τ) (Lvl := ℕ) c X : sProp 𝕄)
      = iprop(Pipeline.arrBufs spec2 c X ∗ Pipeline.unscopedRest spec2 c X) :=
  Pipeline.unscopedBufs_split₀ (Ix := Unit) (Name := ℕ) (U := UR sig nD τ) (Lvl := ℕ) cfgs (2 : Fin 3) winFacts2.arr_unscoped c X

/-- ENTRY: the core's unscoped buffers at `V c` are the call's arrays at their entry contents and the unscoped rest. -/
theorem entry2 :
    (unscopedBufs (Ix := Unit) (Name := ℕ) (U := UR sig nD τ) (Lvl := ℕ) c (V c) : sProp 𝕄)
      ⊢ iprop((dat2 V qFull c).arrays ((dat2 V qFull c).arrAt · 0) ∗ Pipeline.unscopedRest spec2 c (V c)) := by
  rw [split2, arrBufs2_eq, arrays2_eq]
  iintro ⟨⟨Ha, Hb, Ho⟩, Hr⟩
  isplitr [Hr]
  · isplitl [Ha]; · iexact Ha
    isplitl [Hb]; · iexact Hb
    iexact Ho
  iexact Hr

/-- EXIT: the arrays at their final contents — the inputs as entered, the result at what the write-back left — and the
    unscoped rest are the core's unscoped buffers at any contents `V'` that hold the result there and agree with `V c`
    elsewhere. -/
theorem exit2 (V' : (b : Ref sig .tc) → Buf (Elt F) ((c.tc : Thread nD τ).loc b))
    (hv : V' main_v6 = (dat2 V qFull c).arrAt 2 cfg2.N) (hrest : ∀ b : Ref sig .tc, b ≠ main_v6 → V' b = V c b) :
    iprop((dat2 V qFull c).arrays ((dat2 V qFull c).arrAt · cfg2.N) ∗ Pipeline.unscopedRest spec2 c (V c))
      ⊢ (unscopedBufs (Ix := Unit) (Name := ℕ) (U := UR sig nD τ) (Lvl := ℕ) c V' : sProp 𝕄) := by
  have hr : (Pipeline.unscopedRest (Ix := Unit) (Name := ℕ) (U := UR sig nD τ) (Lvl := ℕ) spec2 c V' : sProp 𝕄)
      = Pipeline.unscopedRest spec2 c (V c) := by
    unfold Pipeline.unscopedRest
    exact bigSep_congr fun b hb => by
      rw [hrest b (fun e => (Finset.mem_sdiff.mp hb).2 (by rw [e]; decide))]
  have h0 : (dat2 V qFull c).arrAt 0 cfg2.N = V c main_arg0 := ((dat2 V qFull c).arrAt_in 0 rfl _).trans (A_eq2 V qFull c 0)
  have h1 : (dat2 V qFull c).arrAt 1 cfg2.N = V c main_arg1 := ((dat2 V qFull c).arrAt_in 1 rfl _).trans (A_eq2 V qFull c 1)
  rw [split2, arrBufs2_eq, arrays2_eq, hr, hv, hrest main_arg0 (by decide), hrest main_arg1 (by decide), h0, h1]

end

end Cert.Kernel.Frame

end
-- ==== Proof.K.Run.lean ====
import proofs.«155040_j17282948399227_1_alg».proof.Proof.K.Enter0
import proofs.«155040_j17282948399227_1_alg».proof.Proof.K.Enter1
import proofs.«155040_j17282948399227_1_alg».proof.Proof.K.Enter2

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # THE RUN: @main's six segments from the launch to the return

@main is pallas_call 0, three host operations, pallas_call 1, three host operations, pallas_call 2, seven host operations.
The buffer contents at every segment boundary are a fold from the launch memory: a host stretch applies its operations; a
pallas_call changes its result buffer only, to what its one write-back leaves. Every unscoped buffer's final contents are
read off the last valuation: the frame claims take the two arguments from it, the value claim the result. -/

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- The same read at the TensorCore's references (what pallas_call 0's proof data take). -/
abbrev V0 : (c : Dev nD) → (b : Ref sig .tc) → Buf (Elt F) ((c : Thread nD τ).loc b) := fun c b => W0 m ρ c b

/-- After pallas_call 0: `main_v0` at what the call's one write-back leaves, every other buffer as entered. -/
def W1 (c : Dev nD) : Valuation τ sig (Elt F) :=
  Function.update (W0 m ρ c) main_v0 ((dat0 (V0 m ρ) qHalves c).arrAt 2 cfg0.N : Buf (Elt F) ((c : Thread nD τ).loc main_v0))
theorem W1_out (c : Dev nD) : (fun b : Ref sig .tc => W1 m ρ c b) main_v0 = (dat0 (V0 m ρ) qHalves c).arrAt 2 cfg0.N := by
  show Function.update (W0 m ρ c) main_v0 _ main_v0 = _
  rw [Function.update_self]
theorem W1_of (c : Dev nD) (b : Ref sig .tc) (h : b ≠ main_v0) : (fun b : Ref sig .tc => W1 m ρ c b) b = V0 m ρ c b := by
  show Function.update (W0 m ρ c) main_v0 _ b = _
  rw [Function.update_of_ne (StableHlo.devRef_ne_of_ne h : (Proc.devRef .tc b : DevRef τ sig) ≠ Proc.devRef .tc main_v0)]

/-- After the first host stretch (pallas_call 1's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b

/-- After pallas_call 1: `main_v3` at what the call's one write-back leaves, every other buffer as entered. -/
def W3 (c : Dev nD) : Valuation τ sig (Elt F) :=
  Function.update (W2 m ρ c) main_v3 ((dat1 (V2 m ρ) qHalves c).arrAt 2 cfg1.N : Buf (Elt F) ((c : Thread nD τ).loc main_v3))
theorem W3_out (c : Dev nD) : (fun b : Ref sig .tc => W3 m ρ c b) main_v3 = (dat1 (V2 m ρ) qHalves c).arrAt 2 cfg1.N := by
  show Function.update (W2 m ρ c) main_v3 _ main_v3 = _
  rw [Function.update_self]
theorem W3_of (c : Dev nD) (b : Ref sig .tc) (h : b ≠ main_v3) : (fun b : Ref sig .tc => W3 m ρ c b) b = V2 m ρ c b := by
  show Function.update (W2 m ρ c) main_v3 _ b = _
  rw [Function.update_of_ne (StableHlo.devRef_ne_of_ne h : (Proc.devRef .tc b : DevRef τ sig) ≠ Proc.devRef .tc main_v3)]

/-- After the second host stretch (pallas_call 2's entry). -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b

/-- After pallas_call 2: `main_v6` at what the call's one write-back leaves, every other buffer as entered. -/
def W5 (c : Dev nD) : Valuation τ sig (Elt F) :=
  Function.update (W4 m ρ c) main_v6 ((dat2 (V4 m ρ) qFull c).arrAt 2 cfg2.N : Buf (Elt F) ((c : Thread nD τ).loc main_v6))
theorem W5_out (c : Dev nD) : (fun b : Ref sig .tc => W5 m ρ c b) main_v6 = (dat2 (V4 m ρ) qFull c).arrAt 2 cfg2.N := by
  show Function.update (W4 m ρ c) main_v6 _ main_v6 = _
  rw [Function.update_self]
theorem W5_of (c : Dev nD) (b : Ref sig .tc) (h : b ≠ main_v6) : (fun b : Ref sig .tc => W5 m ρ c b) b = V4 m ρ c b := by
  show Function.update (W4 m ρ c) main_v6 _ b = _
  rw [Function.update_of_ne (StableHlo.devRef_ne_of_ne h : (Proc.devRef .tc b : DevRef τ sig) ≠ Proc.devRef .tc main_v6)]

/-- After the last host stretch: the final contents. -/
abbrev W6 : Dev nD → Valuation τ sig (Elt F) := fun c => StableHlo.after hostOps3 (W5 m ρ c)

/-! ## The proof data family and the thread state -/

/-- No pallas_call has a prefetched table. -/
abbrev admAll : (p : Fin 3) → (pcfgs (F := F) p).Adm := fun p => (cfgs p).toPCfg_adm
/-- Every pipeline's proof data, each at its region's entry contents: a literal match on the pipeline. -/
def datAll : (p : Fin 3) → (c : Dev nD) → Dat τ (Elt F) Unit ℕ (UR sig nD τ) ℕ (Pipeline.pin (pcfgs (F := F)) admAll p) c
  | ⟨0, _⟩ => fun c => dat0 (V0 m ρ) qHalves c
  | ⟨1, _⟩ => fun c => dat1 (V2 m ρ) qHalves c
  | ⟨2, _⟩ => fun c => dat2 (V4 m ρ) qFull c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor

/-! ## The pallas_calls as segments -/

-- a library lemma stated over the pinned configuration unifies with it only when unification may unfold plain definitions
-- in a metavariable's type
set_option backward.isDefEq.respectTransparency.types false in
/-- PALLAS_CALL 0 over the thread state: entered from every unscoped buffer at `W0`, left at `W1`. Its arrays split
    out of the unscoped buffers and put back at the exit contents; the generator register into the invariant and out; nothing
    owed; no semaphore of the kernel's own. -/
def reg0 : Pipeline.RegionSeg (pcfgs (F := F)) admAll (datAll m ρ) () defs₀ 𝒱₀ L lv 0 where
  win := winFacts₀0
  block_pos := block_pos0
  stage_whole := stage_whole0
  K := PEmpty
  osem k := k.elim
  ho := Pipeline.OwnSemFacts.none _
  hbody c := (body_obligation0 (V0 m ρ) qHalves c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := entry0 (V0 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (datAll m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (V0 m ρ) qHalves c).trans ?_
    unfold Pipeline.ΦA
    iintro ⟨Hr, Hp⟩
    isplitl [Hp]; · iexact Hp
    isplitr; · iempintro
    iexact Hr
  hexit c := by
    have hjoin : iprop((datAll m ρ 0 c).arrays ((datAll m ρ 0 c).arrAt · cfg0.N)
          ∗ Pipeline.unscopedRest (Ix := Unit) (Name := ℕ) (U := UR sig nD τ) (Lvl := ℕ) spec0 c (V0 m ρ c))
        ⊢ (unscopedBufs (Ix := Unit) (Name := ℕ) (U := UR sig nD τ) (Lvl := ℕ) c (fun b => W1 m ρ c b) : sProp 𝕄) :=
      exit0 (V0 m ρ) c (fun b => W1 m ρ c b) (W1_out m ρ c) (W1_of m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

-- a library lemma stated over the pinned configuration unifies with it only when unification may unfold plain definitions
-- in a metavariable's type
set_option backward.isDefEq.respectTransparency.types false in
/-- PALLAS_CALL 1 over the thread state: entered from every unscoped buffer at `W2`, left at `W3`. Its arrays split
    out of the unscoped buffers and put back at the exit contents; the generator register into the invariant and out; nothing
    owed; no semaphore of the kernel's own. -/
def reg1 : Pipeline.RegionSeg (pcfgs (F := F)) admAll (datAll m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) qHalves c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := entry1 (V2 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (datAll m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 (V2 m ρ) qHalves c).trans ?_
    unfold Pipeline.ΦA
    iintro ⟨Hr, Hp⟩
    isplitl [Hp]; · iexact Hp
    isplitr; · iempintro
    iexact Hr
  hexit c := by
    have hjoin : iprop((datAll m ρ 1 c).arrays ((datAll m ρ 1 c).arrAt · cfg1.N)
          ∗ Pipeline.unscopedRest (Ix := Unit) (Name := ℕ) (U := UR sig nD τ) (Lvl := ℕ) spec1 c (V2 m ρ c))
        ⊢ (unscopedBufs (Ix := Unit) (Name := ℕ) (U := UR sig nD τ) (Lvl := ℕ) c (fun b => W3 m ρ c b) : sProp 𝕄) :=
      exit1 (V2 m ρ) c (fun b => W3 m ρ c b) (W3_out m ρ c) (W3_of m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

-- a library lemma stated over the pinned configuration unifies with it only when unification may unfold plain definitions
-- in a metavariable's type
set_option backward.isDefEq.respectTransparency.types false in
/-- PALLAS_CALL 2 over the thread state: entered from every unscoped buffer at `W4`, left at `W5`. Its arrays split
    out of the unscoped buffers and put back at the exit contents; the generator register into the invariant and out; nothing
    owed; no semaphore of the kernel's own. -/
def reg2 : Pipeline.RegionSeg (pcfgs (F := F)) admAll (datAll m ρ) () defs₀ 𝒱₀ L lv 2 where
  win := winFacts2.to₀
  block_pos := block_pos2
  stage_whole := stage_whole2
  K := PEmpty
  osem k := k.elim
  ho := Pipeline.OwnSemFacts.none _
  hbody c := (body_obligation2 (V4 m ρ) qFull c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := entry2 (V4 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (datAll m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (hout2 (V4 m ρ) qFull c).trans ?_
    unfold Pipeline.ΦA
    iintro ⟨Hr, Hp⟩
    isplitl [Hp]; · iexact Hp
    isplitr; · iempintro
    iexact Hr
  hexit c := by
    have hjoin : iprop((datAll m ρ 2 c).arrays ((datAll m ρ 2 c).arrAt · cfg2.N)
          ∗ Pipeline.unscopedRest (Ix := Unit) (Name := ℕ) (U := UR sig nD τ) (Lvl := ℕ) spec2 c (V4 m ρ c))
        ⊢ (unscopedBufs (Ix := Unit) (Name := ℕ) (U := UR sig nD τ) (Lvl := ℕ) c (fun b => W5 m ρ c b) : sProp 𝕄) :=
      exit2 (V4 m ρ) c (fun b => W5 m ρ c b) (W5_out m ρ c) (W5_of m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

/-- @main's six segments in order. -/
abbrev segs : List (Pipeline.Seg (pcfgs (F := F)) admAll (datAll m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)),
    .region (reg2 m ρ),
    .host (hseg hostOps3 hostOps3_sub hostOps3_fresh (W5 m ρ)) ]
/-- @main IS the run of the segments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and every final state holds every unscoped buffer at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) admAll (datAll m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W6 m ρ c) ∗ ∃ r, prngReg c r))
    (hch := ⟨fun _ => .rfl, fun _ => .rfl, fun _ => .rfl, fun _ => .rfl, fun _ => .rfl, fun _ => .rfl, fun c =>
      (show iprop(StableHlo.held (c : Thread nD τ) (Pipeline.ucRefs τ sig) (W6 m ρ c) ∗ R c)
          ⊢ (iprop(iprop(StableHlo.held (c : Thread nD τ) (Pipeline.ucRefs τ sig) (W6 m ρ c) ∗ ∃ r, prngReg c r)
              ∗ ∃ W, owes (c : Thread nD τ) (0 : CellTallies nD τ sig Unit) W) : sProp 𝕄) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Frame

end
-- ==== Proof.K.Kept.lean ====
import proofs.«155040_j17282948399227_1_alg».proof.Proof.K.Run

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The arguments end as launched, and the frame

No host operation of @main writes an argument array and a pallas_call changes its result buffer only, so the fold of the
buffer contents through @main's six segments, read at an argument, walks back to the launch memory. -/

variable (m : (ℓ : Loc nD τ sig) → Buf (Elt F) ℓ) (ρ : Dev nD → PrngReg)

/-- `main_arg0` reaches the end as launched: no host operation writes it and a pallas_call changes its result buffer only. -/
theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := StableHlo.after_of_forall_not_mem (b := Proc.devRef .tc main_arg0) _ _ (List.forall_iff_forall_mem.mp (by
          simp only [hostOps3, List.Forall, StableHlo.nullary_writes, StableHlo.unary_writes, StableHlo.binary_writes, StableHlo.reshape_writes, Finset.mem_singleton]
          repeat' apply And.intro
          all_goals exact StableHlo.devRef_ne_of_ne (by decide)))
    _ = W4 m ρ c (Proc.devRef .tc main_arg0) := W5_of m ρ c main_arg0 (by decide)
    _ = W3 m ρ c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.reshape_writes, Finset.mem_singleton]
          repeat' apply And.intro
          all_goals exact StableHlo.devRef_ne_of_ne (by decide)))
    _ = W2 m ρ c (Proc.devRef .tc main_arg0) := W3_of m ρ c main_arg0 (by decide)
    _ = W1 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W0 m ρ c (Proc.devRef .tc main_arg0) := W1_of m ρ c main_arg0 (by decide)
    _ = m ((c : Thread nD τ).loc main_arg0) := rfl

/-- `main_arg1` reaches the end as launched: no host operation writes it and a pallas_call changes its result buffer only. -/
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := StableHlo.after_of_forall_not_mem (b := Proc.devRef .tc main_arg1) _ _ (List.forall_iff_forall_mem.mp (by
          simp only [hostOps3, List.Forall, StableHlo.nullary_writes, StableHlo.unary_writes, StableHlo.binary_writes, StableHlo.reshape_writes, Finset.mem_singleton]
          repeat' apply And.intro
          all_goals exact StableHlo.devRef_ne_of_ne (by decide)))
    _ = W4 m ρ c (Proc.devRef .tc main_arg1) := W5_of m ρ c main_arg1 (by decide)
    _ = W3 m ρ c (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, StableHlo.reshape_writes, Finset.mem_singleton]
          repeat' apply And.intro
          all_goals exact StableHlo.devRef_ne_of_ne (by decide)))
    _ = W2 m ρ c (Proc.devRef .tc main_arg1) := W3_of m ρ c main_arg1 (by decide)
    _ = W1 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W0 m ρ c (Proc.devRef .tc main_arg1) := W1_of m ρ c main_arg1 (by decide)
    _ = m ((c : Thread nD τ).loc main_arg1) := rfl

/-- THE FRAME, at any float instance: every weakly fair execution of @main terminates, nothing faulting, and every final
    state has both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W6_main_arg0 m ρ c),
     (h c _ (mem_uc main_arg1 (by decide))).trans (W6_main_arg1 m ρ c)⟩) (run_all m ρ)

end Cert.Kernel.Frame

end
-- ==== Proof.KI.Body0.lean ====
import proofs.«155040_j17282948399227_1_alg».proof.Proof.Gen.KernelIdeal.Launch
import proofs.«155040_j17282948399227_1_alg».proof.Proof.Gen.KernelIdeal.Skeleton
import proofs.«155040_j17282948399227_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The kernel body of pallas_call 0 on whole staging memrefs

At one grid point the body (optionally) resets its 1×1 scratch accumulator to zero, loads the two 1024×256 input
blocks, adds the point's Gaussian pair sum to the accumulator and, at the grid's last point, copies the
accumulator into the 1×1 output buffer. Three control cases meet the 8×8 grid: the first point (reset, no copy),
the middle points (neither) and the last point (copy, no reset). Each triple below states what every buffer holds
afterwards as a named payload of the skeleton: the accumulator ends at `k0_pay2 x y a`, where `a` is what it held
before (`k0_pay1`, the zero splat, after a reset). -/

/-- The reset branch's condition as the body computes it: both grid coordinates are zero. -/
abbrev first0 (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
/-- The copy-out branch's condition: the grid's last point. -/
abbrev last0 (i : grid0.Coords) : Prop := k0_cond2 i = 1#1

/-- The offset of a whole-buffer rectangle. -/
theorem off2_zero : (![0, 0] : Fin 2 → ℕ) = fun _ => 0 := by funext a; fin_cases a <;> rfl

/-- One whole-buffer store covers the 1×1 buffer. -/
theorem cover0_one (p : Vec F S1x1 .f32) (L : List (View.Piece (Elt F) S1x1 .f32)) (y : S1x1.Idx) :
    ∃ pc ∈ ((⟨Rect.unit (s := S1x1) ![0, 0] S1x1.size inb_S1x1_S1x1_0_0, p⟩ : View.Piece (Elt F) S1x1 .f32) :: L), y ∈ pc.1.set :=
  by
  obtain ⟨pc, hpc, hy⟩ := View.cover_of_tiled [(⟨Rect.unit (s := S1x1) ![0, 0] S1x1.size inb_S1x1_S1x1_0_0, p⟩ : View.Piece (Elt F) S1x1 .f32)] S1x1.size (by rfl) y
  rw [List.mem_singleton] at hpc; subst hpc
  exact ⟨_, List.mem_cons_self, hy⟩

set_option maxHeartbeats 1000000 in
/-- MIDDLE POINTS: no reset, no copy. The accumulator goes from `a` to `k0_pay2 x y a`; the output buffer is handed back
    as it was found. -/
theorem body0_mid (c : Dev nD) (E : Set ℕ) (i : grid0.Coords)
    (arg2 : Memref sig .tc .vmem S1024x256 .f32) (harg2 : arg2.IsWhole) (arg3 : Memref sig .tc .vmem S1024x256 .f32) (harg3 : arg3.IsWhole)
    (arg4 : Memref sig .tc .vmem S1x1 .f32) (harg4 : arg4.IsWhole) (arg5 : Memref sig .tc .vmem S1x1 .f32) (harg5 : arg5.IsWhole)
    (hc1 : ¬first0 i) (hc2 : ¬last0 i)
    (x y : Vec F S1024x256 .f32) (o a : Vec F S1x1 .f32) (K : PUnit → sProp 𝕄) :
    iprop(owns (c : Thread nD τ) arg2 fullShare x ∗ owns (c : Thread nD τ) arg3 fullShare y ∗ owns (c : Thread nD τ) arg4 fullShare o
        ∗ owns (c : Thread nD τ) arg5 fullShare a
        ∗ (iprop(owns (c : Thread nD τ) arg2 fullShare x ∗ owns (c : Thread nD τ) arg3 fullShare y ∗ owns (c : Thread nD τ) arg4 fullShare o
            ∗ owns (c : Thread nD τ) arg5 fullShare (k0_pay2 x y a)) -∗ K ⟨⟩))
      ⊢ wp frame (wpE (defs₀ (F := F)) Variants.none c none) E (cc0__rbf_sum_kernel i arg2 harg2 arg3 harg3 arg4 harg4 arg5 harg5) K := by
  simp only [cc0__rbf_sum_kernel_eq_skeleton]; unfold cc0__rbf_sum_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H5
  ipureintro
  rw [View.read_writes_eq_canon _ _ _ (cover0_one _ _), View.canon_unit_zero off2_zero]
  simp only [View.readAt_eq_ld, hf2, hf3, hf5, View.ld_unit_zero (S := S1024x256) off2_zero, View.ld_unit_zero (S := S1x1) off2_zero]

set_option maxHeartbeats 1000000 in
/-- THE FIRST POINT: the accumulator is reset to the zero splat `k0_pay1` whatever it held, then the point's sum is added:
    it ends at `k0_pay2 x y k0_pay1`; the output buffer is handed back as it was found. -/
theorem body0_first (c : Dev nD) (E : Set ℕ) (i : grid0.Coords)
    (arg2 : Memref sig .tc .vmem S1024x256 .f32) (harg2 : arg2.IsWhole) (arg3 : Memref sig .tc .vmem S1024x256 .f32) (harg3 : arg3.IsWhole)
    (arg4 : Memref sig .tc .vmem S1x1 .f32) (harg4 : arg4.IsWhole) (arg5 : Memref sig .tc .vmem S1x1 .f32) (harg5 : arg5.IsWhole)
    (hc1 : first0 i) (hc2 : ¬last0 i)
    (x y : Vec F S1024x256 .f32) (o a : Vec F S1x1 .f32) (K : PUnit → sProp 𝕄) :
    iprop(owns (c : Thread nD τ) arg2 fullShare x ∗ owns (c : Thread nD τ) arg3 fullShare y ∗ owns (c : Thread nD τ) arg4 fullShare o
        ∗ owns (c : Thread nD τ) arg5 fullShare a
        ∗ (iprop(owns (c : Thread nD τ) arg2 fullShare x ∗ owns (c : Thread nD τ) arg3 fullShare y ∗ owns (c : Thread nD τ) arg4 fullShare o
            ∗ owns (c : Thread nD τ) arg5 fullShare (k0_pay2 x y (k0_pay1 (F := F)))) -∗ K ⟨⟩))
      ⊢ wp frame (wpE (defs₀ (F := F)) Variants.none c none) E (cc0__rbf_sum_kernel i arg2 harg2 arg3 harg3 arg4 harg4 arg5 harg5) K := by
  simp only [cc0__rbf_sum_kernel_eq_skeleton]; unfold cc0__rbf_sum_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H5
  ipureintro
  sl_unfold_words
  rw [View.read_writes_eq_canon _ _ _ (cover0_one _ _)]
  rw [View.canon_cons_unit_zero (S := S1x1) off2_zero]
  simp only [View.readAt_eq_ld, hf2, hf3, View.ld_unit_zero (S := S1024x256) off2_zero, View.readCov_unit_zero (S := S1x1) _ off2_zero]

set_option maxHeartbeats 1000000 in
/-- THE LAST POINT: the point's sum is added to the accumulator, which is then copied whole into the output buffer: both end
    at `k0_pay2 x y a`, whatever the output buffer held. -/
theorem body0_last (c : Dev nD) (E : Set ℕ) (i : grid0.Coords)
    (arg2 : Memref sig .tc .vmem S1024x256 .f32) (harg2 : arg2.IsWhole) (arg3 : Memref sig .tc .vmem S1024x256 .f32) (harg3 : arg3.IsWhole)
    (arg4 : Memref sig .tc .vmem S1x1 .f32) (harg4 : arg4.IsWhole) (arg5 : Memref sig .tc .vmem S1x1 .f32) (harg5 : arg5.IsWhole)
    (hc1 : ¬first0 i) (hc2 : last0 i)
    (x y : Vec F S1024x256 .f32) (o a : Vec F S1x1 .f32) (K : PUnit → sProp 𝕄) :
    iprop(owns (c : Thread nD τ) arg2 fullShare x ∗ owns (c : Thread nD τ) arg3 fullShare y ∗ owns (c : Thread nD τ) arg4 fullShare o
        ∗ owns (c : Thread nD τ) arg5 fullShare a
        ∗ (iprop(owns (c : Thread nD τ) arg2 fullShare x ∗ owns (c : Thread nD τ) arg3 fullShare y ∗ owns (c : Thread nD τ) arg4 fullShare (k0_pay2 x y a)
            ∗ owns (c : Thread nD τ) arg5 fullShare (k0_pay2 x y a)) -∗ K ⟨⟩))
      ⊢ wp frame (wpE (defs₀ (F := F)) Variants.none c none) E (cc0__rbf_sum_kernel i arg2 harg2 arg3 harg3 arg4 harg4 arg5 harg5) K := by
  simp only [cc0__rbf_sum_kernel_eq_skeleton]; unfold cc0__rbf_sum_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    sl_unfold_words
    rw [View.read_writes_eq_canon _ _ _ (cover0_one _ _)]
    rw [View.canon_unit_zero (S := S1x1) off2_zero]
    simp only [View.readAt_eq_ld, hf2, hf3, hf5, View.ld_unit_zero (S := S1024x256) off2_zero, View.ld_unit_zero (S := S1x1) off2_zero, View.readCov_unit_zero (S := S1x1) _ off2_zero]
  iexists _; isplitr
  swap; · iexact H5
  ipureintro
  sl_unfold_words
  rw [View.read_writes_eq_canon _ _ _ (cover0_one _ _), View.canon_unit_zero off2_zero]
  simp only [View.readAt_eq_ld, hf2, hf3, hf5, View.ld_unit_zero (S := S1024x256) off2_zero, View.ld_unit_zero (S := S1x1) off2_zero]

end Cert.KernelIdeal.Frame

end
-- ==== Proof.KI.Blocks0.lean ====
import proofs.«155040_j17282948399227_1_alg».proof.Proof.KI.Body0

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pallas_call 0: the windows' blocks and the accumulator, point by point

At the parameter `V`: the TensorCore's buffer contents when the region is entered. -/

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the scratch accumulator holds after the body at point `n`: reset and the first point's sum added at point 0,
    the point's sum added to what the point before left afterwards. -/
def acc0 (c : Dev nD) : (n : ℕ) → n < cfg0.N → Vec F S1x1 .f32
  | 0, h => k0_pay2 (iblk0 V c 0 ⟨0, h⟩) (iblk0 V c 1 ⟨0, h⟩) (k0_pay1 (F := F))
  | n + 1, h => k0_pay2 (iblk0 V c 0 ⟨n + 1, h⟩) (iblk0 V c 1 ⟨n + 1, h⟩) (acc0 c n (Nat.lt_of_succ_lt h))

theorem acc0_zero (c : Dev nD) (t : Fin cfg0.N) (h0 : t.val = 0) :
    acc0 V c t.val t.isLt = k0_pay2 (iblk0 V c 0 t) (iblk0 V c 1 t) (k0_pay1 (F := F)) := by
  obtain ⟨n, hn⟩ := t
  cases n with
  | zero => rfl
  | succ n => exact absurd h0 (Nat.succ_ne_zero n)

theorem acc0_pos (c : Dev nD) (t : Fin cfg0.N) (h0 : t.val ≠ 0) :
    acc0 V c t.val t.isLt
      = k0_pay2 (iblk0 V c 0 t) (iblk0 V c 1 t) (acc0 V c (t.val - 1) (Nat.lt_of_le_of_lt (Nat.sub_le _ _) t.isLt)) := by
  obtain ⟨n, hn⟩ := t
  cases n with
  | zero => exact absurd rfl h0
  | succ n => rfl

end

end Cert.KernelIdeal.Frame

end
-- ==== Proof.KI.Region0.lean ====
import proofs.«155040_j17282948399227_1_alg».proof.Proof.KI.Blocks0

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pallas_call 0: the proof data, the invariant and the body obligation

The region's invariant carries the scratch accumulator: before the first point the kernel's scoped buffers are at
anything; before point `n + 1` the accumulator holds what point `n` left (`acc0`), the other scoped buffers are at
anything. The output window is idle at every point but the last, where the body stores the accumulator into it and
the pipeline writes it back. -/

section
variable (V : (c : Dev nD) → (b : Ref sig .tc) → Buf (Elt F) ((c : Thread nD τ).loc b))
-- the share each input window holds its array at: the run deals them (two windows on one array hold half each)
variable (q : Fin cfg0.W → PosShare TreeShare)

/-! ## Where the branches are taken, and where the output window is idle: decided over the grid -/

theorem hfirst0 : ∀ t : Fin cfg0.N, first0 (grid0.coords t) ↔ t.val = 0 :=
  (by decide +kernel : ∀ t : Fin grid0.N, first0 (grid0.coords t) ↔ t.val = 0)
theorem hlast0 : ∀ t : Fin cfg0.N, last0 (grid0.coords t) ↔ t.val = 63 :=
  (by decide +kernel : ∀ t : Fin grid0.N, last0 (grid0.coords t) ↔ t.val = 63)
theorem live0_0 : ∀ t : Fin cfg0.N, cfg0.idle 0 (grid0.coords t) = false := by decide +kernel
theorem live0_1 : ∀ t : Fin cfg0.N, cfg0.idle 1 (grid0.coords t) = false := by decide +kernel
theorem idle0_2 : ∀ t : Fin cfg0.N, ¬last0 (grid0.coords t) → cfg0.idle 2 (grid0.coords t) = true := by decide +kernel
theorem noFlush0_2 : ∀ t : Fin cfg0.N, ¬last0 (grid0.coords t) → (cfg0.win 2).flush t = false := by decide +kernel
theorem live0_2 : ∀ t : Fin cfg0.N, last0 (grid0.coords t) → cfg0.idle 2 (grid0.coords t) = false := by decide +kernel

/-! ## The scratch accumulator among the kernel's scoped buffers -/

/-- The scratch accumulator as a memref. -/
abbrev scM0 : Memref sig .tc .vmem S1x1 .f32 := Memref.whole cc0_scratch0

/-- The core's scoped buffers that are neither a staging buffer of this call nor its accumulator, each at anything. -/
def Rest0 (c : Dev nD) : sProp 𝕄 :=
  bigSep (((Finset.univ.filter fun b : Ref sig .tc => b.isScoped) \ Finset.univ.image (Pipeline.stageRef spec0)).erase cc0_scratch0)
    fun b => iprop(∃ f : Buf (Elt F) ((c.tc : Thread nD τ).loc b), ((c.tc : Thread nD τ).loc b) ↦{fullShare} f)

/-- The class invariant with the accumulator singled out. -/
theorem PhiA0_eq (c : Dev nD) :
    (Pipeline.ΦA spec0 c : sProp 𝕄)
      = iprop(((∃ d, owns (c : Thread nD τ) scM0 fullShare d) ∗ Rest0 c) ∗ (∃ r, prngReg c r)) := by
  unfold Pipeline.ΦA Pipeline.scopedRest Rest0
  rw [bigSep_erase (i := cc0_scratch0) (by decide)]
  simp only [scM0, owns_whole]
  rfl

/-- The region's invariant before position `n`. -/
def Phi0 (c : Dev nD) : (n : ℕ) → n ≤ cfg0.N → sProp 𝕄
  | 0, _ => Pipeline.ΦA spec0 c
  | n + 1, hn => iprop((owns (c : Thread nD τ) scM0 fullShare (acc0 V c n hn) ∗ Rest0 c) ∗ (∃ r, prngReg c r))

theorem Phi0_zero (c : Dev nD) (n : ℕ) (h : n ≤ cfg0.N) (hz : n = 0) : Phi0 V c n h = Pipeline.ΦA spec0 c := by
  subst hz; rfl
theorem Phi0_succ (c : Dev nD) (n : ℕ) (hn : n < cfg0.N) :
    Phi0 V c (n + 1) hn = iprop((owns (c : Thread nD τ) scM0 fullShare (acc0 V c n hn) ∗ Rest0 c) ∗ (∃ r, prngReg c r)) := rfl
theorem Phi0_pos (c : Dev nD) (n : ℕ) (h : n ≤ cfg0.N) (hz : n ≠ 0) :
    Phi0 V c n h = iprop((owns (c : Thread nD τ) scM0 fullShare (acc0 V c (n - 1) (by omega)) ∗ Rest0 c) ∗ (∃ r, prngReg c r)) := by
  cases n with
  | zero => exact absurd rfl hz
  | succ n => rfl

/-! ## The proof data -/

/-- The proof data of pallas_call 0 on core `c`: the arrays as the region finds them; after the body each input's buffer at
    its block and the output's at the accumulator's contents (read only at the last point, the one point that stores it);
    the invariant `Phi0`; nothing owed; the input arrays at the shares `q` the run deals. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := Phi0 V c t.val (Nat.le_of_lt_succ t.isLt)
  q := q
  owed _ := 0

theorem A_eq0 (c : Dev nD) (w : Fin cfg0.W) : (dat0 V q c).A w = V c (Pipeline.arrRef spec0 w) := by
  dsimp only [dat0]
theorem Phi0_castSucc (c : Dev nD) (t : Fin cfg0.N) :
    (dat0 V q c).Φ t.castSucc = Phi0 V c t.val (Nat.le_of_lt t.isLt) := by
  dsimp only [dat0]; simp only [Fin.coe_castSucc]
theorem after0_0 (c : Dev nD) (t : Fin cfg0.N) : (dat0 V q c).after 0 t = iblk0 V c 0 t := by dsimp only [dat0]
theorem after0_1 (c : Dev nD) (t : Fin cfg0.N) : (dat0 V q c).after 1 t = iblk0 V c 1 t := by dsimp only [dat0]
theorem after0_2 (c : Dev nD) (t : Fin cfg0.N) : (dat0 V q c).after 2 t = acc0 V c t.val t.isLt := by dsimp only [dat0]

/-- Each input's current staging buffer holds its block at every point, fetched there or not: unfetched, the block index
    has not moved since the fetch. -/
theorem before0_0 (c : Dev nD) (t : Fin cfg0.N) (d) : (dat0 V q c).before 0 t d = iblk0 V c 0 t :=
  ((dat0 V q c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V q c).before 1 t d = iblk0 V c 1 t :=
  ((dat0 V q c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-! ## The body obligation -/

/-- What the body is called with at point `t`, the windows one by one, -/
def bodyPre0 (c : Dev nD) (t : Fin cfg0.N) : sProp 𝕄 :=
  iprop((dat0 V q c).Φ t.castSucc ∗ (dat0 V q c).owesAt () t.castSucc
    ∗ (∃ d, owns (c : Thread nD τ) (st0_0 t) fullShare ((dat0 V q c).before 0 t d))
    ∗ (∃ d, owns (c : Thread nD τ) (st0_1 t) fullShare ((dat0 V q c).before 1 t d))
    ∗ (∃ d, owns (c : Thread nD τ) (st0_2 t) fullShare ((dat0 V q c).before 2 t d)))

/-- and what it returns. -/
def bodyPost0 (c : Dev nD) (t : Fin cfg0.N) : sProp 𝕄 :=
  iprop((dat0 V q c).Φ t.succ ∗ (dat0 V q c).owesAt () t.succ
    ∗ (dat0 V q c).leavesExact 0 t
    ∗ (dat0 V q c).leavesExact 1 t
    ∗ (dat0 V q c).leavesExact 2 t)

set_option maxHeartbeats 4000000 in
/-- The body at any point: the inputs' buffers hold their blocks; the point is the first, a middle one or the last, and that
    case's triple applies; the invariant hands the body the accumulator at what the point before left (at anything at the
    first point) and takes it back at this point's contents; the core owes nothing throughout. -/
theorem sound_body0 (c : Dev nD) (t : Fin cfg0.N) :
    bodyPre0 V q c t ⊢ wp frame (wpE (defs₀ (F := F)) Variants.none c none) Set.univ (bodyAt0 t) (fun _ => bodyPost0 V q c t) := by
  unfold bodyPre0 bodyPost0 bodyAt0
  simp only [before0_0, before0_1]
  rw [show (dat0 V q c).owesAt () t.succ = (dat0 V q c).owesAt () t.castSucc from rfl]
  rw [show (dat0 V q c).Φ t.succ = Phi0 V c (t.val + 1) t.isLt from rfl, Phi0_succ]
  rw [show (dat0 V q c).leavesExact 0 t = owns (c : Thread nD τ) (st0_0 t) fullShare ((dat0 V q c).after 0 t) from by
    unfold Dat.leavesExact; rw [live0_0 t], after0_0]
  rw [show (dat0 V q c).leavesExact 1 t = owns (c : Thread nD τ) (st0_1 t) fullShare ((dat0 V q c).after 1 t) from by
    unfold Dat.leavesExact; rw [live0_1 t], after0_1]
  have hN : t.val < 64 := lt_of_lt_of_eq t.isLt (show cfg0.N = 64 from N_0)
  by_cases hl : t.val = 63
  · -- the last point
    have hc2 : last0 (grid0.coords t) := (hlast0 t).mpr hl
    have hc1 : ¬first0 (grid0.coords t) := fun h => by have := (hfirst0 t).mp h; omega
    have hz : t.val ≠ 0 := by omega
    rw [show (dat0 V q c).leavesExact 2 t = owns (c : Thread nD τ) (st0_2 t) fullShare ((dat0 V q c).after 2 t) from by
      unfold Dat.leavesExact; rw [live0_2 t hc2], after0_2]
    rw [acc0_pos V c t hz, Phi0_castSucc V q c t, Phi0_pos V c _ _ hz]
    iintro ⟨⟨⟨HS, HR⟩, Hg⟩, Ho, ⟨%d0, H0⟩, ⟨%d1, H1⟩, ⟨%d2, H2⟩⟩
    iapply (body0_last c Set.univ (grid0.coords t) _ _ _ _ _ _ _ _ hc1 hc2 (iblk0 V c 0 t) (iblk0 V c 1 t) _ _ _)
    isplitl [H0]; · iexact H0
    isplitl [H1]; · iexact H1
    isplitl [H2]; · iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexact H2
  · have hc2 : ¬last0 (grid0.coords t) := fun h => hl ((hlast0 t).mp h)
    rw [Dat.leavesExact_idle (dat0 V q c) 2 t (idle0_2 t hc2) (noFlush0_2 t hc2)]
    by_cases hz : t.val = 0
    · -- the first point
      have hc1 : first0 (grid0.coords t) := (hfirst0 t).mpr hz
      rw [acc0_zero V c t hz, Phi0_castSucc V q c t, Phi0_zero V c _ _ hz, PhiA0_eq]
      iintro ⟨⟨⟨⟨%a, HS⟩, HR⟩, Hg⟩, Ho, ⟨%d0, H0⟩, ⟨%d1, H1⟩, ⟨%d2, H2⟩⟩
      iapply (body0_first c Set.univ (grid0.coords t) _ _ _ _ _ _ _ _ hc1 hc2 (iblk0 V c 0 t) (iblk0 V c 1 t) _ a _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2
    · -- a middle point
      have hc1 : ¬first0 (grid0.coords t) := fun h => hz ((hfirst0 t).mp h)
      rw [acc0_pos V c t hz, Phi0_castSucc V q c t, Phi0_pos V c _ _ hz]
      iintro ⟨⟨⟨HS, HR⟩, Hg⟩, Ho, ⟨%d0, H0⟩, ⟨%d1, H1⟩, ⟨%d2, H2⟩⟩
      iapply (body0_mid c Set.univ (grid0.coords t) _ _ _ _ _ _ _ _ hc1 hc2 (iblk0 V c 0 t) (iblk0 V c 1 t) _ _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V q c) (defs₀ (F := F)) Variants.none () Set.univ := fun t => by
  rw [bigSep_W0, bigSep_W0]
  exact sound_body0 V q c t

/-- What the launch hands the region is the invariant before the first point. -/
theorem hin0 (c : Dev nD) : Pipeline.ΦA spec0 c ⊢ (dat0 V q c).Φ 0 := by
  rw [show (dat0 V q c).Φ 0 = Phi0 V c 0 (Nat.zero_le _) from rfl, Phi0_zero V c 0 _ rfl]
  try exact Idealize.SL.BI.Entails.refl _

/-- After the last point the invariant gives it back: the accumulator's named contents are forgotten. -/
theorem hout0 (c : Dev nD) : (dat0 V q c).Φ (Fin.last cfg0.N) ⊢ Pipeline.ΦA spec0 c := by
  rw [show (dat0 V q c).Φ (Fin.last cfg0.N) = Phi0 V c (Fin.last cfg0.N).val (Nat.le_of_lt_succ (Fin.last cfg0.N).isLt) from rfl,
    Phi0_pos V c _ _ (by rw [Fin.val_last]; have : cfg0.N = 64 := N_0; omega), PhiA0_eq]
  iintro ⟨⟨HS, HR⟩, Hg⟩
  isplitl [HS HR]
  · isplitl [HS]; · iexists _; iexact HS
    iexact HR
  iexact Hg

end

end Cert.KernelIdeal.Frame

end
-- ==== Proof.KI.Body1.lean ====
import proofs.«155040_j17282948399227_1_alg».proof.Proof.Gen.KernelIdeal.Launch
import proofs.«155040_j17282948399227_1_alg».proof.Proof.Gen.KernelIdeal.Skeleton
import proofs.«155040_j17282948399227_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The kernel body of pallas_call 1 on whole staging memrefs

At one grid point the body (optionally) resets its 1×1 scratch accumulator to zero, loads the two 1024×256 input
blocks, adds the point's Gaussian pair sum to the accumulator and, at the grid's last point, copies the
accumulator into the 1×1 output buffer. Three control cases meet the 8×8 grid: the first point (reset, no copy),
the middle points (neither) and the last point (copy, no reset). Each triple below states what every buffer holds
afterwards as a named payload of the skeleton: the accumulator ends at `k1_pay2 x y a`, where `a` is what it held
before (`k1_pay1`, the zero splat, after a reset). -/

/-- The reset branch's condition as the body computes it: both grid coordinates are zero. -/
abbrev first1 (i : grid1.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
/-- The copy-out branch's condition: the grid's last point. -/
abbrev last1 (i : grid1.Coords) : Prop := k1_cond2 i = 1#1

/-- The offset of a whole-buffer rectangle. -/
theorem off2_zero : (![0, 0] : Fin 2 → ℕ) = fun _ => 0 := by funext a; fin_cases a <;> rfl

/-- One whole-buffer store covers the 1×1 buffer. -/
theorem cover1_one (p : Vec F S1x1 .f32) (L : List (View.Piece (Elt F) S1x1 .f32)) (y : S1x1.Idx) :
    ∃ pc ∈ ((⟨Rect.unit (s := S1x1) ![0, 0] S1x1.size inb_S1x1_S1x1_0_0, p⟩ : View.Piece (Elt F) S1x1 .f32) :: L), y ∈ pc.1.set :=
  by
  obtain ⟨pc, hpc, hy⟩ := View.cover_of_tiled [(⟨Rect.unit (s := S1x1) ![0, 0] S1x1.size inb_S1x1_S1x1_0_0, p⟩ : View.Piece (Elt F) S1x1 .f32)] S1x1.size (by rfl) y
  rw [List.mem_singleton] at hpc; subst hpc
  exact ⟨_, List.mem_cons_self, hy⟩

set_option maxHeartbeats 1000000 in
/-- MIDDLE POINTS: no reset, no copy. The accumulator goes from `a` to `k1_pay2 x y a`; the output buffer is handed back
    as it was found. -/
theorem body1_mid (c : Dev nD) (E : Set ℕ) (i : grid1.Coords)
    (arg2 : Memref sig .tc .vmem S1024x256 .f32) (harg2 : arg2.IsWhole) (arg3 : Memref sig .tc .vmem S1024x256 .f32) (harg3 : arg3.IsWhole)
    (arg4 : Memref sig .tc .vmem S1x1 .f32) (harg4 : arg4.IsWhole) (arg5 : Memref sig .tc .vmem S1x1 .f32) (harg5 : arg5.IsWhole)
    (hc1 : ¬first1 i) (hc2 : ¬last1 i)
    (x y : Vec F S1024x256 .f32) (o a : Vec F S1x1 .f32) (K : PUnit → sProp 𝕄) :
    iprop(owns (c : Thread nD τ) arg2 fullShare x ∗ owns (c : Thread nD τ) arg3 fullShare y ∗ owns (c : Thread nD τ) arg4 fullShare o
        ∗ owns (c : Thread nD τ) arg5 fullShare a
        ∗ (iprop(owns (c : Thread nD τ) arg2 fullShare x ∗ owns (c : Thread nD τ) arg3 fullShare y ∗ owns (c : Thread nD τ) arg4 fullShare o
            ∗ owns (c : Thread nD τ) arg5 fullShare (k1_pay2 x y a)) -∗ K ⟨⟩))
      ⊢ wp frame (wpE (defs₀ (F := F)) Variants.none c none) E (cc1__rbf_sum_kernel i arg2 harg2 arg3 harg3 arg4 harg4 arg5 harg5) K := by
  simp only [cc1__rbf_sum_kernel_eq_skeleton]; unfold cc1__rbf_sum_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H5
  ipureintro
  rw [View.read_writes_eq_canon _ _ _ (cover1_one _ _), View.canon_unit_zero off2_zero]
  simp only [View.readAt_eq_ld, hf2, hf3, hf5, View.ld_unit_zero (S := S1024x256) off2_zero, View.ld_unit_zero (S := S1x1) off2_zero]

set_option maxHeartbeats 1000000 in
/-- THE FIRST POINT: the accumulator is reset to the zero splat `k1_pay1` whatever it held, then the point's sum is added:
    it ends at `k1_pay2 x y k1_pay1`; the output buffer is handed back as it was found. -/
theorem body1_first (c : Dev nD) (E : Set ℕ) (i : grid1.Coords)
    (arg2 : Memref sig .tc .vmem S1024x256 .f32) (harg2 : arg2.IsWhole) (arg3 : Memref sig .tc .vmem S1024x256 .f32) (harg3 : arg3.IsWhole)
    (arg4 : Memref sig .tc .vmem S1x1 .f32) (harg4 : arg4.IsWhole) (arg5 : Memref sig .tc .vmem S1x1 .f32) (harg5 : arg5.IsWhole)
    (hc1 : first1 i) (hc2 : ¬last1 i)
    (x y : Vec F S1024x256 .f32) (o a : Vec F S1x1 .f32) (K : PUnit → sProp 𝕄) :
    iprop(owns (c : Thread nD τ) arg2 fullShare x ∗ owns (c : Thread nD τ) arg3 fullShare y ∗ owns (c : Thread nD τ) arg4 fullShare o
        ∗ owns (c : Thread nD τ) arg5 fullShare a
        ∗ (iprop(owns (c : Thread nD τ) arg2 fullShare x ∗ owns (c : Thread nD τ) arg3 fullShare y ∗ owns (c : Thread nD τ) arg4 fullShare o
            ∗ owns (c : Thread nD τ) arg5 fullShare (k1_pay2 x y (k1_pay1 (F := F)))) -∗ K ⟨⟩))
      ⊢ wp frame (wpE (defs₀ (F := F)) Variants.none c none) E (cc1__rbf_sum_kernel i arg2 harg2 arg3 harg3 arg4 harg4 arg5 harg5) K := by
  simp only [cc1__rbf_sum_kernel_eq_skeleton]; unfold cc1__rbf_sum_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H5
  ipureintro
  sl_unfold_words
  rw [View.read_writes_eq_canon _ _ _ (cover1_one _ _)]
  rw [View.canon_cons_unit_zero (S := S1x1) off2_zero]
  simp only [View.readAt_eq_ld, hf2, hf3, View.ld_unit_zero (S := S1024x256) off2_zero, View.readCov_unit_zero (S := S1x1) _ off2_zero]

set_option maxHeartbeats 1000000 in
/-- THE LAST POINT: the point's sum is added to the accumulator, which is then copied whole into the output buffer: both end
    at `k1_pay2 x y a`, whatever the output buffer held. -/
theorem body1_last (c : Dev nD) (E : Set ℕ) (i : grid1.Coords)
    (arg2 : Memref sig .tc .vmem S1024x256 .f32) (harg2 : arg2.IsWhole) (arg3 : Memref sig .tc .vmem S1024x256 .f32) (harg3 : arg3.IsWhole)
    (arg4 : Memref sig .tc .vmem S1x1 .f32) (harg4 : arg4.IsWhole) (arg5 : Memref sig .tc .vmem S1x1 .f32) (harg5 : arg5.IsWhole)
    (hc1 : ¬first1 i) (hc2 : last1 i)
    (x y : Vec F S1024x256 .f32) (o a : Vec F S1x1 .f32) (K : PUnit → sProp 𝕄) :
    iprop(owns (c : Thread nD τ) arg2 fullShare x ∗ owns (c : Thread nD τ) arg3 fullShare y ∗ owns (c : Thread nD τ) arg4 fullShare o
        ∗ owns (c : Thread nD τ) arg5 fullShare a
        ∗ (iprop(owns (c : Thread nD τ) arg2 fullShare x ∗ owns (c : Thread nD τ) arg3 fullShare y ∗ owns (c : Thread nD τ) arg4 fullShare (k1_pay2 x y a)
            ∗ owns (c : Thread nD τ) arg5 fullShare (k1_pay2 x y a)) -∗ K ⟨⟩))
      ⊢ wp frame (wpE (defs₀ (F := F)) Variants.none c none) E (cc1__rbf_sum_kernel i arg2 harg2 arg3 harg3 arg4 harg4 arg5 harg5) K := by
  simp only [cc1__rbf_sum_kernel_eq_skeleton]; unfold cc1__rbf_sum_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    sl_unfold_words
    rw [View.read_writes_eq_canon _ _ _ (cover1_one _ _)]
    rw [View.canon_unit_zero (S := S1x1) off2_zero]
    simp only [View.readAt_eq_ld, hf2, hf3, hf5, View.ld_unit_zero (S := S1024x256) off2_zero, View.ld_unit_zero (S := S1x1) off2_zero, View.readCov_unit_zero (S := S1x1) _ off2_zero]
  iexists _; isplitr
  swap; · iexact H5
  ipureintro
  sl_unfold_words
  rw [View.read_writes_eq_canon _ _ _ (cover1_one _ _), View.canon_unit_zero off2_zero]
  simp only [View.readAt_eq_ld, hf2, hf3, hf5, View.ld_unit_zero (S := S1024x256) off2_zero, View.ld_unit_zero (S := S1x1) off2_zero]

end Cert.KernelIdeal.Frame

end
-- ==== Proof.KI.Blocks1.lean ====
import proofs.«155040_j17282948399227_1_alg».proof.Proof.KI.Body1

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pallas_call 1: the windows' blocks and the accumulator, point by point

At the parameter `V`: the TensorCore's buffer contents when the region is entered. -/

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the scratch accumulator holds after the body at point `n`: reset and the first point's sum added at point 0,
    the point's sum added to what the point before left afterwards. -/
def acc1 (c : Dev nD) : (n : ℕ) → n < cfg1.N → Vec F S1x1 .f32
  | 0, h => k1_pay2 (iblk1 V c 0 ⟨0, h⟩) (iblk1 V c 1 ⟨0, h⟩) (k1_pay1 (F := F))
  | n + 1, h => k1_pay2 (iblk1 V c 0 ⟨n + 1, h⟩) (iblk1 V c 1 ⟨n + 1, h⟩) (acc1 c n (Nat.lt_of_succ_lt h))

theorem acc1_zero (c : Dev nD) (t : Fin cfg1.N) (h0 : t.val = 0) :
    acc1 V c t.val t.isLt = k1_pay2 (iblk1 V c 0 t) (iblk1 V c 1 t) (k1_pay1 (F := F)) := by
  obtain ⟨n, hn⟩ := t
  cases n with
  | zero => rfl
  | succ n => exact absurd h0 (Nat.succ_ne_zero n)

theorem acc1_pos (c : Dev nD) (t : Fin cfg1.N) (h0 : t.val ≠ 0) :
    acc1 V c t.val t.isLt
      = k1_pay2 (iblk1 V c 0 t) (iblk1 V c 1 t) (acc1 V c (t.val - 1) (Nat.lt_of_le_of_lt (Nat.sub_le _ _) t.isLt)) := by
  obtain ⟨n, hn⟩ := t
  cases n with
  | zero => exact absurd rfl h0
  | succ n => rfl

end

end Cert.KernelIdeal.Frame

end
-- ==== Proof.KI.Region1.lean ====
import proofs.«155040_j17282948399227_1_alg».proof.Proof.KI.Blocks1

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pallas_call 1: the proof data, the invariant and the body obligation

The region's invariant carries the scratch accumulator: before the first point the kernel's scoped buffers are at
anything; before point `n + 1` the accumulator holds what point `n` left (`acc1`), the other scoped buffers are at
anything. The output window is idle at every point but the last, where the body stores the accumulator into it and
the pipeline writes it back. -/

section
variable (V : (c : Dev nD) → (b : Ref sig .tc) → Buf (Elt F) ((c : Thread nD τ).loc b))
-- the share each input window holds its array at: the run deals them (two windows on one array hold half each)
variable (q : Fin cfg1.W → PosShare TreeShare)

/-! ## Where the branches are taken, and where the output window is idle: decided over the grid -/

theorem hfirst1 : ∀ t : Fin cfg1.N, first1 (grid1.coords t) ↔ t.val = 0 :=
  (by decide +kernel : ∀ t : Fin grid1.N, first1 (grid1.coords t) ↔ t.val = 0)
theorem hlast1 : ∀ t : Fin cfg1.N, last1 (grid1.coords t) ↔ t.val = 63 :=
  (by decide +kernel : ∀ t : Fin grid1.N, last1 (grid1.coords t) ↔ t.val = 63)
theorem live1_0 : ∀ t : Fin cfg1.N, cfg1.idle 0 (grid1.coords t) = false := by decide +kernel
theorem live1_1 : ∀ t : Fin cfg1.N, cfg1.idle 1 (grid1.coords t) = false := by decide +kernel
theorem idle1_2 : ∀ t : Fin cfg1.N, ¬last1 (grid1.coords t) → cfg1.idle 2 (grid1.coords t) = true := by decide +kernel
theorem noFlush1_2 : ∀ t : Fin cfg1.N, ¬last1 (grid1.coords t) → (cfg1.win 2).flush t = false := by decide +kernel
theorem live1_2 : ∀ t : Fin cfg1.N, last1 (grid1.coords t) → cfg1.idle 2 (grid1.coords t) = false := by decide +kernel

/-! ## The scratch accumulator among the kernel's scoped buffers -/

/-- The scratch accumulator as a memref. -/
abbrev scM1 : Memref sig .tc .vmem S1x1 .f32 := Memref.whole cc1_scratch0

/-- The core's scoped buffers that are neither a staging buffer of this call nor its accumulator, each at anything. -/
def Rest1 (c : Dev nD) : sProp 𝕄 :=
  bigSep (((Finset.univ.filter fun b : Ref sig .tc => b.isScoped) \ Finset.univ.image (Pipeline.stageRef spec1)).erase cc1_scratch0)
    fun b => iprop(∃ f : Buf (Elt F) ((c.tc : Thread nD τ).loc b), ((c.tc : Thread nD τ).loc b) ↦{fullShare} f)

/-- The class invariant with the accumulator singled out. -/
theorem PhiA1_eq (c : Dev nD) :
    (Pipeline.ΦA spec1 c : sProp 𝕄)
      = iprop(((∃ d, owns (c : Thread nD τ) scM1 fullShare d) ∗ Rest1 c) ∗ (∃ r, prngReg c r)) := by
  unfold Pipeline.ΦA Pipeline.scopedRest Rest1
  rw [bigSep_erase (i := cc1_scratch0) (by decide)]
  simp only [scM1, owns_whole]
  rfl

/-- The region's invariant before position `n`. -/
def Phi1 (c : Dev nD) : (n : ℕ) → n ≤ cfg1.N → sProp 𝕄
  | 0, _ => Pipeline.ΦA spec1 c
  | n + 1, hn => iprop((owns (c : Thread nD τ) scM1 fullShare (acc1 V c n hn) ∗ Rest1 c) ∗ (∃ r, prngReg c r))

theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop((owns (c : Thread nD τ) scM1 fullShare (acc1 V c n hn) ∗ Rest1 c) ∗ (∃ r, prngReg c r)) := rfl
theorem Phi1_pos (c : Dev nD) (n : ℕ) (h : n ≤ cfg1.N) (hz : n ≠ 0) :
    Phi1 V c n h = iprop((owns (c : Thread nD τ) scM1 fullShare (acc1 V c (n - 1) (by omega)) ∗ Rest1 c) ∗ (∃ r, prngReg c r)) := by
  cases n with
  | zero => exact absurd rfl hz
  | succ n => rfl

/-! ## The proof data -/

/-- The proof data of pallas_call 1 on core `c`: the arrays as the region finds them; after the body each input's buffer at
    its block and the output's at the accumulator's contents (read only at the last point, the one point that stores it);
    the invariant `Phi1`; nothing owed; the input arrays at the shares `q` the run deals. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := Phi1 V c t.val (Nat.le_of_lt_succ t.isLt)
  q := q
  owed _ := 0

theorem A_eq1 (c : Dev nD) (w : Fin cfg1.W) : (dat1 V q c).A w = V c (Pipeline.arrRef spec1 w) := by
  dsimp only [dat1]
theorem Phi1_castSucc (c : Dev nD) (t : Fin cfg1.N) :
    (dat1 V q c).Φ t.castSucc = Phi1 V c t.val (Nat.le_of_lt t.isLt) := by
  dsimp only [dat1]; simp only [Fin.coe_castSucc]
theorem after1_0 (c : Dev nD) (t : Fin cfg1.N) : (dat1 V q c).after 0 t = iblk1 V c 0 t := by dsimp only [dat1]
theorem after1_1 (c : Dev nD) (t : Fin cfg1.N) : (dat1 V q c).after 1 t = iblk1 V c 1 t := by dsimp only [dat1]
theorem after1_2 (c : Dev nD) (t : Fin cfg1.N) : (dat1 V q c).after 2 t = acc1 V c t.val t.isLt := by dsimp only [dat1]

/-- Each input's current staging buffer holds its block at every point, fetched there or not: unfetched, the block index
    has not moved since the fetch. -/
theorem before1_0 (c : Dev nD) (t : Fin cfg1.N) (d) : (dat1 V q c).before 0 t d = iblk1 V c 0 t :=
  ((dat1 V q c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V q c).before 1 t d = iblk1 V c 1 t :=
  ((dat1 V q c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-! ## The body obligation -/

/-- What the body is called with at point `t`, the windows one by one, -/
def bodyPre1 (c : Dev nD) (t : Fin cfg1.N) : sProp 𝕄 :=
  iprop((dat1 V q c).Φ t.castSucc ∗ (dat1 V q c).owesAt () t.castSucc
    ∗ (∃ d, owns (c : Thread nD τ) (st1_0 t) fullShare ((dat1 V q c).before 0 t d))
    ∗ (∃ d, owns (c : Thread nD τ) (st1_1 t) fullShare ((dat1 V q c).before 1 t d))
    ∗ (∃ d, owns (c : Thread nD τ) (st1_2 t) fullShare ((dat1 V q c).before 2 t d)))

/-- and what it returns. -/
def bodyPost1 (c : Dev nD) (t : Fin cfg1.N) : sProp 𝕄 :=
  iprop((dat1 V q c).Φ t.succ ∗ (dat1 V q c).owesAt () t.succ
    ∗ (dat1 V q c).leavesExact 0 t
    ∗ (dat1 V q c).leavesExact 1 t
    ∗ (dat1 V q c).leavesExact 2 t)

set_option maxHeartbeats 4000000 in
/-- The body at any point: the inputs' buffers hold their blocks; the point is the first, a middle one or the last, and that
    case's triple applies; the invariant hands the body the accumulator at what the point before left (at anything at the
    first point) and takes it back at this point's contents; the core owes nothing throughout. -/
theorem sound_body1 (c : Dev nD) (t : Fin cfg1.N) :
    bodyPre1 V q c t ⊢ wp frame (wpE (defs₀ (F := F)) Variants.none c none) Set.univ (bodyAt1 t) (fun _ => bodyPost1 V q c t) := by
  unfold bodyPre1 bodyPost1 bodyAt1
  simp only [before1_0, before1_1]
  rw [show (dat1 V q c).owesAt () t.succ = (dat1 V q c).owesAt () t.castSucc from rfl]
  rw [show (dat1 V q c).Φ t.succ = Phi1 V c (t.val + 1) t.isLt from rfl, Phi1_succ]
  rw [show (dat1 V q c).leavesExact 0 t = owns (c : Thread nD τ) (st1_0 t) fullShare ((dat1 V q c).after 0 t) from by
    unfold Dat.leavesExact; rw [live1_0 t], after1_0]
  rw [show (dat1 V q c).leavesExact 1 t = owns (c : Thread nD τ) (st1_1 t) fullShare ((dat1 V q c).after 1 t) from by
    unfold Dat.leavesExact; rw [live1_1 t], after1_1]
  have hN : t.val < 64 := lt_of_lt_of_eq t.isLt (show cfg1.N = 64 from N_1)
  by_cases hl : t.val = 63
  · -- the last point
    have hc2 : last1 (grid1.coords t) := (hlast1 t).mpr hl
    have hc1 : ¬first1 (grid1.coords t) := fun h => by have := (hfirst1 t).mp h; omega
    have hz : t.val ≠ 0 := by omega
    rw [show (dat1 V q c).leavesExact 2 t = owns (c : Thread nD τ) (st1_2 t) fullShare ((dat1 V q c).after 2 t) from by
      unfold Dat.leavesExact; rw [live1_2 t hc2], after1_2]
    rw [acc1_pos V c t hz, Phi1_castSucc V q c t, Phi1_pos V c _ _ hz]
    iintro ⟨⟨⟨HS, HR⟩, Hg⟩, Ho, ⟨%d0, H0⟩, ⟨%d1, H1⟩, ⟨%d2, H2⟩⟩
    iapply (body1_last c Set.univ (grid1.coords t) _ _ _ _ _ _ _ _ hc1 hc2 (iblk1 V c 0 t) (iblk1 V c 1 t) _ _ _)
    isplitl [H0]; · iexact H0
    isplitl [H1]; · iexact H1
    isplitl [H2]; · iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexact H2
  · have hc2 : ¬last1 (grid1.coords t) := fun h => hl ((hlast1 t).mp h)
    rw [Dat.leavesExact_idle (dat1 V q c) 2 t (idle1_2 t hc2) (noFlush1_2 t hc2)]
    by_cases hz : t.val = 0
    · -- the first point
      have hc1 : first1 (grid1.coords t) := (hfirst1 t).mpr hz
      rw [acc1_zero V c t hz, Phi1_castSucc V q c t, Phi1_zero V c _ _ hz, PhiA1_eq]
      iintro ⟨⟨⟨⟨%a, HS⟩, HR⟩, Hg⟩, Ho, ⟨%d0, H0⟩, ⟨%d1, H1⟩, ⟨%d2, H2⟩⟩
      iapply (body1_first c Set.univ (grid1.coords t) _ _ _ _ _ _ _ _ hc1 hc2 (iblk1 V c 0 t) (iblk1 V c 1 t) _ a _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2
    · -- a middle point
      have hc1 : ¬first1 (grid1.coords t) := fun h => hz ((hfirst1 t).mp h)
      rw [acc1_pos V c t hz, Phi1_castSucc V q c t, Phi1_pos V c _ _ hz]
      iintro ⟨⟨⟨HS, HR⟩, Hg⟩, Ho, ⟨%d0, H0⟩, ⟨%d1, H1⟩, ⟨%d2, H2⟩⟩
      iapply (body1_mid c Set.univ (grid1.coords t) _ _ _ _ _ _ _ _ hc1 hc2 (iblk1 V c 0 t) (iblk1 V c 1 t) _ _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V q c) (defs₀ (F := F)) Variants.none () Set.univ := fun t => by
  rw [bigSep_W1, bigSep_W1]
  exact sound_body1 V q c t

/-- What the launch hands the region is the invariant before the first point. -/
theorem hin1 (c : Dev nD) : Pipeline.ΦA spec1 c ⊢ (dat1 V q c).Φ 0 := by
  rw [show (dat1 V q c).Φ 0 = Phi1 V c 0 (Nat.zero_le _) from rfl, Phi1_zero V c 0 _ rfl]
  try exact Idealize.SL.BI.Entails.refl _

/-- After the last point the invariant gives it back: the accumulator's named contents are forgotten. -/
theorem hout1 (c : Dev nD) : (dat1 V q c).Φ (Fin.last cfg1.N) ⊢ Pipeline.ΦA spec1 c := by
  rw [show (dat1 V q c).Φ (Fin.last cfg1.N) = Phi1 V c (Fin.last cfg1.N).val (Nat.le_of_lt_succ (Fin.last cfg1.N).isLt) from rfl,
    Phi1_pos V c _ _ (by rw [Fin.val_last]; have : cfg1.N = 64 := N_1; omega), PhiA1_eq]
  iintro ⟨⟨HS, HR⟩, Hg⟩
  isplitl [HS HR]
  · isplitl [HS]; · iexists _; iexact HS
    iexact HR
  iexact Hg

end

end Cert.KernelIdeal.Frame

end
-- ==== Proof.KI.Body2.lean ====
import proofs.«155040_j17282948399227_1_alg».proof.Proof.Gen.KernelIdeal.Launch
import proofs.«155040_j17282948399227_1_alg».proof.Proof.Gen.KernelIdeal.Skeleton
import proofs.«155040_j17282948399227_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The kernel body of pallas_call 2 on whole staging memrefs

At one grid point the body (optionally) resets its 1×1 scratch accumulator to zero, loads the two 1024×256 input
blocks, adds the point's Gaussian pair sum to the accumulator and, at the grid's last point, copies the
accumulator into the 1×1 output buffer. Three control cases meet the 8×8 grid: the first point (reset, no copy),
the middle points (neither) and the last point (copy, no reset). Each triple below states what every buffer holds
afterwards as a named payload of the skeleton: the accumulator ends at `k2_pay2 x y a`, where `a` is what it held
before (`k2_pay1`, the zero splat, after a reset). -/

/-- The reset branch's condition as the body computes it: both grid coordinates are zero. -/
abbrev first2 (i : grid2.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
/-- The copy-out branch's condition: the grid's last point. -/
abbrev last2 (i : grid2.Coords) : Prop := k2_cond2 i = 1#1

/-- The offset of a whole-buffer rectangle. -/
theorem off2_zero : (![0, 0] : Fin 2 → ℕ) = fun _ => 0 := by funext a; fin_cases a <;> rfl

/-- One whole-buffer store covers the 1×1 buffer. -/
theorem cover2_one (p : Vec F S1x1 .f32) (L : List (View.Piece (Elt F) S1x1 .f32)) (y : S1x1.Idx) :
    ∃ pc ∈ ((⟨Rect.unit (s := S1x1) ![0, 0] S1x1.size inb_S1x1_S1x1_0_0, p⟩ : View.Piece (Elt F) S1x1 .f32) :: L), y ∈ pc.1.set :=
  by
  obtain ⟨pc, hpc, hy⟩ := View.cover_of_tiled [(⟨Rect.unit (s := S1x1) ![0, 0] S1x1.size inb_S1x1_S1x1_0_0, p⟩ : View.Piece (Elt F) S1x1 .f32)] S1x1.size (by rfl) y
  rw [List.mem_singleton] at hpc; subst hpc
  exact ⟨_, List.mem_cons_self, hy⟩

set_option maxHeartbeats 1000000 in
/-- MIDDLE POINTS: no reset, no copy. The accumulator goes from `a` to `k2_pay2 x y a`; the output buffer is handed back
    as it was found. -/
theorem body2_mid (c : Dev nD) (E : Set ℕ) (i : grid2.Coords)
    (arg2 : Memref sig .tc .vmem S1024x256 .f32) (harg2 : arg2.IsWhole) (arg3 : Memref sig .tc .vmem S1024x256 .f32) (harg3 : arg3.IsWhole)
    (arg4 : Memref sig .tc .vmem S1x1 .f32) (harg4 : arg4.IsWhole) (arg5 : Memref sig .tc .vmem S1x1 .f32) (harg5 : arg5.IsWhole)
    (hc1 : ¬first2 i) (hc2 : ¬last2 i)
    (x y : Vec F S1024x256 .f32) (o a : Vec F S1x1 .f32) (K : PUnit → sProp 𝕄) :
    iprop(owns (c : Thread nD τ) arg2 fullShare x ∗ owns (c : Thread nD τ) arg3 fullShare y ∗ owns (c : Thread nD τ) arg4 fullShare o
        ∗ owns (c : Thread nD τ) arg5 fullShare a
        ∗ (iprop(owns (c : Thread nD τ) arg2 fullShare x ∗ owns (c : Thread nD τ) arg3 fullShare y ∗ owns (c : Thread nD τ) arg4 fullShare o
            ∗ owns (c : Thread nD τ) arg5 fullShare (k2_pay2 x y a)) -∗ K ⟨⟩))
      ⊢ wp frame (wpE (defs₀ (F := F)) Variants.none c none) E (cc2__rbf_sum_kernel i arg2 harg2 arg3 harg3 arg4 harg4 arg5 harg5) K := by
  simp only [cc2__rbf_sum_kernel_eq_skeleton]; unfold cc2__rbf_sum_kernel_skel
  simp only [k2_part1_eq_skeleton]; unfold k2_part1_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H5
  ipureintro
  rw [View.read_writes_eq_canon _ _ _ (cover2_one _ _), View.canon_unit_zero off2_zero]
  simp only [View.readAt_eq_ld, hf2, hf3, hf5, View.ld_unit_zero (S := S1024x256) off2_zero, View.ld_unit_zero (S := S1x1) off2_zero]

set_option maxHeartbeats 1000000 in
/-- THE FIRST POINT: the accumulator is reset to the zero splat `k2_pay1` whatever it held, then the point's sum is added:
    it ends at `k2_pay2 x y k2_pay1`; the output buffer is handed back as it was found. -/
theorem body2_first (c : Dev nD) (E : Set ℕ) (i : grid2.Coords)
    (arg2 : Memref sig .tc .vmem S1024x256 .f32) (harg2 : arg2.IsWhole) (arg3 : Memref sig .tc .vmem S1024x256 .f32) (harg3 : arg3.IsWhole)
    (arg4 : Memref sig .tc .vmem S1x1 .f32) (harg4 : arg4.IsWhole) (arg5 : Memref sig .tc .vmem S1x1 .f32) (harg5 : arg5.IsWhole)
    (hc1 : first2 i) (hc2 : ¬last2 i)
    (x y : Vec F S1024x256 .f32) (o a : Vec F S1x1 .f32) (K : PUnit → sProp 𝕄) :
    iprop(owns (c : Thread nD τ) arg2 fullShare x ∗ owns (c : Thread nD τ) arg3 fullShare y ∗ owns (c : Thread nD τ) arg4 fullShare o
        ∗ owns (c : Thread nD τ) arg5 fullShare a
        ∗ (iprop(owns (c : Thread nD τ) arg2 fullShare x ∗ owns (c : Thread nD τ) arg3 fullShare y ∗ owns (c : Thread nD τ) arg4 fullShare o
            ∗ owns (c : Thread nD τ) arg5 fullShare (k2_pay2 x y (k2_pay1 (F := F)))) -∗ K ⟨⟩))
      ⊢ wp frame (wpE (defs₀ (F := F)) Variants.none c none) E (cc2__rbf_sum_kernel i arg2 harg2 arg3 harg3 arg4 harg4 arg5 harg5) K := by
  simp only [cc2__rbf_sum_kernel_eq_skeleton]; unfold cc2__rbf_sum_kernel_skel
  simp only [k2_part1_eq_skeleton]; unfold k2_part1_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H5
  ipureintro
  sl_unfold_words
  rw [View.read_writes_eq_canon _ _ _ (cover2_one _ _)]
  rw [View.canon_cons_unit_zero (S := S1x1) off2_zero]
  simp only [View.readAt_eq_ld, hf2, hf3, View.ld_unit_zero (S := S1024x256) off2_zero, View.readCov_unit_zero (S := S1x1) _ off2_zero]

set_option maxHeartbeats 1000000 in
/-- THE LAST POINT: the point's sum is added to the accumulator, which is then copied whole into the output buffer: both end
    at `k2_pay2 x y a`, whatever the output buffer held. -/
theorem body2_last (c : Dev nD) (E : Set ℕ) (i : grid2.Coords)
    (arg2 : Memref sig .tc .vmem S1024x256 .f32) (harg2 : arg2.IsWhole) (arg3 : Memref sig .tc .vmem S1024x256 .f32) (harg3 : arg3.IsWhole)
    (arg4 : Memref sig .tc .vmem S1x1 .f32) (harg4 : arg4.IsWhole) (arg5 : Memref sig .tc .vmem S1x1 .f32) (harg5 : arg5.IsWhole)
    (hc1 : ¬first2 i) (hc2 : last2 i)
    (x y : Vec F S1024x256 .f32) (o a : Vec F S1x1 .f32) (K : PUnit → sProp 𝕄) :
    iprop(owns (c : Thread nD τ) arg2 fullShare x ∗ owns (c : Thread nD τ) arg3 fullShare y ∗ owns (c : Thread nD τ) arg4 fullShare o
        ∗ owns (c : Thread nD τ) arg5 fullShare a
        ∗ (iprop(owns (c : Thread nD τ) arg2 fullShare x ∗ owns (c : Thread nD τ) arg3 fullShare y ∗ owns (c : Thread nD τ) arg4 fullShare (k2_pay2 x y a)
            ∗ owns (c : Thread nD τ) arg5 fullShare (k2_pay2 x y a)) -∗ K ⟨⟩))
      ⊢ wp frame (wpE (defs₀ (F := F)) Variants.none c none) E (cc2__rbf_sum_kernel i arg2 harg2 arg3 harg3 arg4 harg4 arg5 harg5) K := by
  simp only [cc2__rbf_sum_kernel_eq_skeleton]; unfold cc2__rbf_sum_kernel_skel
  simp only [k2_part1_eq_skeleton]; unfold k2_part1_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    sl_unfold_words
    rw [View.read_writes_eq_canon _ _ _ (cover2_one _ _)]
    rw [View.canon_unit_zero (S := S1x1) off2_zero]
    simp only [View.readAt_eq_ld, hf2, hf3, hf5, View.ld_unit_zero (S := S1024x256) off2_zero, View.ld_unit_zero (S := S1x1) off2_zero, View.readCov_unit_zero (S := S1x1) _ off2_zero]
  iexists _; isplitr
  swap; · iexact H5
  ipureintro
  sl_unfold_words
  rw [View.read_writes_eq_canon _ _ _ (cover2_one _ _), View.canon_unit_zero off2_zero]
  simp only [View.readAt_eq_ld, hf2, hf3, hf5, View.ld_unit_zero (S := S1024x256) off2_zero, View.ld_unit_zero (S := S1x1) off2_zero]

end Cert.KernelIdeal.Frame

end
-- ==== Proof.KI.Blocks2.lean ====
import proofs.«155040_j17282948399227_1_alg».proof.Proof.KI.Body2

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pallas_call 2: the windows' blocks and the accumulator, point by point

At the parameter `V`: the TensorCore's buffer contents when the region is entered. -/

section
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the scratch accumulator holds after the body at point `n`: reset and the first point's sum added at point 0,
    the point's sum added to what the point before left afterwards. -/
def acc2 (c : Dev nD) : (n : ℕ) → n < cfg2.N → Vec F S1x1 .f32
  | 0, h => k2_pay2 (iblk2 V c 0 ⟨0, h⟩) (iblk2 V c 1 ⟨0, h⟩) (k2_pay1 (F := F))
  | n + 1, h => k2_pay2 (iblk2 V c 0 ⟨n + 1, h⟩) (iblk2 V c 1 ⟨n + 1, h⟩) (acc2 c n (Nat.lt_of_succ_lt h))

theorem acc2_zero (c : Dev nD) (t : Fin cfg2.N) (h0 : t.val = 0) :
    acc2 V c t.val t.isLt = k2_pay2 (iblk2 V c 0 t) (iblk2 V c 1 t) (k2_pay1 (F := F)) := by
  obtain ⟨n, hn⟩ := t
  cases n with
  | zero => rfl
  | succ n => exact absurd h0 (Nat.succ_ne_zero n)

theorem acc2_pos (c : Dev nD) (t : Fin cfg2.N) (h0 : t.val ≠ 0) :
    acc2 V c t.val t.isLt
      = k2_pay2 (iblk2 V c 0 t) (iblk2 V c 1 t) (acc2 V c (t.val - 1) (Nat.lt_of_le_of_lt (Nat.sub_le _ _) t.isLt)) := by
  obtain ⟨n, hn⟩ := t
  cases n with
  | zero => exact absurd rfl h0
  | succ n => rfl

end

end Cert.KernelIdeal.Frame

end
-- ==== Proof.KI.Region2.lean ====
import proofs.«155040_j17282948399227_1_alg».proof.Proof.KI.Blocks2

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pallas_call 2: the proof data, the invariant and the body obligation

The region's invariant carries the scratch accumulator: before the first point the kernel's scoped buffers are at
anything; before point `n + 1` the accumulator holds what point `n` left (`acc2`), the other scoped buffers are at
anything. The output window is idle at every point but the last, where the body stores the accumulator into it and
the pipeline writes it back. -/

section
variable (V : (c : Dev nD) → (b : Ref sig .tc) → Buf (Elt F) ((c : Thread nD τ).loc b))
-- the share each input window holds its array at: the run deals them (two windows on one array hold half each)
variable (q : Fin cfg2.W → PosShare TreeShare)

/-! ## Where the branches are taken, and where the output window is idle: decided over the grid -/

theorem hfirst2 : ∀ t : Fin cfg2.N, first2 (grid2.coords t) ↔ t.val = 0 :=
  (by decide +kernel : ∀ t : Fin grid2.N, first2 (grid2.coords t) ↔ t.val = 0)
theorem hlast2 : ∀ t : Fin cfg2.N, last2 (grid2.coords t) ↔ t.val = 63 :=
  (by decide +kernel : ∀ t : Fin grid2.N, last2 (grid2.coords t) ↔ t.val = 63)
theorem live2_0 : ∀ t : Fin cfg2.N, cfg2.idle 0 (grid2.coords t) = false := by decide +kernel
theorem live2_1 : ∀ t : Fin cfg2.N, cfg2.idle 1 (grid2.coords t) = false := by decide +kernel
theorem idle2_2 : ∀ t : Fin cfg2.N, ¬last2 (grid2.coords t) → cfg2.idle 2 (grid2.coords t) = true := by decide +kernel
theorem noFlush2_2 : ∀ t : Fin cfg2.N, ¬last2 (grid2.coords t) → (cfg2.win 2).flush t = false := by decide +kernel
theorem live2_2 : ∀ t : Fin cfg2.N, last2 (grid2.coords t) → cfg2.idle 2 (grid2.coords t) = false := by decide +kernel

/-! ## The scratch accumulator among the kernel's scoped buffers -/

/-- The scratch accumulator as a memref. -/
abbrev scM2 : Memref sig .tc .vmem S1x1 .f32 := Memref.whole cc2_scratch0

/-- The core's scoped buffers that are neither a staging buffer of this call nor its accumulator, each at anything. -/
def Rest2 (c : Dev nD) : sProp 𝕄 :=
  bigSep (((Finset.univ.filter fun b : Ref sig .tc => b.isScoped) \ Finset.univ.image (Pipeline.stageRef spec2)).erase cc2_scratch0)
    fun b => iprop(∃ f : Buf (Elt F) ((c.tc : Thread nD τ).loc b), ((c.tc : Thread nD τ).loc b) ↦{fullShare} f)

/-- The class invariant with the accumulator singled out. -/
theorem PhiA2_eq (c : Dev nD) :
    (Pipeline.ΦA spec2 c : sProp 𝕄)
      = iprop(((∃ d, owns (c : Thread nD τ) scM2 fullShare d) ∗ Rest2 c) ∗ (∃ r, prngReg c r)) := by
  unfold Pipeline.ΦA Pipeline.scopedRest Rest2
  rw [bigSep_erase (i := cc2_scratch0) (by decide)]
  simp only [scM2, owns_whole]
  rfl

/-- The region's invariant before position `n`. -/
def Phi2 (c : Dev nD) : (n : ℕ) → n ≤ cfg2.N → sProp 𝕄
  | 0, _ => Pipeline.ΦA spec2 c
  | n + 1, hn => iprop((owns (c : Thread nD τ) scM2 fullShare (acc2 V c n hn) ∗ Rest2 c) ∗ (∃ r, prngReg c r))

theorem Phi2_zero (c : Dev nD) (n : ℕ) (h : n ≤ cfg2.N) (hz : n = 0) : Phi2 V c n h = Pipeline.ΦA spec2 c := by
  subst hz; rfl
theorem Phi2_succ (c : Dev nD) (n : ℕ) (hn : n < cfg2.N) :
    Phi2 V c (n + 1) hn = iprop((owns (c : Thread nD τ) scM2 fullShare (acc2 V c n hn) ∗ Rest2 c) ∗ (∃ r, prngReg c r)) := rfl
theorem Phi2_pos (c : Dev nD) (n : ℕ) (h : n ≤ cfg2.N) (hz : n ≠ 0) :
    Phi2 V c n h = iprop((owns (c : Thread nD τ) scM2 fullShare (acc2 V c (n - 1) (by omega)) ∗ Rest2 c) ∗ (∃ r, prngReg c r)) := by
  cases n with
  | zero => exact absurd rfl hz
  | succ n => rfl

/-! ## The proof data -/

/-- The proof data of pallas_call 2 on core `c`: the arrays as the region finds them; after the body each input's buffer at
    its block and the output's at the accumulator's contents (read only at the last point, the one point that stores it);
    the invariant `Phi2`; nothing owed; the input arrays at the shares `q` the run deals. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.val t.isLt
  Φ t := Phi2 V c t.val (Nat.le_of_lt_succ t.isLt)
  q := q
  owed _ := 0

theorem A_eq2 (c : Dev nD) (w : Fin cfg2.W) : (dat2 V q c).A w = V c (Pipeline.arrRef spec2 w) := by
  dsimp only [dat2]
theorem Phi2_castSucc (c : Dev nD) (t : Fin cfg2.N) :
    (dat2 V q c).Φ t.castSucc = Phi2 V c t.val (Nat.le_of_lt t.isLt) := by
  dsimp only [dat2]; simp only [Fin.coe_castSucc]
theorem after2_0 (c : Dev nD) (t : Fin cfg2.N) : (dat2 V q c).after 0 t = iblk2 V c 0 t := by dsimp only [dat2]
theorem after2_1 (c : Dev nD) (t : Fin cfg2.N) : (dat2 V q c).after 1 t = iblk2 V c 1 t := by dsimp only [dat2]
theorem after2_2 (c : Dev nD) (t : Fin cfg2.N) : (dat2 V q c).after 2 t = acc2 V c t.val t.isLt := by dsimp only [dat2]

/-- Each input's current staging buffer holds its block at every point, fetched there or not: unfetched, the block index
    has not moved since the fetch. -/
theorem before2_0 (c : Dev nD) (t : Fin cfg2.N) (d) : (dat2 V q c).before 0 t d = iblk2 V c 0 t :=
  ((dat2 V q c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V q c).before 1 t d = iblk2 V c 1 t :=
  ((dat2 V q c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

/-! ## The body obligation -/

/-- What the body is called with at point `t`, the windows one by one, -/
def bodyPre2 (c : Dev nD) (t : Fin cfg2.N) : sProp 𝕄 :=
  iprop((dat2 V q c).Φ t.castSucc ∗ (dat2 V q c).owesAt () t.castSucc
    ∗ (∃ d, owns (c : Thread nD τ) (st2_0 t) fullShare ((dat2 V q c).before 0 t d))
    ∗ (∃ d, owns (c : Thread nD τ) (st2_1 t) fullShare ((dat2 V q c).before 1 t d))
    ∗ (∃ d, owns (c : Thread nD τ) (st2_2 t) fullShare ((dat2 V q c).before 2 t d)))

/-- and what it returns. -/
def bodyPost2 (c : Dev nD) (t : Fin cfg2.N) : sProp 𝕄 :=
  iprop((dat2 V q c).Φ t.succ ∗ (dat2 V q c).owesAt () t.succ
    ∗ (dat2 V q c).leavesExact 0 t
    ∗ (dat2 V q c).leavesExact 1 t
    ∗ (dat2 V q c).leavesExact 2 t)

set_option maxHeartbeats 4000000 in
/-- The body at any point: the inputs' buffers hold their blocks; the point is the first, a middle one or the last, and that
    case's triple applies; the invariant hands the body the accumulator at what the point before left (at anything at the
    first point) and takes it back at this point's contents; the core owes nothing throughout. -/
theorem sound_body2 (c : Dev nD) (t : Fin cfg2.N) :
    bodyPre2 V q c t ⊢ wp frame (wpE (defs₀ (F := F)) Variants.none c none) Set.univ (bodyAt2 t) (fun _ => bodyPost2 V q c t) := by
  unfold bodyPre2 bodyPost2 bodyAt2
  simp only [before2_0, before2_1]
  rw [show (dat2 V q c).owesAt () t.succ = (dat2 V q c).owesAt () t.castSucc from rfl]
  rw [show (dat2 V q c).Φ t.succ = Phi2 V c (t.val + 1) t.isLt from rfl, Phi2_succ]
  rw [show (dat2 V q c).leavesExact 0 t = owns (c : Thread nD τ) (st2_0 t) fullShare ((dat2 V q c).after 0 t) from by
    unfold Dat.leavesExact; rw [live2_0 t], after2_0]
  rw [show (dat2 V q c).leavesExact 1 t = owns (c : Thread nD τ) (st2_1 t) fullShare ((dat2 V q c).after 1 t) from by
    unfold Dat.leavesExact; rw [live2_1 t], after2_1]
  have hN : t.val < 64 := lt_of_lt_of_eq t.isLt (show cfg2.N = 64 from N_2)
  by_cases hl : t.val = 63
  · -- the last point
    have hc2 : last2 (grid2.coords t) := (hlast2 t).mpr hl
    have hc1 : ¬first2 (grid2.coords t) := fun h => by have := (hfirst2 t).mp h; omega
    have hz : t.val ≠ 0 := by omega
    rw [show (dat2 V q c).leavesExact 2 t = owns (c : Thread nD τ) (st2_2 t) fullShare ((dat2 V q c).after 2 t) from by
      unfold Dat.leavesExact; rw [live2_2 t hc2], after2_2]
    rw [acc2_pos V c t hz, Phi2_castSucc V q c t, Phi2_pos V c _ _ hz]
    iintro ⟨⟨⟨HS, HR⟩, Hg⟩, Ho, ⟨%d0, H0⟩, ⟨%d1, H1⟩, ⟨%d2, H2⟩⟩
    iapply (body2_last c Set.univ (grid2.coords t) _ _ _ _ _ _ _ _ hc1 hc2 (iblk2 V c 0 t) (iblk2 V c 1 t) _ _ _)
    isplitl [H0]; · iexact H0
    isplitl [H1]; · iexact H1
    isplitl [H2]; · iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexact H2
  · have hc2 : ¬last2 (grid2.coords t) := fun h => hl ((hlast2 t).mp h)
    rw [Dat.leavesExact_idle (dat2 V q c) 2 t (idle2_2 t hc2) (noFlush2_2 t hc2)]
    by_cases hz : t.val = 0
    · -- the first point
      have hc1 : first2 (grid2.coords t) := (hfirst2 t).mpr hz
      rw [acc2_zero V c t hz, Phi2_castSucc V q c t, Phi2_zero V c _ _ hz, PhiA2_eq]
      iintro ⟨⟨⟨⟨%a, HS⟩, HR⟩, Hg⟩, Ho, ⟨%d0, H0⟩, ⟨%d1, H1⟩, ⟨%d2, H2⟩⟩
      iapply (body2_first c Set.univ (grid2.coords t) _ _ _ _ _ _ _ _ hc1 hc2 (iblk2 V c 0 t) (iblk2 V c 1 t) _ a _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2
    · -- a middle point
      have hc1 : ¬first2 (grid2.coords t) := fun h => hz ((hfirst2 t).mp h)
      rw [acc2_pos V c t hz, Phi2_castSucc V q c t, Phi2_pos V c _ _ hz]
      iintro ⟨⟨⟨HS, HR⟩, Hg⟩, Ho, ⟨%d0, H0⟩, ⟨%d1, H1⟩, ⟨%d2, H2⟩⟩
      iapply (body2_mid c Set.univ (grid2.coords t) _ _ _ _ _ _ _ _ hc1 hc2 (iblk2 V c 0 t) (iblk2 V c 1 t) _ _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V q c) (defs₀ (F := F)) Variants.none () Set.univ := fun t => by
  rw [bigSep_W2, bigSep_W2]
  exact sound_body2 V q c t

/-- What the launch hands the region is the invariant before the first point. -/
theorem hin2 (c : Dev nD) : Pipeline.ΦA spec2 c ⊢ (dat2 V q c).Φ 0 := by
  rw [show (dat2 V q c).Φ 0 = Phi2 V c 0 (Nat.zero_le _) from rfl, Phi2_zero V c 0 _ rfl]
  try exact Idealize.SL.BI.Entails.refl _

/-- After the last point the invariant gives it back: the accumulator's named contents are forgotten. -/
theorem hout2 (c : Dev nD) : (dat2 V q c).Φ (Fin.last cfg2.N) ⊢ Pipeline.ΦA spec2 c := by
  rw [show (dat2 V q c).Φ (Fin.last cfg2.N) = Phi2 V c (Fin.last cfg2.N).val (Nat.le_of_lt_succ (Fin.last cfg2.N).isLt) from rfl,
    Phi2_pos V c _ _ (by rw [Fin.val_last]; have : cfg2.N = 64 := N_2; omega), PhiA2_eq]
  iintro ⟨⟨HS, HR⟩, Hg⟩
  isplitl [HS HR]
  · isplitl [HS]; · iexists _; iexact HS
    iexact HR
  iexact Hg

end

end Cert.KernelIdeal.Frame

end
-- ==== Proof.KI.Shares.lean ====
import proofs.«155040_j17282948399227_1_alg».proof.Proof.KI.Region0
import proofs.«155040_j17282948399227_1_alg».proof.Proof.KI.Region1
import proofs.«155040_j17282948399227_1_alg».proof.Proof.KI.Region2

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # How the pallas_calls hold their input arrays

Pallas_calls 0 and 1 read ONE array through both input windows: each window holds half of the array's share. Pallas_call 2
reads two arrays, each held whole. -/

/-- Two input windows on one array hold half of it each; the output's array is held whole. -/
abbrev qHalves : Fin 3 → PosShare TreeShare := fun | ⟨0, _⟩ => fullShare.left | ⟨1, _⟩ => fullShare.right | ⟨_ + 2, _⟩ => fullShare
/-- Distinct arrays are each held whole. -/
abbrev qFull : Fin 3 → PosShare TreeShare := fun _ => fullShare

/-- A buffer held whole is its two half shares. -/
theorem halves {c : Dev nD} {b : Ref sig .tc} (X : Buf (Elt F) ((c.tc : Thread nD τ).loc b)) :
    ((((c : Thread nD τ).loc b) ↦{fullShare} X) : sProp 𝕄)
      = iprop((((c : Thread nD τ).loc b) ↦{fullShare.left} X) ∗ (((c : Thread nD τ).loc b) ↦{fullShare.right} X)) :=
  BI.Entails.antisymm (pointsTo_share (PosShare.mem_left_op_right fullShare)).1 (pointsTo_share (PosShare.mem_left_op_right fullShare)).2

end Cert.KernelIdeal.Frame

end
-- ==== Proof.KI.Enter0.lean ====
import proofs.«155040_j17282948399227_1_alg».proof.Proof.KI.Shares

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Entering and leaving pallas_call 0: its arrays out of the core's unscoped buffers and back

Both input windows read the array `main_arg0`: its full share is split into its two halves, one per window, at entry, and the
halves are joined again at exit. The output window's array `main_v0` (a 1×1 result) ends holding what the pipeline's one
write-back left; every other unscoped buffer bypasses the call. -/

section
variable (V : (c : Dev nD) → (b : Ref sig .tc) → Buf (Elt F) ((c : Thread nD τ).loc b)) (c : Dev nD)

/-- The pipeline's arrays, window by window. -/
theorem arrays0_eq (q : Fin cfg0.W → PosShare TreeShare)
    (Fn : (w : Fin cfg0.W) → Buf (Elt F) ((cfg0.win w).arr.view.loc (c.tc : Thread nD τ))) :
    ((dat0 V q c).arrays Fn : sProp 𝕄)
      = iprop((((c : Thread nD τ).loc main_arg0) ↦{q 0} Fn 0) ∗ (((c : Thread nD τ).loc main_arg0) ↦{q 1} Fn 1)
          ∗ (((c : Thread nD τ).loc main_v0) ↦{fullShare} Fn 2)) := by
  unfold Dat.arrays
  rw [bigSep_W0, (arr_whole0 0).set_eq_univ]
  try rw [(arr_whole0 1).set_eq_univ]
  rw [(arr_whole0 2).set_eq_univ]
  rfl

/-- The distinct buffers behind the call's arrays. -/
theorem arrBufs0_eq (X : (b : Ref sig .tc) → Buf (Elt F) ((c.tc : Thread nD τ).loc b)) :
    (Pipeline.arrBufs (Ix := Unit) (Name := ℕ) (U := UR sig nD τ) (Lvl := ℕ) spec0 c X : sProp 𝕄)
      = iprop((((c : Thread nD τ).loc main_arg0) ↦{fullShare} X main_arg0) ∗ (((c : Thread nD τ).loc main_v0) ↦{fullShare} X main_v0)) := by
  unfold Pipeline.arrBufs
  rw [show Finset.univ.image (Pipeline.arrRef spec0) = {main_arg0, main_v0} from by decide, bigSep_insert (by decide), bigSep_singleton]
  rfl

/-- The core's unscoped buffers are the buffers behind the call's arrays and the rest. -/
theorem split0 (X : (b : Ref sig .tc) → Buf (Elt F) ((c.tc : Thread nD τ).loc b)) :
    (unscopedBufs (Ix := Unit) (Name := ℕ) (U := UR sig nD τ) (Lvl := ℕ) c X : sProp 𝕄)
      = iprop(Pipeline.arrBufs spec0 c X ∗ Pipeline.unscopedRest spec0 c X) :=
  Pipeline.unscopedBufs_split₀ (Ix := Unit) (Name := ℕ) (U := UR sig nD τ) (Lvl := ℕ) cfgs (0 : Fin 3) winFacts₀0.arr_unscoped c X

/-- ENTRY: the core's unscoped buffers at `V c` are the call's arrays at their entry contents — the shared input array
    split into its two halves — and the unscoped rest. -/
theorem entry0 :
    (unscopedBufs (Ix := Unit) (Name := ℕ) (U := UR sig nD τ) (Lvl := ℕ) c (V c) : sProp 𝕄)
      ⊢ iprop((dat0 V qHalves c).arrays ((dat0 V qHalves c).arrAt · 0) ∗ Pipeline.unscopedRest spec0 c (V c)) := by
  rw [split0, arrBufs0_eq, arrays0_eq, halves (c := c) (b := main_arg0)]
  iintro ⟨⟨⟨Hl, Hrr⟩, Ho⟩, Hr⟩
  isplitr [Hr]
  · isplitl [Hl]; · iexact Hl
    isplitl [Hrr]; · iexact Hrr
    iexact Ho
  iexact Hr

/-- EXIT: the arrays at their final contents — the input array's halves joined again, the result at what the write-back
    left — and the unscoped rest are the core's unscoped buffers at any contents `V'` that hold the result there and agree
    with `V c` elsewhere. -/
theorem exit0 (V' : (b : Ref sig .tc) → Buf (Elt F) ((c.tc : Thread nD τ).loc b))
    (hv : V' main_v0 = (dat0 V qHalves c).arrAt 2 cfg0.N) (hrest : ∀ b : Ref sig .tc, b ≠ main_v0 → V' b = V c b) :
    iprop((dat0 V qHalves c).arrays ((dat0 V qHalves c).arrAt · cfg0.N) ∗ Pipeline.unscopedRest spec0 c (V c))
      ⊢ (unscopedBufs (Ix := Unit) (Name := ℕ) (U := UR sig nD τ) (Lvl := ℕ) c V' : sProp 𝕄) := by
  have hr : (Pipeline.unscopedRest (Ix := Unit) (Name := ℕ) (U := UR sig nD τ) (Lvl := ℕ) spec0 c V' : sProp 𝕄)
      = Pipeline.unscopedRest spec0 c (V c) := by
    unfold Pipeline.unscopedRest
    exact bigSep_congr fun b hb => by
      rw [hrest b (fun e => (Finset.mem_sdiff.mp hb).2 (by rw [e]; decide))]
  have h0 : (dat0 V qHalves c).arrAt 0 cfg0.N = V c main_arg0 := ((dat0 V qHalves c).arrAt_in 0 rfl _).trans (A_eq0 V qHalves c 0)
  have h1 : (dat0 V qHalves c).arrAt 1 cfg0.N = V c main_arg0 := ((dat0 V qHalves c).arrAt_in 1 rfl _).trans (A_eq0 V qHalves c 1)
  rw [split0, arrBufs0_eq, arrays0_eq, hr, hv, hrest main_arg0 (by decide), halves (c := c) (b := main_arg0), h0, h1]
  iintro ⟨⟨Hl, Hrr, Ho⟩, Hr⟩
  isplitr [Hr]
  · isplitr [Ho]
    · isplitl [Hl]; · iexact Hl
      iexact Hrr
    iexact Ho
  iexact Hr

end

end Cert.KernelIdeal.Frame

end
-- ==== Proof.KI.Enter1.lean ====
import proofs.«155040_j17282948399227_1_alg».proof.Proof.KI.Shares

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Entering and leaving pallas_call 1: its arrays out of the core's unscoped buffers and back

Both input windows read the array `main_arg1`: its full share is split into its two halves, one per window, at entry, and the
halves are joined again at exit. The output window's array `main_v3` (a 1×1 result) ends holding what the pipeline's one
write-back left; every other unscoped buffer bypasses the call. -/

section
variable (V : (c : Dev nD) → (b : Ref sig .tc) → Buf (Elt F) ((c : Thread nD τ).loc b)) (c : Dev nD)

/-- The pipeline's arrays, window by window. -/
theorem arrays1_eq (q : Fin cfg1.W → PosShare TreeShare)
    (Fn : (w : Fin cfg1.W) → Buf (Elt F) ((cfg1.win w).arr.view.loc (c.tc : Thread nD τ))) :
    ((dat1 V q c).arrays Fn : sProp 𝕄)
      = iprop((((c : Thread nD τ).loc main_arg1) ↦{q 0} Fn 0) ∗ (((c : Thread nD τ).loc main_arg1) ↦{q 1} Fn 1)
          ∗ (((c : Thread nD τ).loc main_v3) ↦{fullShare} Fn 2)) := by
  unfold Dat.arrays
  rw [bigSep_W1, (arr_whole1 0).set_eq_univ]
  try rw [(arr_whole1 1).set_eq_univ]
  rw [(arr_whole1 2).set_eq_univ]
  rfl

/-- The distinct buffers behind the call's arrays. -/
theorem arrBufs1_eq (X : (b : Ref sig .tc) → Buf (Elt F) ((c.tc : Thread nD τ).loc b)) :
    (Pipeline.arrBufs (Ix := Unit) (Name := ℕ) (U := UR sig nD τ) (Lvl := ℕ) spec1 c X : sProp 𝕄)
      = iprop((((c : Thread nD τ).loc main_arg1) ↦{fullShare} X main_arg1) ∗ (((c : Thread nD τ).loc main_v3) ↦{fullShare} X main_v3)) := by
  unfold Pipeline.arrBufs
  rw [show Finset.univ.image (Pipeline.arrRef spec1) = {main_arg1, main_v3} from by decide, bigSep_insert (by decide), bigSep_singleton]
  rfl

/-- The core's unscoped buffers are the buffers behind the call's arrays and the rest. -/
theorem split1 (X : (b : Ref sig .tc) → Buf (Elt F) ((c.tc : Thread nD τ).loc b)) :
    (unscopedBufs (Ix := Unit) (Name := ℕ) (U := UR sig nD τ) (Lvl := ℕ) c X : sProp 𝕄)
      = iprop(Pipeline.arrBufs spec1 c X ∗ Pipeline.unscopedRest spec1 c X) :=
  Pipeline.unscopedBufs_split₀ (Ix := Unit) (Name := ℕ) (U := UR sig nD τ) (Lvl := ℕ) cfgs (1 : Fin 3) winFacts₀1.arr_unscoped c X

/-- ENTRY: the core's unscoped buffers at `V c` are the call's arrays at their entry contents — the shared input array
    split into its two halves — and the unscoped rest. -/
theorem entry1 :
    (unscopedBufs (Ix := Unit) (Name := ℕ) (U := UR sig nD τ) (Lvl := ℕ) c (V c) : sProp 𝕄)
      ⊢ iprop((dat1 V qHalves c).arrays ((dat1 V qHalves c).arrAt · 0) ∗ Pipeline.unscopedRest spec1 c (V c)) := by
  rw [split1, arrBufs1_eq, arrays1_eq, halves (c := c) (b := main_arg1)]
  iintro ⟨⟨⟨Hl, Hrr⟩, Ho⟩, Hr⟩
  isplitr [Hr]
  · isplitl [Hl]; · iexact Hl
    isplitl [Hrr]; · iexact Hrr
    iexact Ho
  iexact Hr

/-- EXIT: the arrays at their final contents — the input array's halves joined again, the result at what the write-back
    left — and the unscoped rest are the core's unscoped buffers at any contents `V'` that hold the result there and agree
    with `V c` elsewhere. -/
theorem exit1 (V' : (b : Ref sig .tc) → Buf (Elt F) ((c.tc : Thread nD τ).loc b))
    (hv : V' main_v3 = (dat1 V qHalves c).arrAt 2 cfg1.N) (hrest : ∀ b : Ref sig .tc, b ≠ main_v3 → V' b = V c b) :
    iprop((dat1 V qHalves c).arrays ((dat1 V qHalves c).arrAt · cfg1.N) ∗ Pipeline.unscopedRest spec1 c (V c))
      ⊢ (unscopedBufs (Ix := Unit) (Name := ℕ) (U := UR sig nD τ) (Lvl := ℕ) c V' : sProp 𝕄) := by
  have hr : (Pipeline.unscopedRest (Ix := Unit) (Name := ℕ) (U := UR sig nD τ) (Lvl := ℕ) spec1 c V' : sProp 𝕄)
      = Pipeline.unscopedRest spec1 c (V c) := by
    unfold Pipeline.unscopedRest
    exact bigSep_congr fun b hb => by
      rw [hrest b (fun e => (Finset.mem_sdiff.mp hb).2 (by rw [e]; decide))]
  have h0 : (dat1 V qHalves c).arrAt 0 cfg1.N = V c main_arg1 := ((dat1 V qHalves c).arrAt_in 0 rfl _).trans (A_eq1 V qHalves c 0)
  have h1 : (dat1 V qHalves c).arrAt 1 cfg1.N = V c main_arg1 := ((dat1 V qHalves c).arrAt_in 1 rfl _).trans (A_eq1 V qHalves c 1)
  rw [split1, arrBufs1_eq, arrays1_eq, hr, hv, hrest main_arg1 (by decide), halves (c := c) (b := main_arg1), h0, h1]
  iintro ⟨⟨Hl, Hrr, Ho⟩, Hr⟩
  isplitr [Hr]
  · isplitr [Ho]
    · isplitl [Hl]; · iexact Hl
      iexact Hrr
    iexact Ho
  iexact Hr

end

end Cert.KernelIdeal.Frame

end
-- ==== Proof.KI.Enter2.lean ====
import proofs.«155040_j17282948399227_1_alg».proof.Proof.KI.Shares

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Entering and leaving pallas_call 2: its arrays out of the core's unscoped buffers and back

The two input windows read two arrays, `main_arg0` and `main_arg1`, each held whole. The output window's array `main_v6`
(a 1×1 result) ends holding what the pipeline's one write-back left; every other unscoped buffer bypasses the call. -/

section
variable (V : (c : Dev nD) → (b : Ref sig .tc) → Buf (Elt F) ((c : Thread nD τ).loc b)) (c : Dev nD)

/-- The pipeline's arrays, window by window. -/
theorem arrays2_eq (q : Fin cfg2.W → PosShare TreeShare)
    (Fn : (w : Fin cfg2.W) → Buf (Elt F) ((cfg2.win w).arr.view.loc (c.tc : Thread nD τ))) :
    ((dat2 V q c).arrays Fn : sProp 𝕄)
      = iprop((((c : Thread nD τ).loc main_arg0) ↦{q 0} Fn 0) ∗ (((c : Thread nD τ).loc main_arg1) ↦{q 1} Fn 1)
          ∗ (((c : Thread nD τ).loc main_v6) ↦{fullShare} Fn 2)) := by
  unfold Dat.arrays
  rw [bigSep_W2, (arr_whole2 0).set_eq_univ, (arr_whole2 1).set_eq_univ, (arr_whole2 2).set_eq_univ]
  rfl

/-- The distinct buffers behind the call's arrays. -/
theorem arrBufs2_eq (X : (b : Ref sig .tc) → Buf (Elt F) ((c.tc : Thread nD τ).loc b)) :
    (Pipeline.arrBufs (Ix := Unit) (Name := ℕ) (U := UR sig nD τ) (Lvl := ℕ) spec2 c X : sProp 𝕄)
      = iprop((((c : Thread nD τ).loc main_arg0) ↦{fullShare} X main_arg0) ∗ (((c : Thread nD τ).loc main_arg1) ↦{fullShare} X main_arg1)
          ∗ (((c : Thread nD τ).loc main_v6) ↦{fullShare} X main_v6)) := by
  unfold Pipeline.arrBufs
  rw [show Finset.univ.image (Pipeline.arrRef spec2) = {main_arg0, main_arg1, main_v6} from by decide,
    bigSep_insert (by decide), bigSep_insert (by decide), bigSep_singleton]
  rfl

/-- The core's unscoped buffers are the buffers behind the call's arrays and the rest. -/
theorem split2 (X : (b : Ref sig .tc) → Buf (Elt F) ((c.tc : Thread nD τ).loc b)) :
    (unscopedBufs (Ix := Unit) (Name := ℕ) (U := UR sig nD τ) (Lvl := ℕ) c X : sProp 𝕄)
      = iprop(Pipeline.arrBufs spec2 c X ∗ Pipeline.unscopedRest spec2 c X) :=
  Pipeline.unscopedBufs_split₀ (Ix := Unit) (Name := ℕ) (U := UR sig nD τ) (Lvl := ℕ) cfgs (2 : Fin 3) winFacts2.arr_unscoped c X

/-- ENTRY: the core's unscoped buffers at `V c` are the call's arrays at their entry contents and the unscoped rest. -/
theorem entry2 :
    (unscopedBufs (Ix := Unit) (Name := ℕ) (U := UR sig nD τ) (Lvl := ℕ) c (V c) : sProp 𝕄)
      ⊢ iprop((dat2 V qFull c).arrays ((dat2 V qFull c).arrAt · 0) ∗ Pipeline.unscopedRest spec2 c (V c)) := by
  rw [split2, arrBufs2_eq, arrays2_eq]
  iintro ⟨⟨Ha, Hb, Ho⟩, Hr⟩
  isplitr [Hr]
  · isplitl [Ha]; · iexact Ha
    isplitl [Hb]; · iexact Hb
    iexact Ho
  iexact Hr

/-- EXIT: the arrays at their final contents — the inputs as entered, the result at what the write-back left — and the
    unscoped rest are the core's unscoped buffers at any contents `V'` that hold the result there and agree with `V c`
    elsewhere. -/
theorem exit2 (V' : (b : Ref sig .tc) → Buf (Elt F) ((c.tc : Thread nD τ).loc b))
    (hv : V' main_v6 = (dat2 V qFull c).arrAt 2 cfg2.N) (hrest : ∀ b : Ref sig .tc, b ≠ main_v6 → V' b = V c b) :
    iprop((dat2 V qFull c).arrays ((dat2 V qFull c).arrAt · cfg2.N) ∗ Pipeline.unscopedRest spec2 c (V c))
      ⊢ (unscopedBufs (Ix := Unit) (Name := ℕ) (U := UR sig nD τ) (Lvl := ℕ) c V' : sProp 𝕄) := by
  have hr : (Pipeline.unscopedRest (Ix := Unit) (Name := ℕ) (U := UR sig nD τ) (Lvl := ℕ) spec2 c V' : sProp 𝕄)
      = Pipeline.unscopedRest spec2 c (V c) := by
    unfold Pipeline.unscopedRest
    exact bigSep_congr fun b hb => by
      rw [hrest b (fun e => (Finset.mem_sdiff.mp hb).2 (by rw [e]; decide))]
  have h0 : (dat2 V qFull c).arrAt 0 cfg2.N = V c main_arg0 := ((dat2 V qFull c).arrAt_in 0 rfl _).trans (A_eq2 V qFull c 0)
  have h1 : (dat2 V qFull c).arrAt 1 cfg2.N = V c main_arg1 := ((dat2 V qFull c).arrAt_in 1 rfl _).trans (A_eq2 V qFull c 1)
  rw [split2, arrBufs2_eq, arrays2_eq, hr, hv, hrest main_arg0 (by decide), hrest main_arg1 (by decide), h0, h1]

end

end Cert.KernelIdeal.Frame

end
-- ==== Proof.KI.Run.lean ====
import proofs.«155040_j17282948399227_1_alg».proof.Proof.KI.Enter0
import proofs.«155040_j17282948399227_1_alg».proof.Proof.KI.Enter1
import proofs.«155040_j17282948399227_1_alg».proof.Proof.KI.Enter2

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # THE RUN: @main's six segments from the launch to the return

@main is pallas_call 0, three host operations, pallas_call 1, three host operations, pallas_call 2, seven host operations.
The buffer contents at every segment boundary are a fold from the launch memory: a host stretch applies its operations; a
pallas_call changes its result buffer only, to what its one write-back leaves. Every unscoped buffer's final contents are
read off the last valuation: the frame claims take the two arguments from it, the value claim the result. -/

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- The same read at the TensorCore's references (what pallas_call 0's proof data take). -/
abbrev V0 : (c : Dev nD) → (b : Ref sig .tc) → Buf (Elt F) ((c : Thread nD τ).loc b) := fun c b => W0 m ρ c b

/-- After pallas_call 0: `main_v0` at what the call's one write-back leaves, every other buffer as entered. -/
def W1 (c : Dev nD) : Valuation τ sig (Elt F) :=
  Function.update (W0 m ρ c) main_v0 ((dat0 (V0 m ρ) qHalves c).arrAt 2 cfg0.N : Buf (Elt F) ((c : Thread nD τ).loc main_v0))
theorem W1_out (c : Dev nD) : (fun b : Ref sig .tc => W1 m ρ c b) main_v0 = (dat0 (V0 m ρ) qHalves c).arrAt 2 cfg0.N := by
  show Function.update (W0 m ρ c) main_v0 _ main_v0 = _
  rw [Function.update_self]
theorem W1_of (c : Dev nD) (b : Ref sig .tc) (h : b ≠ main_v0) : (fun b : Ref sig .tc => W1 m ρ c b) b = V0 m ρ c b := by
  show Function.update (W0 m ρ c) main_v0 _ b = _
  rw [Function.update_of_ne (StableHlo.devRef_ne_of_ne h : (Proc.devRef .tc b : DevRef τ sig) ≠ Proc.devRef .tc main_v0)]

/-- After the first host stretch (pallas_call 1's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b

/-- After pallas_call 1: `main_v3` at what the call's one write-back leaves, every other buffer as entered. -/
def W3 (c : Dev nD) : Valuation τ sig (Elt F) :=
  Function.update (W2 m ρ c) main_v3 ((dat1 (V2 m ρ) qHalves c).arrAt 2 cfg1.N : Buf (Elt F) ((c : Thread nD τ).loc main_v3))
theorem W3_out (c : Dev nD) : (fun b : Ref sig .tc => W3 m ρ c b) main_v3 = (dat1 (V2 m ρ) qHalves c).arrAt 2 cfg1.N := by
  show Function.update (W2 m ρ c) main_v3 _ main_v3 = _
  rw [Function.update_self]
theorem W3_of (c : Dev nD) (b : Ref sig .tc) (h : b ≠ main_v3) : (fun b : Ref sig .tc => W3 m ρ c b) b = V2 m ρ c b := by
  show Function.update (W2 m ρ c) main_v3 _ b = _
  rw [Function.update_of_ne (StableHlo.devRef_ne_of_ne h : (Proc.devRef .tc b : DevRef τ sig) ≠ Proc.devRef .tc main_v3)]

/-- After the second host stretch (pallas_call 2's entry). -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b

/-- After pallas_call 2: `main_v6` at what the call's one write-back leaves, every other buffer as entered. -/
def W5 (c : Dev nD) : Valuation τ sig (Elt F) :=
  Function.update (W4 m ρ c) main_v6 ((dat2 (V4 m ρ) qFull c).arrAt 2 cfg2.N : Buf (Elt F) ((c : Thread nD τ).loc main_v6))
theorem W5_out (c : Dev nD) : (fun b : Ref sig .tc => W5 m ρ c b) main_v6 = (dat2 (V4 m ρ) qFull c).arrAt 2 cfg2.N := by
  show Function.update (W4 m ρ c) main_v6 _ main_v6 = _
  rw [Function.update_self]
theorem W5_of (c : Dev nD) (b : Ref sig .tc) (h : b ≠ main_v6) : (fun b : Ref sig .tc => W5 m ρ c b) b = V4 m ρ c b := by
  show Function.update (W4 m ρ c) main_v6 _ b = _
  rw [Function.update_of_ne (StableHlo.devRef_ne_of_ne h : (Proc.devRef .tc b : DevRef τ sig) ≠ Proc.devRef .tc main_v6)]

/-- After the last host stretch: the final contents. -/
abbrev W6 : Dev nD → Valuation τ sig (Elt F) := fun c => StableHlo.after hostOps3 (W5 m ρ c)

/-! ## The proof data family and the thread state -/

/-- No pallas_call has a prefetched table. -/
abbrev admAll : (p : Fin 3) → (pcfgs (F := F) p).Adm := fun p => (cfgs p).toPCfg_adm
/-- Every pipeline's proof data, each at its region's entry contents: a literal match on the pipeline. -/
def datAll : (p : Fin 3) → (c : Dev nD) → Dat τ (Elt F) Unit ℕ (UR sig nD τ) ℕ (Pipeline.pin (pcfgs (F := F)) admAll p) c
  | ⟨0, _⟩ => fun c => dat0 (V0 m ρ) qHalves c
  | ⟨1, _⟩ => fun c => dat1 (V2 m ρ) qHalves c
  | ⟨2, _⟩ => fun c => dat2 (V4 m ρ) qFull c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor

/-! ## The pallas_calls as segments -/

-- a library lemma stated over the pinned configuration unifies with it only when unification may unfold plain definitions
-- in a metavariable's type
set_option backward.isDefEq.respectTransparency.types false in
/-- PALLAS_CALL 0 over the thread state: entered from every unscoped buffer at `W0`, left at `W1`. Its arrays split
    out of the unscoped buffers and put back at the exit contents; the generator register into the invariant and out; nothing
    owed; no semaphore of the kernel's own. -/
def reg0 : Pipeline.RegionSeg (pcfgs (F := F)) admAll (datAll m ρ) () defs₀ 𝒱₀ L lv 0 where
  win := winFacts₀0
  block_pos := block_pos0
  stage_whole := stage_whole0
  K := PEmpty
  osem k := k.elim
  ho := Pipeline.OwnSemFacts.none _
  hbody c := (body_obligation0 (V0 m ρ) qHalves c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := entry0 (V0 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (datAll m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (V0 m ρ) qHalves c).trans ?_
    unfold Pipeline.ΦA
    iintro ⟨Hr, Hp⟩
    isplitl [Hp]; · iexact Hp
    isplitr; · iempintro
    iexact Hr
  hexit c := by
    have hjoin : iprop((datAll m ρ 0 c).arrays ((datAll m ρ 0 c).arrAt · cfg0.N)
          ∗ Pipeline.unscopedRest (Ix := Unit) (Name := ℕ) (U := UR sig nD τ) (Lvl := ℕ) spec0 c (V0 m ρ c))
        ⊢ (unscopedBufs (Ix := Unit) (Name := ℕ) (U := UR sig nD τ) (Lvl := ℕ) c (fun b => W1 m ρ c b) : sProp 𝕄) :=
      exit0 (V0 m ρ) c (fun b => W1 m ρ c b) (W1_out m ρ c) (W1_of m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

-- a library lemma stated over the pinned configuration unifies with it only when unification may unfold plain definitions
-- in a metavariable's type
set_option backward.isDefEq.respectTransparency.types false in
/-- PALLAS_CALL 1 over the thread state: entered from every unscoped buffer at `W2`, left at `W3`. Its arrays split
    out of the unscoped buffers and put back at the exit contents; the generator register into the invariant and out; nothing
    owed; no semaphore of the kernel's own. -/
def reg1 : Pipeline.RegionSeg (pcfgs (F := F)) admAll (datAll m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) qHalves c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := entry1 (V2 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (datAll m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 (V2 m ρ) qHalves c).trans ?_
    unfold Pipeline.ΦA
    iintro ⟨Hr, Hp⟩
    isplitl [Hp]; · iexact Hp
    isplitr; · iempintro
    iexact Hr
  hexit c := by
    have hjoin : iprop((datAll m ρ 1 c).arrays ((datAll m ρ 1 c).arrAt · cfg1.N)
          ∗ Pipeline.unscopedRest (Ix := Unit) (Name := ℕ) (U := UR sig nD τ) (Lvl := ℕ) spec1 c (V2 m ρ c))
        ⊢ (unscopedBufs (Ix := Unit) (Name := ℕ) (U := UR sig nD τ) (Lvl := ℕ) c (fun b => W3 m ρ c b) : sProp 𝕄) :=
      exit1 (V2 m ρ) c (fun b => W3 m ρ c b) (W3_out m ρ c) (W3_of m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

-- a library lemma stated over the pinned configuration unifies with it only when unification may unfold plain definitions
-- in a metavariable's type
set_option backward.isDefEq.respectTransparency.types false in
/-- PALLAS_CALL 2 over the thread state: entered from every unscoped buffer at `W4`, left at `W5`. Its arrays split
    out of the unscoped buffers and put back at the exit contents; the generator register into the invariant and out; nothing
    owed; no semaphore of the kernel's own. -/
def reg2 : Pipeline.RegionSeg (pcfgs (F := F)) admAll (datAll m ρ) () defs₀ 𝒱₀ L lv 2 where
  win := winFacts2.to₀
  block_pos := block_pos2
  stage_whole := stage_whole2
  K := PEmpty
  osem k := k.elim
  ho := Pipeline.OwnSemFacts.none _
  hbody c := (body_obligation2 (V4 m ρ) qFull c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := entry2 (V4 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (datAll m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (hout2 (V4 m ρ) qFull c).trans ?_
    unfold Pipeline.ΦA
    iintro ⟨Hr, Hp⟩
    isplitl [Hp]; · iexact Hp
    isplitr; · iempintro
    iexact Hr
  hexit c := by
    have hjoin : iprop((datAll m ρ 2 c).arrays ((datAll m ρ 2 c).arrAt · cfg2.N)
          ∗ Pipeline.unscopedRest (Ix := Unit) (Name := ℕ) (U := UR sig nD τ) (Lvl := ℕ) spec2 c (V4 m ρ c))
        ⊢ (unscopedBufs (Ix := Unit) (Name := ℕ) (U := UR sig nD τ) (Lvl := ℕ) c (fun b => W5 m ρ c b) : sProp 𝕄) :=
      exit2 (V4 m ρ) c (fun b => W5 m ρ c b) (W5_out m ρ c) (W5_of m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

/-- @main's six segments in order. -/
abbrev segs : List (Pipeline.Seg (pcfgs (F := F)) admAll (datAll m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)),
    .region (reg2 m ρ),
    .host (hseg hostOps3 hostOps3_sub hostOps3_fresh (W5 m ρ)) ]
/-- @main IS the run of the segments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and every final state holds every unscoped buffer at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) admAll (datAll m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W6 m ρ c) ∗ ∃ r, prngReg c r))
    (hch := ⟨fun _ => .rfl, fun _ => .rfl, fun _ => .rfl, fun _ => .rfl, fun _ => .rfl, fun _ => .rfl, fun c =>
      (show iprop(StableHlo.held (c : Thread nD τ) (Pipeline.ucRefs τ sig) (W6 m ρ c) ∗ R c)
          ⊢ (iprop(iprop(StableHlo.held (c : Thread nD τ) (Pipeline.ucRefs τ sig) (W6 m ρ c) ∗ ∃ r, prngReg c r)
              ∗ ∃ W, owes (c : Thread nD τ) (0 : CellTallies nD τ sig Unit) W) : sProp 𝕄) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Frame

end
-- ==== Proof.KI.Kept.lean ====
import proofs.«155040_j17282948399227_1_alg».proof.Proof.KI.Run

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The arguments end as launched, and the frame

No host operation of @main writes an argument array and a pallas_call changes its result buffer only, so the fold of the
buffer contents through @main's six segments, read at an argument, walks back to the launch memory. -/

variable (m : (ℓ : Loc nD τ sig) → Buf (Elt F) ℓ) (ρ : Dev nD → PrngReg)

/-- `main_arg0` reaches the end as launched: no host operation writes it and a pallas_call changes its result buffer only. -/
theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := StableHlo.after_of_forall_not_mem (b := Proc.devRef .tc main_arg0) _ _ (List.forall_iff_forall_mem.mp (by
          simp only [hostOps3, List.Forall, StableHlo.nullary_writes, StableHlo.unary_writes, StableHlo.binary_writes, StableHlo.reshape_writes, Finset.mem_singleton]
          repeat' apply And.intro
          all_goals exact StableHlo.devRef_ne_of_ne (by decide)))
    _ = W4 m ρ c (Proc.devRef .tc main_arg0) := W5_of m ρ c main_arg0 (by decide)
    _ = W3 m ρ c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.reshape_writes, Finset.mem_singleton]
          repeat' apply And.intro
          all_goals exact StableHlo.devRef_ne_of_ne (by decide)))
    _ = W2 m ρ c (Proc.devRef .tc main_arg0) := W3_of m ρ c main_arg0 (by decide)
    _ = W1 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W0 m ρ c (Proc.devRef .tc main_arg0) := W1_of m ρ c main_arg0 (by decide)
    _ = m ((c : Thread nD τ).loc main_arg0) := rfl

/-- `main_arg1` reaches the end as launched: no host operation writes it and a pallas_call changes its result buffer only. -/
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := StableHlo.after_of_forall_not_mem (b := Proc.devRef .tc main_arg1) _ _ (List.forall_iff_forall_mem.mp (by
          simp only [hostOps3, List.Forall, StableHlo.nullary_writes, StableHlo.unary_writes, StableHlo.binary_writes, StableHlo.reshape_writes, Finset.mem_singleton]
          repeat' apply And.intro
          all_goals exact StableHlo.devRef_ne_of_ne (by decide)))
    _ = W4 m ρ c (Proc.devRef .tc main_arg1) := W5_of m ρ c main_arg1 (by decide)
    _ = W3 m ρ c (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, StableHlo.reshape_writes, Finset.mem_singleton]
          repeat' apply And.intro
          all_goals exact StableHlo.devRef_ne_of_ne (by decide)))
    _ = W2 m ρ c (Proc.devRef .tc main_arg1) := W3_of m ρ c main_arg1 (by decide)
    _ = W1 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W0 m ρ c (Proc.devRef .tc main_arg1) := W1_of m ρ c main_arg1 (by decide)
    _ = m ((c : Thread nD τ).loc main_arg1) := rfl

/-- THE FRAME, at any float instance: every weakly fair execution of @main terminates, nothing faulting, and every final
    state has both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W6_main_arg0 m ρ c),
     (h c _ (mem_uc main_arg1 (by decide))).trans (W6_main_arg1 m ρ c)⟩) (run_all m ρ)

end Cert.KernelIdeal.Frame

end
-- ==== Proof.Spec.lean ====
/-
  The mathematics both programs compute, stated once over the extended reals and over no program.

  For two families of rows `X a`, `Y b` in dimension 256, the Gaussian pair term is
  `exp (-1/2 · max (‖X a‖² + ‖Y b‖² − 2 ⟨X a, Y b⟩) 0)`, the squared distance being expanded, not
  computed as a norm of a difference; `gaussSum X Y` adds it over all pairs. The three float
  literals are kept as the words both programs print (−0.5, 2.0, 0.0): the same word on both sides is
  never evaluated.

  The one law joining a tiled summation to the whole one is regrouping: the extended reals are a
  commutative additive monoid, so a sum over `Fin (g · r)` rows is the sum over `g` tiles of the sums
  over the `r` rows of each tile, on either side of the pair. No finiteness is used.
-/
import Idealize.ShloMosaic.PureOps.Ideal
import Idealize.ShloMosaic.Lib.ValueIdx
import Mathlib.Algebra.BigOperators.Fin
import Mathlib.Logic.Equiv.Fin.Basic

noncomputable section

open scoped BigOperators

namespace Cert.Rbf

open Idealize.ShloMosaic

/-- Squared Euclidean norm of row `a`. -/
def sqNorm {n : ℕ} (X : Fin n → Fin 256 → EReal) (a : Fin n) : EReal := ∑ k : Fin 256, X a k * X a k

/-- Inner product of row `a` of `X` with row `b` of `Y`. -/
def inner {n m : ℕ} (X : Fin n → Fin 256 → EReal) (Y : Fin m → Fin 256 → EReal) (a : Fin n) (b : Fin m) : EReal :=
  ∑ k : Fin 256, X a k * Y b k

/-- The Gaussian pair term with the squared distance expanded and clamped at zero. -/
def gauss {n m : ℕ} (X : Fin n → Fin 256 → EReal) (Y : Fin m → Fin 256 → EReal) (a : Fin n) (b : Fin m) : EReal :=
  Ideal.exp (Ideal.ofBits .f32 0xBF000000#32
    * max ((sqNorm X a + sqNorm Y b) - Ideal.ofBits .f32 0x40000000#32 * inner X Y a b) (Ideal.ofBits .f32 0x00000000#32))

/-- The sum of the pair term over all pairs of rows. -/
def gaussSum {n m : ℕ} (X : Fin n → Fin 256 → EReal) (Y : Fin m → Fin 256 → EReal) : EReal :=
  ∑ a : Fin n, ∑ b : Fin m, gauss X Y a b

/-- Tile `i` of height `r` of a family of `g · r` rows. -/
def tile {g r : ℕ} (X : Fin (g * r) → Fin 256 → EReal) (i : Fin g) : Fin r → Fin 256 → EReal :=
  fun p k => X (finProdFinEquiv (i, p)) k

/-- The pair term of two tiles is the pair term of the whole families at the rows the tiles hold. -/
theorem gauss_tile {g r h s : ℕ} (X : Fin (g * r) → Fin 256 → EReal) (Y : Fin (h * s) → Fin 256 → EReal)
    (i : Fin g) (j : Fin h) (p : Fin r) (q : Fin s) :
    gauss (tile X i) (tile Y j) p q = gauss X Y (finProdFinEquiv (i, p)) (finProdFinEquiv (j, q)) := rfl

/-- A sum over `g · r` rows is the sum over the tiles of the sums over each tile's rows. -/
theorem sum_tiles {g r : ℕ} (f : Fin (g * r) → EReal) :
    ∑ a : Fin (g * r), f a = ∑ i : Fin g, ∑ p : Fin r, f (finProdFinEquiv (i, p)) := by
  rw [← Equiv.sum_comp finProdFinEquiv f, Fintype.sum_prod_type]

/-- REGROUPING: the sum over all pairs is the sum over all pairs of tiles of the tiles' sums. -/
theorem gaussSum_tiles {g r h s : ℕ} (X : Fin (g * r) → Fin 256 → EReal) (Y : Fin (h * s) → Fin 256 → EReal) :
    gaussSum X Y = ∑ i : Fin g, ∑ j : Fin h, gaussSum (tile X i) (tile Y j) := by
  unfold gaussSum
  rw [sum_tiles]
  refine Finset.sum_congr rfl fun i _ => ?_
  have hrow : ∀ p : Fin r, ∑ b : Fin (h * s), gauss X Y (finProdFinEquiv (i, p)) b
      = ∑ j : Fin h, ∑ q : Fin s, gauss X Y (finProdFinEquiv (i, p)) (finProdFinEquiv (j, q)) := fun p => sum_tiles _
  rw [Finset.sum_congr rfl fun p _ => hrow p, Finset.sum_comm]
  exact Finset.sum_congr rfl fun j _ => Finset.sum_congr rfl fun p _ => Finset.sum_congr rfl fun q _ =>
    (gauss_tile X Y i j p q).symm

/-- A rank-2 array of extended reals read as its family of rows. -/
abbrev rows {n : ℕ} (x : (⟨2, ![n, 256]⟩ : Shape).Idx → EReal) : Fin n → Fin 256 → EReal :=
  fun a k => x (ValueIdx.ix2 a k)

/-- The result both programs end with: the three mean pair sums (each sum divided by the number of pairs, 2²⁶, the word
    both programs print) combined as `k(X,X) + k(Y,Y) − 2 · k(X,Y)`, a rank-0 array. -/
def mmd {n : ℕ} (X Y : Fin n → Fin 256 → EReal) : (⟨0, ![]⟩ : Shape).Idx → EReal := fun _ =>
  (Ideal.div (gaussSum X X) (Ideal.ofBits .f32 0x4C800000#32) + Ideal.div (gaussSum Y Y) (Ideal.ofBits .f32 0x4C800000#32))
    - Ideal.ofBits .f32 0x40000000#32 * Ideal.div (gaussSum X Y) (Ideal.ofBits .f32 0x4C800000#32)

end Cert.Rbf

end
-- ==== Proof.KI.Payload.lean ====
/-
  The arithmetic of the radial-basis kernel at one grid point, over the extended reals.

  From a 1024 × 256 block `x`, a 1024 × 256 block `y` and the accumulator's one entry `a`, the kernel's body stores
  `a + Σ_{p,q < 1024} exp (−1/2 · max ((‖x p‖² + ‖y q‖²) − 2 ⟨x p, y q⟩) 0)`: the pair sum of the two blocks read as
  families of rows. The squared norms are sums along the columns, the inner products one block product contracted along
  the columns (a change of format is the identity on extended reals), the norms of `y` are laid along the rows by a
  transpose, both are spread over the 1024 × 1024 pairs, and the total is a sum along the columns followed by a sum along
  the rows. Each layout operation, each sum and the product is first read at explicit coordinates; the pair term is
  then the specification's by definition, and the double sum is the specification's pair sum term by term.
  The value the accumulator is reset to is zero.
-/
import proofs.«155040_j17282948399227_1_alg».proof.Proof.Gen.KernelIdeal.Skeleton
import proofs.«155040_j17282948399227_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## Sums along one axis of a matrix -/

/-- The sum of a matrix along its columns, at row `p`, is the sum over the columns of the row's entries. -/
theorem sumAxis1_apply {n0 n1 : ℕ} (src : FVec Ideal ⟨2, ![n0, n1]⟩ .f32)
    (h : Shape.Reduces ⟨2, ![n0, n1]⟩ [1] ⟨1, ![n0]⟩) (hφ : FKind.Formats .f32)
    (hacc : (0x00000000#32 : BitVec 32) = FKind.add.neutral .f32 hφ) (p : Fin n0) :
    multiReduction (F := Ideal) .add [1] ⟨1, ![n0]⟩ src 0x00000000#32 h hφ hacc (ix1 p) = ∑ k : Fin n1, src (ix2 p k) := by
  refine (Ideal.multiReduction_add_single src _ h hφ hacc (ix1 p)).trans ?_
  refine Finset.sum_congr rfl fun k _ => congrArg src ?_
  funext c
  match c with
  | ⟨0, _⟩ => rfl
  | ⟨1, _⟩ => rfl

/-- The sum of a matrix along its rows, at column `q`, is the sum over the rows of the column's entries. -/
theorem sumAxis0_apply {n0 n1 : ℕ} (src : FVec Ideal ⟨2, ![n0, n1]⟩ .f32)
    (h : Shape.Reduces ⟨2, ![n0, n1]⟩ [0] ⟨1, ![n1]⟩) (hφ : FKind.Formats .f32)
    (hacc : (0x00000000#32 : BitVec 32) = FKind.add.neutral .f32 hφ) (q : Fin n1) :
    multiReduction (F := Ideal) .add [0] ⟨1, ![n1]⟩ src 0x00000000#32 h hφ hacc (ix1 q) = ∑ k : Fin n0, src (ix2 k q) := by
  refine (Ideal.multiReduction_add_single src _ h hφ hacc (ix1 q)).trans ?_
  refine Finset.sum_congr rfl fun k _ => congrArg src ?_
  funext c
  match c with
  | ⟨0, _⟩ => rfl
  | ⟨1, _⟩ => rfl

/-! ## The block product -/

theorem lhs_dot_0 (i : S1024x1024.Idx) (q : dot_S1024x256_S1024x256_S1024x1024_1_1_0_0_n_n.contr.Idx) :
    (dot_S1024x256_S1024x256_S1024x1024_1_1_0_0_n_n.lhsIdx i q 0).val = (i 0).val := by
  unfold DotDims.lhsIdx
  rw [dif_neg (show ¬(0 : Fin S1024x256.rank) ∈ dot_S1024x256_S1024x256_S1024x1024_1_1_0_0_n_n.lhsBatch by decide), dif_pos (show (0 : Fin S1024x256.rank) ∈ dot_S1024x256_S1024x256_S1024x1024_1_1_0_0_n_n.lhsNonContracting by decide)]
  rfl
theorem lhs_dot_1 (i : S1024x1024.Idx) (q : dot_S1024x256_S1024x256_S1024x1024_1_1_0_0_n_n.contr.Idx) :
    (dot_S1024x256_S1024x256_S1024x1024_1_1_0_0_n_n.lhsIdx i q 1).val = (q ⟨0, by decide⟩).val :=
  dot_S1024x256_S1024x256_S1024x1024_1_1_0_0_n_n.lhsIdx_val_of_single rfl i q
theorem rhs_dot_0 (i : S1024x1024.Idx) (q : dot_S1024x256_S1024x256_S1024x1024_1_1_0_0_n_n.contr.Idx) :
    (dot_S1024x256_S1024x256_S1024x1024_1_1_0_0_n_n.rhsIdx i q 0).val = (i 1).val := by
  unfold DotDims.rhsIdx
  rw [dif_neg (show ¬(0 : Fin S1024x256.rank) ∈ dot_S1024x256_S1024x256_S1024x1024_1_1_0_0_n_n.rhsBatch by decide), dif_pos (show (0 : Fin S1024x256.rank) ∈ dot_S1024x256_S1024x256_S1024x1024_1_1_0_0_n_n.rhsNonContracting by decide)]
  rfl
theorem rhs_dot_1 (i : S1024x1024.Idx) (q : dot_S1024x256_S1024x256_S1024x1024_1_1_0_0_n_n.contr.Idx) :
    (dot_S1024x256_S1024x256_S1024x1024_1_1_0_0_n_n.rhsIdx i q 1).val = (q ⟨0, by decide⟩).val :=
  dot_S1024x256_S1024x256_S1024x1024_1_1_0_0_n_n.rhsIdx_val_of_single rfl i q

/-- The product of two 1024 × 256 blocks contracted along their columns, into the zero accumulator, at `(p, q)`: the sum
    over the 256 columns of row `p` of the left block times row `q` of the right one. -/
theorem matmul_rows_apply {φ₁ φ₂ : FTy} (l : FVec Ideal S1024x256 φ₁) (r : FVec Ideal S1024x256 φ₂) (p q : Fin 1024) :
    matmul (F := Ideal) dot_S1024x256_S1024x256_S1024x1024_1_1_0_0_n_n none l r (constant (F := Ideal) S1024x1024 .f32 0x00000000#32) (ix2 p q)
      = ∑ k : Fin 256, l (ix2 p k) * r (ix2 q k) := by
  simp only [matmul]
  rw [Ideal.matmul_constant_zero_apply, ← Equiv.sum_comp (ValueIdx.contrEquiv1 dot_S1024x256_S1024x256_S1024x1024_1_1_0_0_n_n 256 rfl rfl).symm]
  refine Finset.sum_congr rfl fun k _ => ?_
  have hk := ValueIdx.contrEquiv1_symm_val dot_S1024x256_S1024x256_S1024x1024_1_1_0_0_n_n 256 rfl rfl k
  have el : dot_S1024x256_S1024x256_S1024x1024_1_1_0_0_n_n.lhsIdx (ix2 p q) ((ValueIdx.contrEquiv1 dot_S1024x256_S1024x256_S1024x1024_1_1_0_0_n_n 256 rfl rfl).symm k) = ix2 p k := funext fun a => Fin.ext (by
    match a with
    | ⟨0, _⟩ => exact lhs_dot_0 _ _
    | ⟨1, _⟩ => exact (lhs_dot_1 _ _).trans hk)
  have er : dot_S1024x256_S1024x256_S1024x1024_1_1_0_0_n_n.rhsIdx (ix2 p q) ((ValueIdx.contrEquiv1 dot_S1024x256_S1024x256_S1024x1024_1_1_0_0_n_n 256 rfl rfl).symm k) = ix2 q k := funext fun a => Fin.ext (by
    match a with
    | ⟨0, _⟩ => exact rhs_dot_0 _ _
    | ⟨1, _⟩ => exact (rhs_dot_1 _ _).trans hk)
  rw [el, er]

/-! ## The payloads -/

theorem pay1_apply (j : S1x1.Idx) : k0_pay1 (F := Ideal) j = 0 := by
  unfold k0_pay1
  rw [shapeCast_self]
  exact Ideal.ofBits_zero_f32

/-- The lane sum of the squares of a block's entries, at row `p`, is the squared norm of that row. -/
theorem sq_apply (x : FVec Ideal S1024x256 .f32) (h : Shape.Reduces S1024x256 [1] S1024) (hφ : FKind.Formats .f32)
    (hacc : (0x00000000#32 : BitVec 32) = FKind.add.neutral .f32 hφ) (p : Fin 1024) :
    multiReduction (F := Ideal) .add [1] S1024 (mulf x x) 0x00000000#32 h hφ hacc (ix1 p) = Cert.Rbf.sqNorm (Cert.Rbf.rows x) p :=
  sumAxis1_apply (mulf x x) h hφ hacc p

theorem pay2_apply (x y : Vec Ideal S1024x256 .f32) (a : Vec Ideal S1x1 .f32) (j : S1x1.Idx) :
    k0_pay2 (F := Ideal) x y a j = a j + Cert.Rbf.gaussSum (Cert.Rbf.rows x) (Cert.Rbf.rows y) := by
  obtain ⟨u, w, rfl⟩ : ∃ (u : Fin 1) (w : Fin 1), j = ix2 u w := ⟨j 0, j 1, eq_ix2 j⟩
  unfold k0_pay2
  rw [shapeCast_self]
  refine congrArg (a (ix2 u w) + ·) ?_
  refine (shapeCast_a_1a_apply _ _ u w).trans ?_
  refine (sumAxis0_apply _ _ _ _ w).trans ?_
  unfold Cert.Rbf.gaussSum
  refine Finset.sum_congr rfl fun p _ => ?_
  refine (shapeCast_a_a1_apply _ _ p w).trans ?_
  refine (sumAxis1_apply _ _ _ _ p).trans ?_
  refine Finset.sum_congr rfl fun q _ => ?_
  have hx : broadcastTo S1024x1024 (shapeCast S1024x1 (multiReduction (F := Ideal) .add [1] S1024 (mulf x x) 0x00000000#32
      reduces_S1024x256_S1024 (.inl rfl) rfl) shapeCasts_S1024_S1024x1) broadcasts_S1024x1_S1024x1024 (ix2 p q)
      = Cert.Rbf.sqNorm (Cert.Rbf.rows x) p :=
    (broadcastTo_a1_ab_apply _ _ p q).trans ((shapeCast_a_a1_apply _ _ p 0).trans (sq_apply x _ _ _ p))
  have hy : broadcastTo S1024x1024 (transpose S1x1024 [1, 0] (shapeCast S1024x1 (multiReduction (F := Ideal) .add [1] S1024 (mulf y y) 0x00000000#32
      reduces_S1024x256_S1024 (.inl rfl) rfl) shapeCasts_S1024_S1024x1) transposes_S1024x1_p1_0_S1x1024) broadcasts_S1x1024_S1024x1024 (ix2 p q)
      = Cert.Rbf.sqNorm (Cert.Rbf.rows y) q :=
    (broadcastTo_1b_ab_apply _ _ p q).trans ((transpose_ix2_apply _ _ 0 q).trans ((shapeCast_a_a1_apply _ _ q 0).trans (sq_apply y _ _ _ q)))
  have hm : matmul (F := Ideal) dot_S1024x256_S1024x256_S1024x1024_1_1_0_0_n_n none (truncf .bf16 x bitsLt_bf16_f32)
      (truncf .bf16 y bitsLt_bf16_f32) (constant (F := Ideal) S1024x1024 .f32 0x00000000#32) (ix2 p q)
      = Cert.Rbf.inner (Cert.Rbf.rows x) (Cert.Rbf.rows y) p q :=
    matmul_rows_apply _ _ p q
  show Ideal.exp (Ideal.ofBits .f32 0xBF000000#32 * max ((_ + _) - Ideal.ofBits .f32 0x40000000#32 * _) (Ideal.ofBits .f32 0x00000000#32)) = _
  rw [hx, hy, hm]
  rfl

/-! ## The two sibling launches print the same arithmetic under other names -/

theorem k1_pay1_eq : k1_pay1 (F := Ideal) = k0_pay1 (F := Ideal) := rfl
theorem k1_pay2_eq : k1_pay2 (F := Ideal) = k0_pay2 (F := Ideal) := rfl
theorem k2_pay1_eq : k2_pay1 (F := Ideal) = k0_pay1 (F := Ideal) := rfl
theorem k2_pay2_eq : k2_pay2 (F := Ideal) = k0_pay2 (F := Ideal) := rfl

end Cert.KernelIdeal.Pay

end
-- ==== Proof.KI.Value0.lean ====
/-
  The first launch over the extended reals: the blocks the two input windows hold at a grid point are row tiles of one
  array, and the accumulator after the last point holds the pair sum over the whole array.

  The grid is 8 × 8 and point t = 8 · i + j: the first window's block is tile i = t / 8 of the array's 8192 rows in
  tiles of 1024, the second window's block is tile j = t % 8 of the same array. The accumulator after point n is the
  sum over the points up to n of the pair sums of the two blocks; after the last point that is the sum over all
  pairs of tiles of the tiles' pair sums, which regrouping makes the pair sum of the whole array with itself.
-/
import proofs.«155040_j17282948399227_1_alg».proof.Proof.KI.Blocks0
import proofs.«155040_j17282948399227_1_alg».proof.Proof.KI.Payload
import proofs.«155040_j17282948399227_1_alg».proof.Proof.Spec
import proofs.«155040_j17282948399227_1_alg».proof.Proof.Gen.KernelIdeal.Launch
import Idealize.ShloMosaic.Lib.ValueIdx
import Mathlib.Algebra.BigOperators.Fin
import Mathlib.Logic.Equiv.Fin.Basic

noncomputable section

open scoped BigOperators

namespace Cert.KernelIdeal.Val

open Cert.KernelIdeal Cert.KernelIdeal.Gen Cert.KernelIdeal.Frame
open Idealize.ShloMosaic Idealize.ShloMosaic.TcCoe Idealize.SL.Sem Idealize.ShloMosaic.ValueIdx
open Cert.Rbf

/-- The printed index maps, decided over the grid: the first window's block index is (t / 8, 0), the second's (t % 8, 0). -/
theorem idx_facts0 : ∀ t : Fin cfg0.N, win0_0.index t (0 : Fin 2) = t.val / 8 ∧ win0_0.index t (1 : Fin 2) = 0
    ∧ win0_1.index t (0 : Fin 2) = t.val % 8 ∧ win0_1.index t (1 : Fin 2) = 0 :=
  (by decide +kernel : ∀ t : Fin grid0.N, _)

theorem point0_lt (t : Fin cfg0.N) : t.val < 64 := lt_of_lt_of_eq t.isLt N_0

theorem div0_lt (t : Fin cfg0.N) : t.val / 8 < 8 := by have := point0_lt t; omega

theorem mod0_lt (t : Fin cfg0.N) : t.val % 8 < 8 := Nat.mod_lt _ (by decide)

section
variable (V : (c : Dev nD) → (b : Ref sig .tc) → Buf (Elt Ideal) ((c : Thread nD τ).loc b))

/-- The first window's block at point t is row tile t / 8 of the array. -/
theorem rows_iblk0_0 (c : Dev nD) (t : Fin cfg0.N) :
    rows (iblk0 V c 0 t) = tile (g := 8) (r := 1024) (rows (V c main_arg0)) ⟨t.val / 8, div0_lt t⟩ := by
  obtain ⟨e0, e1, -, -⟩ := idx_facts0 t
  funext p k
  show V c main_arg0 (((cfg0.win 0).blk t).view.emb (ix2 p k)) = V c main_arg0 (ix2 (finProdFinEquiv ((⟨t.val / 8, div0_lt t⟩ : Fin 8), p)) k)
  refine congrArg (V c main_arg0) ?_
  funext a; apply Fin.ext
  match a with
  | ⟨0, _⟩ => show win0_0.index t (0 : Fin 2) * 1024 + 1 * p.val = p.val + 1024 * (t.val / 8); omega
  | ⟨1, _⟩ => show win0_0.index t (1 : Fin 2) * 256 + 1 * k.val = k.val; omega

/-- The second window's block at point t is row tile t % 8 of the same array. -/
theorem rows_iblk0_1 (c : Dev nD) (t : Fin cfg0.N) :
    rows (iblk0 V c 1 t) = tile (g := 8) (r := 1024) (rows (V c main_arg0)) ⟨t.val % 8, mod0_lt t⟩ := by
  obtain ⟨-, -, e0, e1⟩ := idx_facts0 t
  funext p k
  show V c main_arg0 (((cfg0.win 1).blk t).view.emb (ix2 p k)) = V c main_arg0 (ix2 (finProdFinEquiv ((⟨t.val % 8, mod0_lt t⟩ : Fin 8), p)) k)
  refine congrArg (V c main_arg0) ?_
  funext a; apply Fin.ext
  match a with
  | ⟨0, _⟩ => show win0_1.index t (0 : Fin 2) * 1024 + 1 * p.val = p.val + 1024 * (t.val % 8); omega
  | ⟨1, _⟩ => show win0_1.index t (1 : Fin 2) * 256 + 1 * k.val = k.val; omega

/-- The pair sum of the two windows' blocks at point u (zero past the grid). -/
def blockSum0 (c : Dev nD) (u : ℕ) : EReal :=
  if h : u < cfg0.N then gaussSum (rows (iblk0 V c 0 ⟨u, h⟩)) (rows (iblk0 V c 1 ⟨u, h⟩)) else 0

/-- After point n the accumulator holds the sum of the points' pair sums up to n. -/
theorem acc0_sum (c : Dev nD) (j : S1x1.Idx) : ∀ (n : ℕ) (h : n < cfg0.N),
    acc0 V c n h j = ∑ u ∈ Finset.range (n + 1), blockSum0 V c u
  | 0, h => by
    show k0_pay2 (F := Ideal) (iblk0 V c 0 ⟨0, h⟩) (iblk0 V c 1 ⟨0, h⟩) (k0_pay1 (F := Ideal)) j = _
    refine (Pay.pay2_apply (iblk0 V c 0 ⟨0, h⟩) (iblk0 V c 1 ⟨0, h⟩) (k0_pay1 (F := Ideal)) j).trans ?_
    rw [Pay.pay1_apply, zero_add, Finset.sum_range_one, blockSum0, dif_pos h]
  | n + 1, h => by
    show k0_pay2 (F := Ideal) (iblk0 V c 0 ⟨n + 1, h⟩) (iblk0 V c 1 ⟨n + 1, h⟩) (acc0 V c n (Nat.lt_of_succ_lt h)) j = _
    refine (Pay.pay2_apply (iblk0 V c 0 ⟨n + 1, h⟩) (iblk0 V c 1 ⟨n + 1, h⟩) (acc0 V c n (Nat.lt_of_succ_lt h)) j).trans ?_
    rw [acc0_sum c j n (Nat.lt_of_succ_lt h), Finset.sum_range_succ _ (n + 1), blockSum0, dif_pos h]

/-- The pair sum at point 8 · i + p is the pair sum of row tiles i and p of the array. -/
theorem blockSum0_tile (c : Dev nD) (i p : Fin 8) :
    blockSum0 V c (finProdFinEquiv (i, p) : Fin (8 * 8)).val
      = gaussSum (tile (g := 8) (r := 1024) (rows (V c main_arg0)) i) (tile (g := 8) (r := 1024) (rows (V c main_arg0)) p) := by
  have hu : (finProdFinEquiv (i, p) : Fin (8 * 8)).val = p.val + 8 * i.val := rfl
  have h : p.val + 8 * i.val < cfg0.N := lt_of_lt_of_eq (by omega) N_0.symm
  rw [hu, blockSum0, dif_pos h, rows_iblk0_0, rows_iblk0_1]
  have ei : (⟨(p.val + 8 * i.val) / 8, div0_lt ⟨p.val + 8 * i.val, h⟩⟩ : Fin 8) = i := Fin.ext (by show (p.val + 8 * i.val) / 8 = i.val; omega)
  have ep : (⟨(p.val + 8 * i.val) % 8, mod0_lt ⟨p.val + 8 * i.val, h⟩⟩ : Fin 8) = p := Fin.ext (by show (p.val + 8 * i.val) % 8 = p.val; omega)
  rw [ei, ep]

/-- After the last point the accumulator holds the pair sum over the whole array. -/
theorem acc0_last (c : Dev nD) (j : S1x1.Idx) :
    acc0 V c 63 (lt_of_lt_of_eq (by decide) N_0.symm) j = gaussSum (rows (V c main_arg0)) (rows (V c main_arg0)) := by
  rw [acc0_sum V c j 63 _, ← Fin.sum_univ_eq_sum_range (fun u => blockSum0 V c u) 64,
    sum_tiles (g := 8) (r := 8) (fun a => blockSum0 V c a.val),
    gaussSum_tiles (g := 8) (r := 1024) (h := 8) (s := 1024) (rows (V c main_arg0)) (rows (V c main_arg0))]
  exact Finset.sum_congr rfl fun i _ => Finset.sum_congr rfl fun p _ => blockSum0_tile V c i p

end

end Cert.KernelIdeal.Val

end
-- ==== Proof.KI.Value1.lean ====
/-
  The second launch over the extended reals: the blocks the two input windows hold at a grid point are row tiles of
  one array, and the accumulator after the last point holds the pair sum over the whole array.

  The grid is 8 × 8 and point t = 8 · i + j: the first window's block is tile i = t / 8 of the array's 8192 rows in
  tiles of 1024, the second window's block is tile j = t % 8 of the same array. The accumulator after point n is the
  sum over the points up to n of the pair sums of the two blocks; after the last point that is the sum over all
  pairs of tiles of the tiles' pair sums, which regrouping makes the pair sum of the whole array with itself. The
  launch's arithmetic is the first launch's under other names.
-/
import proofs.«155040_j17282948399227_1_alg».proof.Proof.KI.Blocks1
import proofs.«155040_j17282948399227_1_alg».proof.Proof.KI.Payload
import proofs.«155040_j17282948399227_1_alg».proof.Proof.Spec
import proofs.«155040_j17282948399227_1_alg».proof.Proof.Gen.KernelIdeal.Launch
import Idealize.ShloMosaic.Lib.ValueIdx
import Mathlib.Algebra.BigOperators.Fin
import Mathlib.Logic.Equiv.Fin.Basic

noncomputable section

open scoped BigOperators

namespace Cert.KernelIdeal.Val

open Cert.KernelIdeal Cert.KernelIdeal.Gen Cert.KernelIdeal.Frame
open Idealize.ShloMosaic Idealize.ShloMosaic.TcCoe Idealize.SL.Sem Idealize.ShloMosaic.ValueIdx
open Cert.Rbf

/-- The printed index maps, decided over the grid: the first window's block index is (t / 8, 0), the second's (t % 8, 0). -/
theorem idx_facts1 : ∀ t : Fin cfg1.N, win1_0.index t (0 : Fin 2) = t.val / 8 ∧ win1_0.index t (1 : Fin 2) = 0
    ∧ win1_1.index t (0 : Fin 2) = t.val % 8 ∧ win1_1.index t (1 : Fin 2) = 0 :=
  (by decide +kernel : ∀ t : Fin grid1.N, _)

theorem point1_lt (t : Fin cfg1.N) : t.val < 64 := lt_of_lt_of_eq t.isLt N_1

theorem div1_lt (t : Fin cfg1.N) : t.val / 8 < 8 := by have := point1_lt t; omega

theorem mod1_lt (t : Fin cfg1.N) : t.val % 8 < 8 := Nat.mod_lt _ (by decide)

section
variable (V : (c : Dev nD) → (b : Ref sig .tc) → Buf (Elt Ideal) ((c : Thread nD τ).loc b))

/-- The first window's block at point t is row tile t / 8 of the array. -/
theorem rows_iblk1_0 (c : Dev nD) (t : Fin cfg1.N) :
    rows (iblk1 V c 0 t) = tile (g := 8) (r := 1024) (rows (V c main_arg1)) ⟨t.val / 8, div1_lt t⟩ := by
  obtain ⟨e0, e1, -, -⟩ := idx_facts1 t
  funext p k
  show V c main_arg1 (((cfg1.win 0).blk t).view.emb (ix2 p k)) = V c main_arg1 (ix2 (finProdFinEquiv ((⟨t.val / 8, div1_lt t⟩ : Fin 8), p)) k)
  refine congrArg (V c main_arg1) ?_
  funext a; apply Fin.ext
  match a with
  | ⟨0, _⟩ => show win1_0.index t (0 : Fin 2) * 1024 + 1 * p.val = p.val + 1024 * (t.val / 8); omega
  | ⟨1, _⟩ => show win1_0.index t (1 : Fin 2) * 256 + 1 * k.val = k.val; omega

/-- The second window's block at point t is row tile t % 8 of the same array. -/
theorem rows_iblk1_1 (c : Dev nD) (t : Fin cfg1.N) :
    rows (iblk1 V c 1 t) = tile (g := 8) (r := 1024) (rows (V c main_arg1)) ⟨t.val % 8, mod1_lt t⟩ := by
  obtain ⟨-, -, e0, e1⟩ := idx_facts1 t
  funext p k
  show V c main_arg1 (((cfg1.win 1).blk t).view.emb (ix2 p k)) = V c main_arg1 (ix2 (finProdFinEquiv ((⟨t.val % 8, mod1_lt t⟩ : Fin 8), p)) k)
  refine congrArg (V c main_arg1) ?_
  funext a; apply Fin.ext
  match a with
  | ⟨0, _⟩ => show win1_1.index t (0 : Fin 2) * 1024 + 1 * p.val = p.val + 1024 * (t.val % 8); omega
  | ⟨1, _⟩ => show win1_1.index t (1 : Fin 2) * 256 + 1 * k.val = k.val; omega

/-- The pair sum of the two windows' blocks at point u (zero past the grid). -/
def blockSum1 (c : Dev nD) (u : ℕ) : EReal :=
  if h : u < cfg1.N then gaussSum (rows (iblk1 V c 0 ⟨u, h⟩)) (rows (iblk1 V c 1 ⟨u, h⟩)) else 0

/-- After point n the accumulator holds the sum of the points' pair sums up to n. -/
theorem acc1_sum (c : Dev nD) (j : S1x1.Idx) : ∀ (n : ℕ) (h : n < cfg1.N),
    acc1 V c n h j = ∑ u ∈ Finset.range (n + 1), blockSum1 V c u
  | 0, h => by
    show k1_pay2 (F := Ideal) (iblk1 V c 0 ⟨0, h⟩) (iblk1 V c 1 ⟨0, h⟩) (k1_pay1 (F := Ideal)) j = _
    rw [Pay.k1_pay2_eq, Pay.k1_pay1_eq]
    refine (Pay.pay2_apply (iblk1 V c 0 ⟨0, h⟩) (iblk1 V c 1 ⟨0, h⟩) (k0_pay1 (F := Ideal)) j).trans ?_
    rw [Pay.pay1_apply, zero_add, Finset.sum_range_one, blockSum1, dif_pos h]
  | n + 1, h => by
    show k1_pay2 (F := Ideal) (iblk1 V c 0 ⟨n + 1, h⟩) (iblk1 V c 1 ⟨n + 1, h⟩) (acc1 V c n (Nat.lt_of_succ_lt h)) j = _
    rw [Pay.k1_pay2_eq]
    refine (Pay.pay2_apply (iblk1 V c 0 ⟨n + 1, h⟩) (iblk1 V c 1 ⟨n + 1, h⟩) (acc1 V c n (Nat.lt_of_succ_lt h)) j).trans ?_
    rw [acc1_sum c j n (Nat.lt_of_succ_lt h), Finset.sum_range_succ _ (n + 1), blockSum1, dif_pos h]

/-- The pair sum at point 8 · i + p is the pair sum of row tiles i and p of the array. -/
theorem blockSum1_tile (c : Dev nD) (i p : Fin 8) :
    blockSum1 V c (finProdFinEquiv (i, p) : Fin (8 * 8)).val
      = gaussSum (tile (g := 8) (r := 1024) (rows (V c main_arg1)) i) (tile (g := 8) (r := 1024) (rows (V c main_arg1)) p) := by
  have hu : (finProdFinEquiv (i, p) : Fin (8 * 8)).val = p.val + 8 * i.val := rfl
  have h : p.val + 8 * i.val < cfg1.N := lt_of_lt_of_eq (by omega) N_1.symm
  rw [hu, blockSum1, dif_pos h, rows_iblk1_0, rows_iblk1_1]
  have ei : (⟨(p.val + 8 * i.val) / 8, div1_lt ⟨p.val + 8 * i.val, h⟩⟩ : Fin 8) = i := Fin.ext (by show (p.val + 8 * i.val) / 8 = i.val; omega)
  have ep : (⟨(p.val + 8 * i.val) % 8, mod1_lt ⟨p.val + 8 * i.val, h⟩⟩ : Fin 8) = p := Fin.ext (by show (p.val + 8 * i.val) % 8 = p.val; omega)
  rw [ei, ep]

/-- After the last point the accumulator holds the pair sum over the whole array. -/
theorem acc1_last (c : Dev nD) (j : S1x1.Idx) :
    acc1 V c 63 (lt_of_lt_of_eq (by decide) N_1.symm) j = gaussSum (rows (V c main_arg1)) (rows (V c main_arg1)) := by
  rw [acc1_sum V c j 63 _, ← Fin.sum_univ_eq_sum_range (fun u => blockSum1 V c u) 64,
    sum_tiles (g := 8) (r := 8) (fun a => blockSum1 V c a.val),
    gaussSum_tiles (g := 8) (r := 1024) (h := 8) (s := 1024) (rows (V c main_arg1)) (rows (V c main_arg1))]
  exact Finset.sum_congr rfl fun i _ => Finset.sum_congr rfl fun p _ => blockSum1_tile V c i p

end

end Cert.KernelIdeal.Val

end
-- ==== Proof.KI.Value2.lean ====
/-
  The third launch over the extended reals: the blocks the two input windows hold at a grid point are row tiles of
  the two arrays, and the accumulator after the last point holds the pair sum of the first array with the second.

  The grid is 8 × 8 and point t = 8 · i + j: the first window's block is tile i = t / 8 of the first array's 8192 rows
  in tiles of 1024, the second window's block is tile j = t % 8 of the second array. The accumulator after point n is
  the sum over the points up to n of the pair sums of the two blocks; after the last point that is the sum over all
  pairs of tiles of the tiles' pair sums, which regrouping makes the pair sum of the two whole arrays. The launch's
  arithmetic is the first launch's under other names.
-/
import proofs.«155040_j17282948399227_1_alg».proof.Proof.KI.Blocks2
import proofs.«155040_j17282948399227_1_alg».proof.Proof.KI.Payload
import proofs.«155040_j17282948399227_1_alg».proof.Proof.Spec
import proofs.«155040_j17282948399227_1_alg».proof.Proof.Gen.KernelIdeal.Launch
import Idealize.ShloMosaic.Lib.ValueIdx
import Mathlib.Algebra.BigOperators.Fin
import Mathlib.Logic.Equiv.Fin.Basic

noncomputable section

open scoped BigOperators

namespace Cert.KernelIdeal.Val

open Cert.KernelIdeal Cert.KernelIdeal.Gen Cert.KernelIdeal.Frame
open Idealize.ShloMosaic Idealize.ShloMosaic.TcCoe Idealize.SL.Sem Idealize.ShloMosaic.ValueIdx
open Cert.Rbf

/-- The printed index maps, decided over the grid: the first window's block index is (t / 8, 0), the second's (t % 8, 0). -/
theorem idx_facts2 : ∀ t : Fin cfg2.N, win2_0.index t (0 : Fin 2) = t.val / 8 ∧ win2_0.index t (1 : Fin 2) = 0
    ∧ win2_1.index t (0 : Fin 2) = t.val % 8 ∧ win2_1.index t (1 : Fin 2) = 0 :=
  (by decide +kernel : ∀ t : Fin grid2.N, _)

theorem point2_lt (t : Fin cfg2.N) : t.val < 64 := lt_of_lt_of_eq t.isLt N_2

theorem div2_lt (t : Fin cfg2.N) : t.val / 8 < 8 := by have := point2_lt t; omega

theorem mod2_lt (t : Fin cfg2.N) : t.val % 8 < 8 := Nat.mod_lt _ (by decide)

section
variable (V : (c : Dev nD) → (b : Ref sig .tc) → Buf (Elt Ideal) ((c : Thread nD τ).loc b))

/-- The first window's block at point t is row tile t / 8 of the first array. -/
theorem rows_iblk2_0 (c : Dev nD) (t : Fin cfg2.N) :
    rows (iblk2 V c 0 t) = tile (g := 8) (r := 1024) (rows (V c main_arg0)) ⟨t.val / 8, div2_lt t⟩ := by
  obtain ⟨e0, e1, -, -⟩ := idx_facts2 t
  funext p k
  show V c main_arg0 (((cfg2.win 0).blk t).view.emb (ix2 p k)) = V c main_arg0 (ix2 (finProdFinEquiv ((⟨t.val / 8, div2_lt t⟩ : Fin 8), p)) k)
  refine congrArg (V c main_arg0) ?_
  funext a; apply Fin.ext
  match a with
  | ⟨0, _⟩ => show win2_0.index t (0 : Fin 2) * 1024 + 1 * p.val = p.val + 1024 * (t.val / 8); omega
  | ⟨1, _⟩ => show win2_0.index t (1 : Fin 2) * 256 + 1 * k.val = k.val; omega

/-- The second window's block at point t is row tile t % 8 of the second array. -/
theorem rows_iblk2_1 (c : Dev nD) (t : Fin cfg2.N) :
    rows (iblk2 V c 1 t) = tile (g := 8) (r := 1024) (rows (V c main_arg1)) ⟨t.val % 8, mod2_lt t⟩ := by
  obtain ⟨-, -, e0, e1⟩ := idx_facts2 t
  funext p k
  show V c main_arg1 (((cfg2.win 1).blk t).view.emb (ix2 p k)) = V c main_arg1 (ix2 (finProdFinEquiv ((⟨t.val % 8, mod2_lt t⟩ : Fin 8), p)) k)
  refine congrArg (V c main_arg1) ?_
  funext a; apply Fin.ext
  match a with
  | ⟨0, _⟩ => show win2_1.index t (0 : Fin 2) * 1024 + 1 * p.val = p.val + 1024 * (t.val % 8); omega
  | ⟨1, _⟩ => show win2_1.index t (1 : Fin 2) * 256 + 1 * k.val = k.val; omega

/-- The pair sum of the two windows' blocks at point u (zero past the grid). -/
def blockSum2 (c : Dev nD) (u : ℕ) : EReal :=
  if h : u < cfg2.N then gaussSum (rows (iblk2 V c 0 ⟨u, h⟩)) (rows (iblk2 V c 1 ⟨u, h⟩)) else 0

/-- After point n the accumulator holds the sum of the points' pair sums up to n. -/
theorem acc2_sum (c : Dev nD) (j : S1x1.Idx) : ∀ (n : ℕ) (h : n < cfg2.N),
    acc2 V c n h j = ∑ u ∈ Finset.range (n + 1), blockSum2 V c u
  | 0, h => by
    show k2_pay2 (F := Ideal) (iblk2 V c 0 ⟨0, h⟩) (iblk2 V c 1 ⟨0, h⟩) (k2_pay1 (F := Ideal)) j = _
    rw [Pay.k2_pay2_eq, Pay.k2_pay1_eq]
    refine (Pay.pay2_apply (iblk2 V c 0 ⟨0, h⟩) (iblk2 V c 1 ⟨0, h⟩) (k0_pay1 (F := Ideal)) j).trans ?_
    rw [Pay.pay1_apply, zero_add, Finset.sum_range_one, blockSum2, dif_pos h]
  | n + 1, h => by
    show k2_pay2 (F := Ideal) (iblk2 V c 0 ⟨n + 1, h⟩) (iblk2 V c 1 ⟨n + 1, h⟩) (acc2 V c n (Nat.lt_of_succ_lt h)) j = _
    rw [Pay.k2_pay2_eq]
    refine (Pay.pay2_apply (iblk2 V c 0 ⟨n + 1, h⟩) (iblk2 V c 1 ⟨n + 1, h⟩) (acc2 V c n (Nat.lt_of_succ_lt h)) j).trans ?_
    rw [acc2_sum c j n (Nat.lt_of_succ_lt h), Finset.sum_range_succ _ (n + 1), blockSum2, dif_pos h]

/-- The pair sum at point 8 · i + p is the pair sum of row tile i of the first array with row tile p of the second. -/
theorem blockSum2_tile (c : Dev nD) (i p : Fin 8) :
    blockSum2 V c (finProdFinEquiv (i, p) : Fin (8 * 8)).val
      = gaussSum (tile (g := 8) (r := 1024) (rows (V c main_arg0)) i) (tile (g := 8) (r := 1024) (rows (V c main_arg1)) p) := by
  have hu : (finProdFinEquiv (i, p) : Fin (8 * 8)).val = p.val + 8 * i.val := rfl
  have h : p.val + 8 * i.val < cfg2.N := lt_of_lt_of_eq (by omega) N_2.symm
  rw [hu, blockSum2, dif_pos h, rows_iblk2_0, rows_iblk2_1]
  have ei : (⟨(p.val + 8 * i.val) / 8, div2_lt ⟨p.val + 8 * i.val, h⟩⟩ : Fin 8) = i := Fin.ext (by show (p.val + 8 * i.val) / 8 = i.val; omega)
  have ep : (⟨(p.val + 8 * i.val) % 8, mod2_lt ⟨p.val + 8 * i.val, h⟩⟩ : Fin 8) = p := Fin.ext (by show (p.val + 8 * i.val) % 8 = p.val; omega)
  rw [ei, ep]

/-- After the last point the accumulator holds the pair sum of the first array with the second. -/
theorem acc2_last (c : Dev nD) (j : S1x1.Idx) :
    acc2 V c 63 (lt_of_lt_of_eq (by decide) N_2.symm) j = gaussSum (rows (V c main_arg0)) (rows (V c main_arg1)) := by
  rw [acc2_sum V c j 63 _, ← Fin.sum_univ_eq_sum_range (fun u => blockSum2 V c u) 64,
    sum_tiles (g := 8) (r := 8) (fun a => blockSum2 V c a.val),
    gaussSum_tiles (g := 8) (r := 1024) (h := 8) (s := 1024) (rows (V c main_arg0)) (rows (V c main_arg1))]
  exact Finset.sum_congr rfl fun i _ => Finset.sum_congr rfl fun p _ => blockSum2_tile V c i p

end

end Cert.KernelIdeal.Val

end
-- ==== Proof.KI.Result.Arr.lean ====
/-
  Each launch's 1 × 1 result array after the launch is the accumulator after the last grid point.

  The output window's block is the whole 1 × 1 array and is written back at the last point only, with what the body left
  there: the accumulator. A 1 × 1 array has one index, so the block read off the array is the array, and the one
  write-back covers every index.
-/
import proofs.«155040_j17282948399227_1_alg».proof.Proof.KI.Region0
import proofs.«155040_j17282948399227_1_alg».proof.Proof.KI.Region1
import proofs.«155040_j17282948399227_1_alg».proof.Proof.KI.Region2
import proofs.«155040_j17282948399227_1_alg».proof.Proof.KI.Shares
import proofs.«155040_j17282948399227_1_alg».proof.Proof.KI.Value0
import proofs.«155040_j17282948399227_1_alg».proof.Proof.KI.Value1
import proofs.«155040_j17282948399227_1_alg».proof.Proof.KI.Value2
import proofs.«155040_j17282948399227_1_alg».proof.Proof.Gen.KernelIdeal.Points
import Idealize.ShloMosaic.Lib.Pipeline.Value

noncomputable section

namespace Cert.KernelIdeal.Val

open Cert.KernelIdeal Cert.KernelIdeal.Gen Cert.KernelIdeal.Frame
open Idealize.ShloMosaic Idealize.ShloMosaic.TcCoe Idealize.SL.Sem Idealize.ShloMosaic.ValueIdx
open Idealize.SL Idealize.SL.RA
open Idealize.ShloMosaic.Pipeline (Dat)
open Cert.Rbf Idealize.ShloMosaic.StableHlo

/-- A 1 × 1 array has one index. -/
theorem idx11_eq (i j : S1x1.Idx) : i = j := funext fun a => Fin.ext (by
  match a with
  | ⟨0, _⟩ => have h1 : (i 0).val < 1 := (i 0).isLt; have h2 : (j 0).val < 1 := (j 0).isLt; show (i 0).val = (j 0).val; omega
  | ⟨1, _⟩ => have h1 : (i 1).val < 1 := (i 1).isLt; have h2 : (j 1).val < 1 := (j 1).isLt; show (i 1).val = (j 1).val; omega)

theorem out_idx0 : ∀ t : Fin cfg0.N, win0_2.index t (0 : Fin 2) = 0 ∧ win0_2.index t (1 : Fin 2) = 0 :=
  (by decide +kernel : ∀ t : Fin grid0.N, _)

/-- The output window's one block is the whole 1 × 1 array. -/
theorem mem_out0 (t : Fin cfg0.N) (i : S1x1.Idx) : i ∈ ((cfg0.win 2).blk t).view.set := by
  obtain ⟨e0, e1⟩ := out_idx0 t
  show i ∈ ((View.whole main_v0).slice (win0_2.rect t)).set
  rw [View.set_slice_whole, Rect.mem_set_unit]
  intro a
  match a with
  | ⟨0, _⟩ =>
    have hi : (i 0).val < 1 := (i 0).isLt
    show win0_2.index t (0 : Fin 2) * 1 ≤ (i 0).val ∧ (i 0).val < win0_2.index t (0 : Fin 2) * 1 + 1
    omega
  | ⟨1, _⟩ =>
    have hi : (i 1).val < 1 := (i 1).isLt
    show win0_2.index t (1 : Fin 2) * 1 ≤ (i 1).val ∧ (i 1).val < win0_2.index t (1 : Fin 2) * 1 + 1
    omega

/-- The result array after the launch is the accumulator after the last point: the one write-back, at the last point,
    writes the accumulator over the whole array. -/
theorem arr0 {F : FTy → Type} [FloatOps F] (V : (c : Dev nD) → (b : Ref sig .tc) → Buf (Elt F) ((c : Thread nD τ).loc b))
    (q : Fin cfg0.W → PosShare TreeShare) (c : Dev nD) :
    (dat0 V q c).arrAt 2 cfg0.N = acc0 V c 63 (lt_of_lt_of_eq (by decide) N_0.symm) := by
  refine (dat0 V q c).arrAt_eq_of_cover 2 (acc0 V c 63 (lt_of_lt_of_eq (by decide) N_0.symm)) (fun t hf => ?_) (fun i => ?_)
  · have ht : t.val = 63 := by have h1 := (flush0_2 t).mp hf; have h2 := point0_lt t; omega
    obtain ⟨n, hn⟩ := t
    subst ht
    show (cfg0.win 2).cut (grid0.coords ⟨63, hn⟩) ((dat0 V q c).after 2 ⟨63, hn⟩) = _
    rw [after0_2]
    funext y
    show acc0 V c 63 hn ((cfg0.win 2).xinj (grid0.coords ⟨63, hn⟩) y) = acc0 V c 63 hn (((cfg0.win 2).blk ⟨63, hn⟩).view.emb y)
    exact congrArg (acc0 V c 63 hn) (idx11_eq _ _)
  · exact ⟨⟨63, lt_of_lt_of_eq (by decide) N_0.symm⟩, (flush0_2 _).mpr rfl, mem_out0 _ i⟩

theorem out_idx1 : ∀ t : Fin cfg1.N, win1_2.index t (0 : Fin 2) = 0 ∧ win1_2.index t (1 : Fin 2) = 0 :=
  (by decide +kernel : ∀ t : Fin grid1.N, _)

/-- The output window's one block is the whole 1 × 1 array. -/
theorem mem_out1 (t : Fin cfg1.N) (i : S1x1.Idx) : i ∈ ((cfg1.win 2).blk t).view.set := by
  obtain ⟨e0, e1⟩ := out_idx1 t
  show i ∈ ((View.whole main_v3).slice (win1_2.rect t)).set
  rw [View.set_slice_whole, Rect.mem_set_unit]
  intro a
  match a with
  | ⟨0, _⟩ =>
    have hi : (i 0).val < 1 := (i 0).isLt
    show win1_2.index t (0 : Fin 2) * 1 ≤ (i 0).val ∧ (i 0).val < win1_2.index t (0 : Fin 2) * 1 + 1
    omega
  | ⟨1, _⟩ =>
    have hi : (i 1).val < 1 := (i 1).isLt
    show win1_2.index t (1 : Fin 2) * 1 ≤ (i 1).val ∧ (i 1).val < win1_2.index t (1 : Fin 2) * 1 + 1
    omega

/-- The result array after the launch is the accumulator after the last point: the one write-back, at the last point,
    writes the accumulator over the whole array. -/
theorem arr1 {F : FTy → Type} [FloatOps F] (V : (c : Dev nD) → (b : Ref sig .tc) → Buf (Elt F) ((c : Thread nD τ).loc b))
    (q : Fin cfg1.W → PosShare TreeShare) (c : Dev nD) :
    (dat1 V q c).arrAt 2 cfg1.N = acc1 V c 63 (lt_of_lt_of_eq (by decide) N_1.symm) := by
  refine (dat1 V q c).arrAt_eq_of_cover 2 (acc1 V c 63 (lt_of_lt_of_eq (by decide) N_1.symm)) (fun t hf => ?_) (fun i => ?_)
  · have ht : t.val = 63 := by have h1 := (flush1_2 t).mp hf; have h2 := point1_lt t; omega
    obtain ⟨n, hn⟩ := t
    subst ht
    show (cfg1.win 2).cut (grid1.coords ⟨63, hn⟩) ((dat1 V q c).after 2 ⟨63, hn⟩) = _
    rw [after1_2]
    funext y
    show acc1 V c 63 hn ((cfg1.win 2).xinj (grid1.coords ⟨63, hn⟩) y) = acc1 V c 63 hn (((cfg1.win 2).blk ⟨63, hn⟩).view.emb y)
    exact congrArg (acc1 V c 63 hn) (idx11_eq _ _)
  · exact ⟨⟨63, lt_of_lt_of_eq (by decide) N_1.symm⟩, (flush1_2 _).mpr rfl, mem_out1 _ i⟩

theorem out_idx2 : ∀ t : Fin cfg2.N, win2_2.index t (0 : Fin 2) = 0 ∧ win2_2.index t (1 : Fin 2) = 0 :=
  (by decide +kernel : ∀ t : Fin grid2.N, _)

/-- The output window's one block is the whole 1 × 1 array. -/
theorem mem_out2 (t : Fin cfg2.N) (i : S1x1.Idx) : i ∈ ((cfg2.win 2).blk t).view.set := by
  obtain ⟨e0, e1⟩ := out_idx2 t
  show i ∈ ((View.whole main_v6).slice (win2_2.rect t)).set
  rw [View.set_slice_whole, Rect.mem_set_unit]
  intro a
  match a with
  | ⟨0, _⟩ =>
    have hi : (i 0).val < 1 := (i 0).isLt
    show win2_2.index t (0 : Fin 2) * 1 ≤ (i 0).val ∧ (i 0).val < win2_2.index t (0 : Fin 2) * 1 + 1
    omega
  | ⟨1, _⟩ =>
    have hi : (i 1).val < 1 := (i 1).isLt
    show win2_2.index t (1 : Fin 2) * 1 ≤ (i 1).val ∧ (i 1).val < win2_2.index t (1 : Fin 2) * 1 + 1
    omega

/-- The result array after the launch is the accumulator after the last point: the one write-back, at the last point,
    writes the accumulator over the whole array. -/
theorem arr2 {F : FTy → Type} [FloatOps F] (V : (c : Dev nD) → (b : Ref sig .tc) → Buf (Elt F) ((c : Thread nD τ).loc b))
    (q : Fin cfg2.W → PosShare TreeShare) (c : Dev nD) :
    (dat2 V q c).arrAt 2 cfg2.N = acc2 V c 63 (lt_of_lt_of_eq (by decide) N_2.symm) := by
  refine (dat2 V q c).arrAt_eq_of_cover 2 (acc2 V c 63 (lt_of_lt_of_eq (by decide) N_2.symm)) (fun t hf => ?_) (fun i => ?_)
  · have ht : t.val = 63 := by have h1 := (flush2_2 t).mp hf; have h2 := point2_lt t; omega
    obtain ⟨n, hn⟩ := t
    subst ht
    show (cfg2.win 2).cut (grid2.coords ⟨63, hn⟩) ((dat2 V q c).after 2 ⟨63, hn⟩) = _
    rw [after2_2]
    funext y
    show acc2 V c 63 hn ((cfg2.win 2).xinj (grid2.coords ⟨63, hn⟩) y) = acc2 V c 63 hn (((cfg2.win 2).blk ⟨63, hn⟩).view.emb y)
    exact congrArg (acc2 V c 63 hn) (idx11_eq _ _)
  · exact ⟨⟨63, lt_of_lt_of_eq (by decide) N_2.symm⟩, (flush2_2 _).mpr rfl, mem_out2 _ i⟩

end Cert.KernelIdeal.Val

end
-- ==== Proof.KI.Result.Args.lean ====
/-
  The two arguments at the entry of the second and of the third launch are the launch's arguments: no host operation
  and no launch writes an argument, so its contents walk back through every segment to the launch memory.
-/
import proofs.«155040_j17282948399227_1_alg».proof.Proof.KI.Run
import Idealize.ShloMosaic.Lib.StableHlo.Run

noncomputable section

namespace Cert.KernelIdeal.Val

open Cert.KernelIdeal Cert.KernelIdeal.Gen Cert.KernelIdeal.Frame
open Idealize.ShloMosaic Idealize.ShloMosaic.TcCoe Idealize.SL.Sem Idealize.ShloMosaic.StableHlo

section
variable {F : FTy → Type} [FloatOps F] (m : (ℓ : Loc nD τ sig) → Buf (Elt F) ℓ) (ρ : Dev nD → PrngReg)

/-- The first argument at the second launch's entry. -/
theorem V2_arg0 (c : Dev nD) : V2 m ρ c main_arg0 = m ((c.tc : Thread nD τ).loc main_arg0) := by
  show StableHlo.after hostOps1 (W1 m ρ c) (Proc.devRef .tc main_arg0) = _
  after_results
  exact W1_of m ρ c main_arg0 (by decide)

/-- The second argument at the second launch's entry. -/
theorem V2_arg1 (c : Dev nD) : V2 m ρ c main_arg1 = m ((c.tc : Thread nD τ).loc main_arg1) := by
  show StableHlo.after hostOps1 (W1 m ρ c) (Proc.devRef .tc main_arg1) = _
  after_results
  exact W1_of m ρ c main_arg1 (by decide)

/-- The first argument at the third launch's entry. -/
theorem V4_arg0 (c : Dev nD) : V4 m ρ c main_arg0 = m ((c.tc : Thread nD τ).loc main_arg0) := by
  show StableHlo.after hostOps2 (W3 m ρ c) (Proc.devRef .tc main_arg0) = _
  after_results
  exact (W3_of m ρ c main_arg0 (by decide)).trans (V2_arg0 m ρ c)

/-- The second argument at the third launch's entry. -/
theorem V4_arg1 (c : Dev nD) : V4 m ρ c main_arg1 = m ((c.tc : Thread nD τ).loc main_arg1) := by
  show StableHlo.after hostOps2 (W3 m ρ c) (Proc.devRef .tc main_arg1) = _
  after_results
  exact (W3_of m ρ c main_arg1 (by decide)).trans (V2_arg1 m ρ c)

end

end Cert.KernelIdeal.Val

end
-- ==== Proof.KI.Result.lean ====
/-
  The kernel's result is the specification's scalar.

  Each launch leaves its pair sum in a 1 × 1 array; the host operations after it read the one entry and divide it by the
  number of pairs; the last stretch combines the three means as k(X,X) + k(Y,Y) − 2 · k(X,Y). The first two means pass
  through the later segments unchanged.
-/
import proofs.«155040_j17282948399227_1_alg».proof.Proof.KI.Run
import proofs.«155040_j17282948399227_1_alg».proof.Proof.KI.Result.Arr
import proofs.«155040_j17282948399227_1_alg».proof.Proof.KI.Result.Args
import proofs.«155040_j17282948399227_1_alg».proof.Proof.KI.Value0
import proofs.«155040_j17282948399227_1_alg».proof.Proof.KI.Value1
import proofs.«155040_j17282948399227_1_alg».proof.Proof.KI.Value2
import proofs.«155040_j17282948399227_1_alg».proof.Proof.Spec
import Idealize.ShloMosaic.Lib.StableHlo.Run
import Idealize.ShloMosaic.PureOps.Ideal

noncomputable section

namespace Cert.KernelIdeal.Val

open Cert.KernelIdeal Cert.KernelIdeal.Gen Cert.KernelIdeal.Frame
open Idealize.ShloMosaic Idealize.ShloMosaic.TcCoe Idealize.SL.Sem Idealize.ShloMosaic.ValueIdx
open Idealize.SL Idealize.SL.RA
open Idealize.ShloMosaic.Pipeline (Dat)
open Cert.Rbf Idealize.ShloMosaic.StableHlo

section
variable (m : (ℓ : Loc nD τ sig) → Buf (Elt Ideal) ℓ) (ρ : Dev nD → PrngReg)

/-! ## The three means -/

/-- After the first host stretch: the first pair sum divided by the number of pairs. -/
theorem mean0 (c : Dev nD) (i : S_.Idx) :
    W2 m ρ c (Proc.devRef .tc main_v2) i
      = Ideal.div (gaussSum (rows (m ((c.tc : Thread nD τ).loc main_arg0))) (rows (m ((c.tc : Thread nD τ).loc main_arg0)))) (Ideal.ofBits .f32 0x4C800000#32) := by
  show StableHlo.after hostOps1 (W1 m ρ c) (Proc.devRef .tc main_v2) i = _
  after_results
  have hA : W1 m ρ c (Proc.devRef .tc main_v0) = acc0 (V0 m ρ) c 63 (lt_of_lt_of_eq (by decide) N_0.symm) :=
    (W1_out m ρ c).trans (arr0 (V0 m ρ) qHalves c)
  rw [hA]
  exact congrArg (Ideal.div · (Ideal.ofBits .f32 0x4C800000#32)) (acc0_last (V0 m ρ) c _)

/-- After the second host stretch: the second pair sum divided by the number of pairs. -/
theorem mean1 (c : Dev nD) (i : S_.Idx) :
    W4 m ρ c (Proc.devRef .tc main_v5) i
      = Ideal.div (gaussSum (rows (m ((c.tc : Thread nD τ).loc main_arg1))) (rows (m ((c.tc : Thread nD τ).loc main_arg1)))) (Ideal.ofBits .f32 0x4C800000#32) := by
  show StableHlo.after hostOps2 (W3 m ρ c) (Proc.devRef .tc main_v5) i = _
  after_results
  have hA : W3 m ρ c (Proc.devRef .tc main_v3) = acc1 (V2 m ρ) c 63 (lt_of_lt_of_eq (by decide) N_1.symm) :=
    (W3_out m ρ c).trans (arr1 (V2 m ρ) qHalves c)
  rw [hA]
  refine congrArg (Ideal.div · (Ideal.ofBits .f32 0x4C800000#32)) ((acc1_last (V2 m ρ) c _).trans ?_)
  rw [V2_arg1]

/-- The first mean passes through the later stretches and launches unchanged. -/
theorem W5_v2 (c : Dev nD) : W5 m ρ c (Proc.devRef .tc main_v2) = W2 m ρ c (Proc.devRef .tc main_v2) := by
  refine (W5_of m ρ c main_v2 (by decide)).trans ?_
  show StableHlo.after hostOps2 (W3 m ρ c) (Proc.devRef .tc main_v2) = _
  after_results
  exact W3_of m ρ c main_v2 (by decide)

/-- The second mean passes through the third launch unchanged. -/
theorem W5_v5 (c : Dev nD) : W5 m ρ c (Proc.devRef .tc main_v5) = W4 m ρ c (Proc.devRef .tc main_v5) :=
  W5_of m ρ c main_v5 (by decide)

/-- The kernel's result is the specification's scalar. -/
theorem result_eq (c : Dev nD) :
    W6 m ρ c (Proc.devRef .tc main_v11) = mmd (rows (m ((c.tc : Thread nD τ).loc main_arg0))) (rows (m ((c.tc : Thread nD τ).loc main_arg1))) := by
  show StableHlo.after hostOps3 (W5 m ρ c) (Proc.devRef .tc main_v11) = _
  after_results
  have hA : W5 m ρ c (Proc.devRef .tc main_v6) = acc2 (V4 m ρ) c 63 (lt_of_lt_of_eq (by decide) N_2.symm) :=
    (W5_out m ρ c).trans (arr2 (V4 m ρ) qFull c)
  rw [hA, W5_v2, W5_v5]
  funext i
  refine congrArg₂ (· - ·) (congrArg₂ (· + ·) (mean0 m ρ c i) (mean1 m ρ c i))
    (congrArg (Ideal.ofBits .f32 0x40000000#32 * ·) (congrArg (Ideal.div · (Ideal.ofBits .f32 0x4C800000#32)) ((acc2_last (V4 m ρ) c _).trans ?_)))
  rw [V4_arg0, V4_arg1]

end

end Cert.KernelIdeal.Val

end
-- ==== Proof.RefValue.lean ====
/-
  The reference program's result is the specification's scalar.

  Each of the three pair sums is read element by element: the entry at (a, b) of the exponentiated array is the
  Gaussian pair term of rows a and b, and the sum over every index of the square array is the double sum over rows.
  The three pair sums are one computation at three pairs of arguments, so one reading serves all three.
-/
import proofs.«155040_j17282948399227_1_alg».proof.Proof.Gen.ReferenceIdeal.Read
import proofs.«155040_j17282948399227_1_alg».proof.Proof.Spec
import Idealize.ShloMosaic.Lib.ValueIdx
import Idealize.ShloMosaic.PureOps.Ideal
import Idealize.ShloMosaic.PureOps.Ideal.Laws

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.ValueIdx Cert.Rbf

/-- The broadcast column of squared norms holds, at (a, b), the squared norm of row a. -/
theorem sq_left (x0 : (⟨S8192x256, .f32⟩ : BufTy).Contents (Elt Ideal)) (a b : Fin 8192) :
    Read.val_main_v46 (F := Ideal) x0 (ix2 a b) = sqNorm (rows x0) a := by
  have e : ∀ k : Fin 256, Read.idx_main_v41 (Read.idx_main_v44 (Read.idx_main_v46 (ix2 a b))) k = ix2 a k :=
    fun k => funext fun d => Fin.ext (by match d with | ⟨0, _⟩ => rfl | ⟨1, _⟩ => rfl)
  rw [Read.val_main_v46_apply, Read.val_main_v44_apply, Read.val_main_v41_apply, Read.val_main_cst_13_apply]
  simp only [Read.val_main_v40_apply, e, Ideal.ofBits_def, Ideal.ofBits_zero_f32, zero_add, Ideal.mulf_def]
  rfl

/-- The broadcast row of squared norms holds, at (a, b), the squared norm of row b. -/
theorem sq_right (x1 : (⟨S8192x256, .f32⟩ : BufTy).Contents (Elt Ideal)) (a b : Fin 8192) :
    Read.val_main_v47 (F := Ideal) x1 (ix2 a b) = sqNorm (rows x1) b := by
  have e : ∀ k : Fin 256, Read.idx_main_v43 (Read.idx_main_v45 (Read.idx_main_v47 (ix2 a b))) k = ix2 b k :=
    fun k => funext fun d => Fin.ext (by match d with | ⟨0, _⟩ => rfl | ⟨1, _⟩ => rfl)
  rw [Read.val_main_v47_apply, Read.val_main_v45_apply, Read.val_main_v43_apply, Read.val_main_cst_14_apply]
  simp only [Read.val_main_v42_apply, e, Ideal.ofBits_def, Ideal.ofBits_zero_f32, zero_add, Ideal.mulf_def]
  rfl

/-- The contraction holds, at (a, b), the inner product of row a with row b. -/
theorem dot_at (x0 x1 : (⟨S8192x256, .f32⟩ : BufTy).Contents (Elt Ideal)) (a b : Fin 8192) :
    Read.val_main_v49 (F := Ideal) x0 x1 (ix2 a b) = inner (rows x0) (rows x1) a b := by
  have el : ∀ k : Fin 256, Read.lidx_main_v49 (ix2 a b) k = ix2 a k :=
    fun k => funext fun d => Fin.ext (by match d with | ⟨0, _⟩ => rfl | ⟨1, _⟩ => rfl)
  have er : ∀ k : Fin 256, Read.ridx_main_v49 (ix2 a b) k = ix2 b k :=
    fun k => funext fun d => Fin.ext (by match d with | ⟨0, _⟩ => rfl | ⟨1, _⟩ => rfl)
  rw [Read.val_main_v49_apply]
  simp only [el, er]
  rfl

/-- The exponentiated array holds, at (a, b), the Gaussian pair term of rows a and b. -/
theorem gauss_at (x0 x1 : (⟨S8192x256, .f32⟩ : BufTy).Contents (Elt Ideal)) (a b : Fin 8192) :
    Read.val_main_v57 (F := Ideal) x0 x1 (ix2 a b) = gauss (rows x0) (rows x1) a b := by
  rw [Read.val_main_v57_apply, Read.val_main_v56_apply, Read.val_main_v55_apply, Read.val_main_cst_17_apply,
    Read.val_main_v54_apply, Read.val_main_v53_apply, Read.val_main_cst_16_apply, Read.val_main_v52_apply,
    Read.val_main_v48_apply, sq_left, sq_right, Read.val_main_v51_apply, Read.val_main_v50_apply,
    Read.val_main_cst_15_apply, dot_at]
  simp only [Ideal.ofBits_def, Ideal.addf_def, Ideal.subf_def, Ideal.mulf_def, Ideal.maximumf_def, Ideal.hostUnary_exp_def]
  rfl

/-- The sum over every entry of the exponentiated array is the sum of the pair term over all pairs of rows. -/
theorem pair_st (x0 x1 : (⟨S8192x256, .f32⟩ : BufTy).Contents (Elt Ideal)) (i : S_.Idx) :
    Read.val_main_v58 (F := Ideal) x0 x1 i = gaussSum (rows x0) (rows x1) := by
  rw [Read.val_main_v58_apply, Read.val_main_cst_18_apply, Ideal.ofBits_def, Ideal.ofBits_zero_f32, zero_add, sum_idx2]
  exact Finset.sum_congr rfl fun a _ => Finset.sum_congr rfl fun b _ => gauss_at x0 x1 a b

/-- The first pair sum is the same computation at the pair (x0, x0). -/
theorem pair_ss (x0 : (⟨S8192x256, .f32⟩ : BufTy).Contents (Elt Ideal)) (i : S_.Idx) :
    Read.val_main_v18 (F := Ideal) x0 i = gaussSum (rows x0) (rows x0) := pair_st x0 x0 i

/-- The second pair sum is the same computation at the pair (x1, x1). -/
theorem pair_tt (x1 : (⟨S8192x256, .f32⟩ : BufTy).Contents (Elt Ideal)) (i : S_.Idx) :
    Read.val_main_v38 (F := Ideal) x1 i = gaussSum (rows x1) (rows x1) := pair_st x1 x1 i

/-- The scalar tail: the three means combined. -/
theorem result_eq (x0 x1 : (⟨S8192x256, .f32⟩ : BufTy).Contents (Elt Ideal)) :
    Read.val_main_v62 (F := Ideal) x0 x1 = mmd (rows x0) (rows x1) := by
  funext i
  rw [Read.val_main_v62_apply, Read.val_main_v60_apply, Read.val_main_v61_apply, Read.val_main_v19_apply,
    Read.val_main_v39_apply, Read.val_main_v59_apply, pair_ss, pair_tt, pair_st, Read.val_main_cst_5_apply,
    Read.val_main_cst_12_apply, Read.val_main_cst_19_apply, Read.val_main_cst_20_apply]
  simp only [Ideal.ofBits_def, Ideal.addf_def, Ideal.subf_def, Ideal.mulf_def, Ideal.hostDivf_def]
  rfl

/-- The reference's result is the specification's scalar. -/
theorem run_spec (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ fun r => ∀ c : Dev nD,
      r.2.mem ((c.tc : Thread nD τ).loc main_v62)
          = Cert.Rbf.mmd (Cert.Rbf.rows (m ((c.tc : Thread nD τ).loc main_arg0))) (Cert.Rbf.rows (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨by rw [(h c).1, Read.val_main_v62_eq, result_eq], (h c).2⟩)
    (Cert.ReferenceIdeal.Value.run (F := Ideal) m ρ)

end Cert.ReferenceIdeal.RefValue

end
-- ==== Proof.lean ====
/-
  The kernel computes a maximum-mean-discrepancy loss with a Gaussian kernel of unit bandwidth over two families of 8192
  rows in dimension 256: `k(S,S) + k(T,T) − 2·k(S,T)`, where `k(X,Y)` is the mean over all 8192² pairs of
  `exp(−½·max(‖X a‖² + ‖Y b‖² − 2⟨X a, Y b⟩, 0))`. It runs three pallas_calls, one per pair of families, each over an 8×8
  grid of 1024×1024 tiles of the pair matrix: at a grid point the body forms the tile's squared distances from the row norms
  and a matrix product of the (bf16-truncated) blocks, exponentiates, and adds the tile's total to a 1×1 scratch accumulator that
  is reset at the first point and copied to the 1×1 output at the last; the host divides each total by 2²⁶ and combines the three.
  The reference forms each whole 8192×8192 pair matrix on the host and takes its mean.

  At the ideal instance a change of float format is the identity and the matrix unit's product into a zero accumulator is the
  plain sum, so tile by tile the kernel adds exactly the reference's pair terms; the only difference is the grouping of the sum —
  64 tiles, rows within a tile, lanes within a row, against one sum over all pairs — and the extended reals are a commutative
  additive monoid, so the two groupings agree (`Cert.Rbf.gaussSum_tiles`, Proof/Spec.lean). No finiteness is used: the
  precondition is never opened. Both programs end at `Cert.Rbf.mmd` of the two argument arrays' rows.

  The frames: each pallas_call is certified against the pipeline library with proof data that carry the accumulator through the
  region's invariant (Proof/KI/Region*.lean over the body's three control cases, Proof/KI/Body*.lean); calls 0 and 1 read one
  array through both input windows, each at half of its share (Proof/KI/Enter*.lean); @main's six segments are launched together
  and every unscoped buffer is read off the last valuation (Proof/KI/Run.lean). The printed program's frame is the same text at
  the word-level instance (Proof/K/). The reference's frame is its run with the result dropped. The ideal pass rewrote nothing,
  so `preserves` is trivial.
-/
import proofs.«155040_j17282948399227_1_alg».proof.Defs
import proofs.«155040_j17282948399227_1_alg».proof.Proof.Gen.Kernel
import proofs.«155040_j17282948399227_1_alg».proof.Proof.Gen.KernelIdeal
import proofs.«155040_j17282948399227_1_alg».proof.Proof.Gen.ReferenceIdeal
import proofs.«155040_j17282948399227_1_alg».proof.Proof.Gen.ReferenceIdeal.Run
import proofs.«155040_j17282948399227_1_alg».proof.Proof.Gen.Pre_finite_inputs
import proofs.«155040_j17282948399227_1_alg».proof.Proof.K.Kept
import proofs.«155040_j17282948399227_1_alg».proof.Proof.KI.Kept
import proofs.«155040_j17282948399227_1_alg».proof.Proof.KI.Result
import proofs.«155040_j17282948399227_1_alg».proof.Proof.RefValue
import Idealize.ShloMosaic.Adequacy
import Idealize.ShloMosaic.Init

noncomputable section

namespace Cert.Proof

open Idealize.ShloMosaic Idealize.ShloMosaic.TcCoe Idealize.SL.Sem

/-- The printed program runs and leaves its arguments unchanged. -/
theorem frame_k : Cert.frame_Kernel := fun m ρ _ => Cert.Kernel.Frame.frame (F := Bits) m ρ

/-- So does its idealization. -/
theorem frame_ki : Cert.frame_KernelIdeal := fun m ρ _ => Cert.KernelIdeal.Frame.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both idealized programs end with the specification's scalar of the argument arrays' rows. -/
theorem algebraic : Cert.algebraic_KernelIdeal_ReferenceIdeal := by
  intro m ρ m' ρ' _ hagree
  refine ⟨fun c => Cert.Rbf.mmd (Cert.Rbf.rows (m ((c.tc : Thread Cert.KernelIdeal.nD Cert.KernelIdeal.τ).loc Cert.KernelIdeal.main_arg0)))
      (Cert.Rbf.rows (m ((c.tc : Thread Cert.KernelIdeal.nD Cert.KernelIdeal.τ).loc Cert.KernelIdeal.main_arg1))), ?_, ?_⟩
  · exact (θ_run Cert.KernelIdeal.defs _ _).mono (fun _ h c =>
      ⟨(h c _ (Cert.KernelIdeal.Frame.mem_uc Cert.KernelIdeal.main_v11 (by decide))).trans (Cert.KernelIdeal.Val.result_eq m ρ c),
       (h c _ (Cert.KernelIdeal.Frame.mem_uc Cert.KernelIdeal.main_arg0 (by decide))).trans (Cert.KernelIdeal.Frame.W6_main_arg0 m ρ c),
       (h c _ (Cert.KernelIdeal.Frame.mem_uc Cert.KernelIdeal.main_arg1 (by decide))).trans (Cert.KernelIdeal.Frame.W6_main_arg1 m ρ c)⟩)
      (Cert.KernelIdeal.Frame.run_all (F := Ideal) m ρ)
  · refine (θ_run Cert.ReferenceIdeal.defs _ _).mono (fun _ h c => ⟨(h c).1.trans ?_, (h c).2⟩)
      (Cert.ReferenceIdeal.RefValue.run_spec m' ρ')
    rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
